-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x32x256x256 : Shape := ⟨4, ![16, 32, 256, 256]⟩
abbrev S16x256x256 : Shape := ⟨3, ![16, 256, 256]⟩
abbrev S_ : Shape := ⟨0, ![]⟩

class Facts : Prop where
  bcast_S_S16x32x256x256 : S_.BroadcastsInDim S16x32x256x256 (![] : Fin 0 → Fin S16x32x256x256.rank)
  reducesTo_S16x32x256x256_S_d0_1_2_3 : S16x32x256x256.ReducesTo [0, 1, 2, 3] S_
  h_S_ : 0 < S_.numel
  bcast_S_S16x256x256 : S_.BroadcastsInDim S16x256x256 (![] : Fin 0 → Fin S16x256x256.rank)
  reducesTo_S16x256x256_S_d0_1_2 : S16x256x256.ReducesTo [0, 1, 2] S_

variable [Facts]

def fn {F : FTy → Type} [FloatOps F] (main_arg0 : FVec F S16x32x256x256 .f32) (main_arg1 : IVec S16x256x256 32) : IVec S_ 1 :=
  let main_v0 : FVec F S16x32x256x256 .f32 := Host.absf main_arg0
  let main_cst : FVec F S_ .f32 := constant S_ .f32 0x7F800000#32
  let main_v1 : FVec F S16x32x256x256 .f32 := broadcastInDim S16x32x256x256 ![] bcast_S_S16x32x256x256 main_cst
  let main_v2 : IVec S16x32x256x256 1 := cmpf .olt main_v0 main_v1
  let main_c : IVec S_ 1 := constantI S_ 1 1#1
  let main_v3 : IVec S_ 1 := (fun x v => Host.reduce IntOp.andi x v reducesTo_S16x32x256x256_S_d0_1_2_3 h_S_) main_v2 main_c
  let main_c_0 : IVec S_ 32 := constantI S_ 32 0#32
  let main_v4 : IVec S16x256x256 32 := broadcastInDim S16x256x256 ![] bcast_S_S16x256x256 main_c_0
  let main_v5 : IVec S16x256x256 1 := cmpi .sge main_arg1 main_v4
  let main_c_1 : IVec S_ 1 := constantI S_ 1 1#1
  let main_v6 : IVec S_ 1 := (fun x v => Host.reduce IntOp.andi x v reducesTo_S16x256x256_S_d0_1_2 h_S_) main_v5 main_c_1
  let main_v7 : IVec S_ 1 := andi main_v3 main_v6
  let main_c_2 : IVec S_ 32 := constantI S_ 32 32#32
  let main_v8 : IVec S16x256x256 32 := broadcastInDim S16x256x256 ![] bcast_S_S16x256x256 main_c_2
  let main_v9 : IVec S16x256x256 1 := cmpi .slt main_arg1 main_v8
  let main_c_3 : IVec S_ 1 := constantI S_ 1 1#1
  let main_v10 : IVec S_ 1 := (fun x v => Host.reduce IntOp.andi x v reducesTo_S16x256x256_S_d0_1_2 h_S_) main_v9 main_c_3
  let main_v11 : IVec S_ 1 := andi main_v7 main_v10
  main_v11
-- ==== Kernel.lean ====
abbrev S16x32x256x256 : Shape := ⟨4, ![16, 32, 256, 256]⟩
abbrev S16x256x256 : Shape := ⟨3, ![16, 256, 256]⟩
abbrev S32x1x1 : Shape := ⟨3, ![32, 1, 1]⟩
abbrev S1x128x256 : Shape := ⟨3, ![1, 128, 256]⟩
abbrev S128x256 : Shape := ⟨2, ![128, 256]⟩
abbrev S32x128x256 : Shape := ⟨3, ![32, 128, 256]⟩
abbrev S32x128 : Shape := ⟨2, ![32, 128]⟩
abbrev S32x128x1 : Shape := ⟨3, ![32, 128, 1]⟩
abbrev S32x1 : Shape := ⟨2, ![32, 1]⟩
abbrev S_ : Shape := ⟨0, ![]⟩
abbrev S16x1x2 : Shape := ⟨3, ![16, 1, 2]⟩
abbrev S1x32x128x256 : Shape := ⟨4, ![1, 32, 128, 256]⟩
abbrev S1x1x2 : Shape := ⟨3, ![1, 1, 2]⟩
abbrev S1x2 : Shape := ⟨2, ![1, 2]⟩
abbrev S128 : Shape := ⟨1, ![128]⟩
abbrev S128x1 : Shape := ⟨2, ![128, 1]⟩
abbrev S1 : Shape := ⟨1, ![1]⟩
abbrev S1x1 : Shape := ⟨2, ![1, 1]⟩
abbrev S16x1x1 : Shape := ⟨3, ![16, 1, 1]⟩
abbrev S16 : Shape := ⟨1, ![16]⟩

abbrev nBuf : Space → Nat
  | .hbm => 16
  | .vmem => 10
  | .smem => 0
  | _ => 0

abbrev bufTy : (tb : Table) → Fin (tcTables nBuf tb) → BufTy
  | .hbm, ⟨0, _⟩ => ⟨S16x32x256x256, .f32⟩
  | .hbm, ⟨1, _⟩ => ⟨S16x256x256, .i32⟩
  | .hbm, ⟨2, _⟩ => ⟨S32x1x1, .f32⟩
  | .hbm, ⟨3, _⟩ => ⟨S_, .f32⟩
  | .hbm, ⟨4, _⟩ => ⟨S32x1x1, .f32⟩
  | .hbm, ⟨5, _⟩ => ⟨S32x1x1, .f32⟩
  | .hbm, ⟨6, _⟩ => ⟨S16x1x2, .f32⟩
  | .hbm, ⟨7, _⟩ => ⟨S16x1x1, .f32⟩
  | .hbm, ⟨8, _⟩ => ⟨S16, .f32⟩
  | .hbm, ⟨9, _⟩ => ⟨S_, .f32⟩
  | .hbm, ⟨10, _⟩ => ⟨S_, .f32⟩
  | .hbm, ⟨11, _⟩ => ⟨S16x1x1, .f32⟩
  | .hbm, ⟨12, _⟩ => ⟨S16, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S1x128x256, .i32⟩
  | .local _ .vmem, ⟨1, _⟩ => ⟨S1x128x256, .i32⟩
  | .local _ .vmem, ⟨2, _⟩ => ⟨S32x1x1, .f32⟩
  | .local _ .vmem, ⟨3, _⟩ => ⟨S32x1x1, .f32⟩
  | .local _ .vmem, ⟨4, _⟩ => ⟨S1x32x128x256, .f32⟩
  | .local _ .vmem, ⟨5, _⟩ => ⟨S1x32x128x256, .f32⟩
  | .local _ .vmem, ⟨6, _⟩ => ⟨S1x128x256, .i32⟩
  | .local _ .vmem, ⟨7, _⟩ => ⟨S1x128x256, .i32⟩
  | .local _ .vmem, ⟨8, _⟩ => ⟨S1x1x2, .f32⟩
  | .local _ .vmem, ⟨9, _⟩ => ⟨S1x1x2, .f32⟩
  | _, _ => ⟨S16x32x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc0_sem0_0 : DmaSem sig := 0
abbrev cc0_sem0_1 : DmaSem sig := 1
abbrev cc0_sem1_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x128x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S32x1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev grid1 : Pipeline.Grid := ⟨2, ![16, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S32x1x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1x32x128x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x128x256 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x2 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  inb_S32x1x1_S32x1x1_0_0_0 : ∀ a, (![0, 0, 0] : Fin 3 → Nat) a + S32x1x1.size a ≤ S32x1x1.size a
  h_S32x1x1 : 0 < S32x1x1.numel
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  iota_S32x128x256_d0_w32 : S32x128x256.Iotas .tc 32 [0]
  shapeCasts_S128x256_S1x128x256 : S128x256.ShapeCasts S1x128x256
  broadcasts_S1x128x256_S32x128x256 : S1x128x256.Broadcasts S32x128x256
  natLt_1_32 : 1 < 32
  reduces_S32x128x256_S32x128 : S32x128x256.Reduces [2] S32x128
  shapeCasts_S32x128_S32x128x1 : S32x128.ShapeCasts S32x128x1
  reduces_S32x128x1_S32x1 : S32x128x1.Reduces [1] S32x1
  shapeCasts_S32x1_S32x1x1 : S32x1.ShapeCasts S32x1x1
  shapeCasts_S32x1x1_S32x1x1 : S32x1x1.ShapeCasts S32x1x1
  bcast_S_S32x1x1 : S_.BroadcastsInDim S32x1x1 (![] : Fin 0 → Fin S32x1x1.rank)
  inb_S1x1x2_S1x1x2_0_0_0 : ∀ a, (![0, 0, 0] : Fin 3 → Nat) a + S1x1x2.size a ≤ S1x1x2.size a
  h_S1x1x2 : 0 < S1x1x2.numel
  shapeCasts_S1x1x2_S1x2 : S1x1x2.ShapeCasts S1x2
  shapeCasts_S1x2_S1x1x2 : S1x2.ShapeCasts S1x1x2
  inb_S1x32x128x256_S1x32x128x256_0_0_0_0 : ∀ a, (![0, 0, 0, 0] : Fin 4 → Nat) a + S1x32x128x256.size a ≤ S1x32x128x256.size a
  h_S1x32x128x256 : 0 < S1x32x128x256.numel
  shapeCasts_S1x32x128x256_S32x128x256 : S1x32x128x256.ShapeCasts S32x128x256
  reduces_S32x128x256_S128x256 : S32x128x256.Reduces [0] S128x256
  broadcasts_S32x1x1_S32x128x256 : S32x1x1.Broadcasts S32x128x256
  reduces_S128x256_S128 : S128x256.Reduces [1] S128
  shapeCasts_S128_S128x1 : S128.ShapeCasts S128x1
  reduces_S128x1_S1 : S128x1.Reduces [0] S1
  shapeCasts_S1_S1x1 : S1.ShapeCasts S1x1
  concatenates_S1x1_S1x1_S1x2_d1 : Shape.Concatenates [S1x1, S1x1] S1x2 1
  slices_S16x1x2_S16x1x1_0_0_0 : S16x1x2.Slices ![0, 0, 0] S16x1x1
  shapeCasts_S16x1x1_S16 : S16x1x1.ShapeCasts S16
  reducesTo_S16_S_d0 : S16.ReducesTo [0] S_
  h_S_ : 0 < S_.numel
  slices_S16x1x2_S16x1x1_0_0_1 : S16x1x2.Slices ![0, 0, 1] S16x1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x256.size a ≤ S16x256x256.size a
  hwx0_0 : ∀ i : grid0.Coords, EltTy.bits .i32 = 32 ∨ (Rect.block (s := S16x256x256) S1x128x256.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x1x1.size a ≤ S32x1x1.size a
  hwx0_1 : ∀ i : grid0.Coords, EltTy.bits .f32 = 32 ∨ (Rect.block (s := S32x1x1) S32x1x1.size (cc0_transform_1 i) (hinb0_1 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S32x1x1.size a ≤ S32x1x1.size a
  hwx1_0 : ∀ i : grid1.Coords, EltTy.bits .f32 = 32 ∨ (Rect.block (s := S32x1x1) S32x1x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x32x128x256.size a ≤ S16x32x256x256.size a
  hwx1_1 : ∀ i : grid1.Coords, EltTy.bits .f32 = 32 ∨ (Rect.block (s := S16x32x256x256) S1x32x128x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128x256.size a ≤ S16x256x256.size a
  hwx1_2 : ∀ i : grid1.Coords, EltTy.bits .i32 = 32 ∨ (Rect.block (s := S16x256x256) S1x128x256.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x2.size a ≤ S16x1x2.size a
  hwx1_3 : ∀ i : grid1.Coords, EltTy.bits .f32 = 32 ∨ (Rect.block (s := S16x1x2) S1x1x2.size (cc1_transform_3 i) (hinb1_3 i)).WholeWords (EltTy.packing .f32)

variable [Facts₀]

abbrev win0_0 : Pipeline.Window sig grid0 :=
  Pipeline.Window.ofSpec (Memref.whole main_arg1) S1x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v2) S32x1x1.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1x32x128x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S1x128x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x1x2.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16x32x256x256 : Shape := ⟨4, ![16, 32, 256, 256]⟩
abbrev S16x256x256 : Shape := ⟨3, ![16, 256, 256]⟩
abbrev S_ : Shape := ⟨0, ![]⟩
abbrev S16x1x256x256 : Shape := ⟨4, ![16, 1, 256, 256]⟩
abbrev S16x1x256x256x1 : Shape := ⟨5, ![16, 1, 256, 256, 1]⟩
abbrev S1 : Shape := ⟨1, ![1]⟩
abbrev S1x1x1x1x1 : Shape := ⟨5, ![1, 1, 1, 1, 1]⟩
abbrev S1048576 : Shape := ⟨1, ![1048576]⟩
abbrev S32 : Shape := ⟨1, ![32]⟩
abbrev S1048576x1 : Shape := ⟨2, ![1048576, 1]⟩
abbrev S16x256x256x1 : Shape := ⟨4, ![16, 256, 256, 1]⟩

abbrev nBuf : Space → Nat
  | .hbm => 79
  | .vmem => 0
  | .smem => 0
  | _ => 0

abbrev bufTy : (tb : Table) → Fin (tcTables nBuf tb) → BufTy
  | .hbm, ⟨0, _⟩ => ⟨S16x32x256x256, .f32⟩
  | .hbm, ⟨1, _⟩ => ⟨S16x256x256, .i32⟩
  | .hbm, ⟨2, _⟩ => ⟨S_, .f32⟩
  | .hbm, ⟨3, _⟩ => ⟨S16x256x256, .f32⟩
  | .hbm, ⟨4, _⟩ => ⟨S_, .f32⟩
  | .hbm, ⟨5, _⟩ => ⟨S16x256x256, .f32⟩
  | .hbm, ⟨6, _⟩ => ⟨S16x256x256, .f32⟩
  | .hbm, ⟨7, _⟩ => ⟨S16x1x256x256, .f32⟩
  | .hbm, ⟨8, _⟩ => ⟨S16x32x256x256, .f32⟩
  | .hbm, ⟨9, _⟩ => ⟨S16x32x256x256, .f32⟩
  | .hbm, ⟨10, _⟩ => ⟨S16x32x256x256, .f32⟩
  | .hbm, ⟨11, _⟩ => ⟨S_, .f32⟩
  | .hbm, ⟨12, _⟩ => ⟨S16x256x256, .f32⟩
  | .hbm, ⟨13, _⟩ => ⟨S16x1x256x256, .f32⟩
  | .hbm, ⟨14, _⟩ => ⟨S16x1x256x256, .f32⟩
  | .hbm, ⟨15, _⟩ => ⟨S16x32x256x256, .f32⟩
  | .hbm, ⟨16, _⟩ => ⟨S16x32x256x256, .f32⟩
  | .hbm, ⟨17, _⟩ => ⟨S16x1x256x256, .i32⟩
  | .hbm, ⟨18, _⟩ => ⟨S_, .i32⟩
  | .hbm, ⟨19, _⟩ => ⟨S16x1x256x256, .i32⟩
  | .hbm, ⟨20, _⟩ => ⟨S16x1x256x256, .i1⟩
  | .hbm, ⟨21, _⟩ => ⟨S_, .i32⟩
  | .hbm, ⟨22, _⟩ => ⟨S16x1x256x256, .i32⟩
  | .hbm, ⟨23, _⟩ => ⟨S16x1x256x256, .i32⟩
  | .hbm, ⟨24, _⟩ => ⟨S16x1x256x256, .i32⟩
  | .hbm, ⟨25, _⟩ => ⟨S16x1x256x256x1, .i32⟩
  | .hbm, ⟨26, _⟩ => ⟨S1, .i32⟩
  | .hbm, ⟨27, _⟩ => ⟨S_, .i32⟩
  | .hbm, ⟨28, _⟩ => ⟨S16x1x256x256x1, .i32⟩
  | .hbm, ⟨29, _⟩ => ⟨S16x1x256x256x1, .i1⟩
  | .hbm, ⟨30, _⟩ => ⟨S1x1x1x1x1, .i32⟩
  | .hbm, ⟨31, _⟩ => ⟨S16x1x256x256x1, .i32⟩
  | .hbm, ⟨32, _⟩ => ⟨S16x1x256x256x1, .i1⟩
  | .hbm, ⟨33, _⟩ => ⟨S16x1x256x256x1, .i1⟩
  | .hbm, ⟨34, _⟩ => ⟨S_, .i1⟩
  | .hbm, ⟨35, _⟩ => ⟨S16x1x256x256, .i1⟩
  | .hbm, ⟨36, _⟩ => ⟨S16x1x256x256, .f32⟩
  | .hbm, ⟨37, _⟩ => ⟨S_, .f32⟩
  | .hbm, ⟨38, _⟩ => ⟨S16x1x256x256, .f32⟩
  | .hbm, ⟨39, _⟩ => ⟨S16x1x256x256, .f32⟩
  | .hbm, ⟨40, _⟩ => ⟨S16x256x256, .f32⟩
  | .hbm, ⟨41, _⟩ => ⟨S16x256x256, .f32⟩
  | .hbm, ⟨42, _⟩ => ⟨S1048576, .i32⟩
  | .hbm, ⟨43, _⟩ => ⟨S_, .i32⟩
  | .hbm, ⟨44, _⟩ => ⟨S32, .i32⟩
  | .hbm, ⟨45, _⟩ => ⟨S_, .i32⟩
  | .hbm, ⟨46, _⟩ => ⟨S_, .i32⟩
  | .hbm, ⟨47, _⟩ => ⟨S1048576, .i32⟩
  | .hbm, ⟨48, _⟩ => ⟨S1048576, .i32⟩
  | .hbm, ⟨49, _⟩ => ⟨S_, .i32⟩
  | .hbm, ⟨50, _⟩ => ⟨S1048576, .i32⟩
  | .hbm, ⟨51, _⟩ => ⟨S1048576, .i1⟩
  | .hbm, ⟨52, _⟩ => ⟨S_, .i32⟩
  | .hbm, ⟨53, _⟩ => ⟨S1048576, .i32⟩
  | .hbm, ⟨54, _⟩ => ⟨S1048576, .i32⟩
  | .hbm, ⟨55, _⟩ => ⟨S1048576, .i32⟩
  | .hbm, ⟨56, _⟩ => ⟨S1048576x1, .i32⟩
  | .hbm, ⟨57, _⟩ => ⟨S_, .i32⟩
  | .hbm, ⟨58, _⟩ => ⟨S1048576, .i32⟩
  | .hbm, ⟨59, _⟩ => ⟨S32, .i32⟩
  | .hbm, ⟨60, _⟩ => ⟨S32, .f32⟩
  | .hbm, ⟨61, _⟩ => ⟨S_, .i32⟩
  | .hbm, ⟨62, _⟩ => ⟨S16x256x256, .i32⟩
  | .hbm, ⟨63, _⟩ => ⟨S16x256x256, .i1⟩
  | .hbm, ⟨64, _⟩ => ⟨S_, .i32⟩
  | .hbm, ⟨65, _⟩ => ⟨S16x256x256, .i32⟩
  | .hbm, ⟨66, _⟩ => ⟨S16x256x256, .i32⟩
  | .hbm, ⟨67, _⟩ => ⟨S16x256x256, .i32⟩
  | .hbm, ⟨68, _⟩ => ⟨S16x256x256x1, .i32⟩
  | .hbm, ⟨69, _⟩ => ⟨S16x256x256, .f32⟩
  | .hbm, ⟨70, _⟩ => ⟨S_, .f32⟩
  | .hbm, ⟨71, _⟩ => ⟨S16x256x256, .f32⟩
  | .hbm, ⟨72, _⟩ => ⟨S16x256x256, .f32⟩
  | .hbm, ⟨73, _⟩ => ⟨S16x256x256, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | _, _ => ⟨S16x32x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_call1_c : Ref sig .tc := ⟨.hbm, 18, rfl⟩
abbrev main_call1_v0 : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_c_1 : Ref sig .tc := ⟨.hbm, 26, rfl⟩
abbrev main_call1_c_2 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_3 : Ref sig .tc := ⟨.hbm, 34, rfl⟩
abbrev main_call1_v12 : Ref sig .tc := ⟨.hbm, 35, rfl⟩
abbrev main_call1_v13 : Ref sig .tc := ⟨.hbm, 36, rfl⟩
abbrev main_call1_cst : Ref sig .tc := ⟨.hbm, 37, rfl⟩
abbrev main_call1_v14 : Ref sig .tc := ⟨.hbm, 38, rfl⟩
abbrev main_v2 : Ref sig .tc := ⟨.hbm, 39, rfl⟩
abbrev main_v3 : Ref sig .tc := ⟨.hbm, 40, rfl⟩
abbrev main_v4 : Ref sig .tc := ⟨.hbm, 41, rfl⟩
abbrev main_v5 : Ref sig .tc := ⟨.hbm, 42, rfl⟩
abbrev main_c : Ref sig .tc := ⟨.hbm, 43, rfl⟩
abbrev main_v6 : Ref sig .tc := ⟨.hbm, 44, rfl⟩
abbrev main_c_0 : Ref sig .tc := ⟨.hbm, 45, rfl⟩
abbrev main_call2_v0 : Ref sig .tc := ⟨.hbm, 46, rfl⟩
abbrev main_call2_v1 : Ref sig .tc := ⟨.hbm, 47, rfl⟩
abbrev main_v7 : Ref sig .tc := ⟨.hbm, 48, rfl⟩
abbrev main_c_1 : Ref sig .tc := ⟨.hbm, 49, rfl⟩
abbrev main_v8 : Ref sig .tc := ⟨.hbm, 50, rfl⟩
abbrev main_v9 : Ref sig .tc := ⟨.hbm, 51, rfl⟩
abbrev main_c_2 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_c_3 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_c_4 : Ref sig .tc := ⟨.hbm, 61, rfl⟩
abbrev main_v17 : Ref sig .tc := ⟨.hbm, 62, rfl⟩
abbrev main_v18 : Ref sig .tc := ⟨.hbm, 63, rfl⟩
abbrev main_c_5 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_cst : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_cst_6 : Ref sig .tc := ⟨.hbm, 74, rfl⟩
abbrev main_v27 : Ref sig .tc := ⟨.hbm, 75, rfl⟩
abbrev main_cst_7 : Ref sig .tc := ⟨.hbm, 76, rfl⟩
abbrev main_v28 : Ref sig .tc := ⟨.hbm, 77, rfl⟩
abbrev main_v29 : Ref sig .tc := ⟨.hbm, 78, rfl⟩

abbrev nD : Nat := 1
abbrev τ : Topo := Topo.v7x

variable {F : FTy → Type} [FloatOps F]

class Facts₀ : Prop where
  reducesTo_S16x32x256x256_S16x256x256_d1 : S16x32x256x256.ReducesTo [1] S16x256x256
  h_S_ : 0 < S_.numel
  bcast_S_S16x256x256 : S_.BroadcastsInDim S16x256x256 (![] : Fin 0 → Fin S16x256x256.rank)
  bcast_S16x256x256_S16x1x256x256_0_2_3 : S16x256x256.BroadcastsInDim S16x1x256x256 (![0, 2, 3] : Fin 3 → Fin S16x1x256x256.rank)
  bcast_S16x1x256x256_S16x32x256x256_0_1_2_3 : S16x1x256x256.BroadcastsInDim S16x32x256x256 (![0, 1, 2, 3] : Fin 4 → Fin S16x32x256x256.rank)
  bcast_S_S16x1x256x256 : S_.BroadcastsInDim S16x1x256x256 (![] : Fin 0 → Fin S16x1x256x256.rank)
  shapeCasts_S16x1x256x256_S16x1x256x256x1 : S16x1x256x256.ShapeCasts S16x1x256x256x1
  bcast_S_S16x1x256x256x1 : S_.BroadcastsInDim S16x1x256x256x1 (![] : Fin 0 → Fin S16x1x256x256x1.rank)
  bcast_S1_S1x1x1x1x1_4 : S1.BroadcastsInDim S1x1x1x1x1 (![4] : Fin 1 → Fin S1x1x1x1x1.rank)
  bcast_S1x1x1x1x1_S16x1x256x256x1_0_1_2_3_4 : S1x1x1x1x1.BroadcastsInDim S16x1x256x256x1 (![0, 1, 2, 3, 4] : Fin 5 → Fin S16x1x256x256x1.rank)
  reducesTo_S16x1x256x256x1_S16x1x256x256_d4 : S16x1x256x256x1.ReducesTo [4] S16x1x256x256
  shapeCasts_S16x1x256x256_S16x256x256 : S16x1x256x256.ShapeCasts S16x256x256
  shapeCasts_S16x256x256_S1048576 : S16x256x256.ShapeCasts S1048576
  bcast_S_S32 : S_.BroadcastsInDim S32 (![] : Fin 0 → Fin S32.rank)
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S16x256x256_S16x256x256x1_0_1_2 : S16x256x256.BroadcastsInDim S16x256x256x1 (![0, 1, 2] : Fin 3 → Fin S16x256x256x1.rank)
  reducesTo_S16x256x256_S_d0_1_2 : S16x256x256.ReducesTo [0, 1, 2] S_
  gather_S16x32x256x256_S16x1x256x256x1_S16x1x256x256_n_1_023_023_1_4_1111_wf : GatherDims.WF S16x32x256x256 S16x1x256x256x1 S16x1x256x256 [] [1] [0, 2, 3] [1] [0, 2, 3] 4 ![1, 1, 1, 1]
  scatter_S32_S1048576x1_S1048576_n_0_0_1_wf : ScatterDims.WF S32 S1048576x1 S1048576 [] [0] [0] 1
  gather_S32_S16x256x256x1_S16x256x256_n_0_n_n_0_3_1_wf : GatherDims.WF S32 S16x256x256x1 S16x256x256 [] [0] [] [0] [] 3 ![1]

variable [Facts₀]

def gather_S16x32x256x256_S16x1x256x256x1_S16x1x256x256_n_1_023_023_1_4_1111 : GatherDims S16x32x256x256 S16x1x256x256x1 S16x1x256x256 where
  offsetDims := []
  collapsedSliceDims := [1]
  operandBatchingDims := [0, 2, 3]
  startIndicesBatchingDims := [0, 2, 3]
  startIndexMap := [1]
  indexVectorDim := 4
  sliceSizes := ![1, 1, 1, 1]
  wf := gather_S16x32x256x256_S16x1x256x256x1_S16x1x256x256_n_1_023_023_1_4_1111_wf
def scatter_S32_S1048576x1_S1048576_n_0_0_1 : ScatterDims S32 S1048576x1 S1048576 where
  updateWindowDims := []
  insertedWindowDims := [0]
  scatterDimsToOperandDims := [0]
  indexVectorDim := 1
  wf := scatter_S32_S1048576x1_S1048576_n_0_0_1_wf
def gather_S32_S16x256x256x1_S16x256x256_n_0_n_n_0_3_1 : GatherDims S32 S16x256x256x1 S16x256x256 where
  offsetDims := []
  collapsedSliceDims := [0]
  operandBatchingDims := []
  startIndicesBatchingDims := []
  startIndexMap := [0]
  indexVectorDim := 3
  sliceSizes := ![1]
  wf := gather_S32_S16x256x256x1_S16x256x256_n_0_n_n_0_3_1_wf

class Facts : Prop extends Facts₀ where

variable [Facts]
-- ==== Proof.RefStages.lean ====
/-
  The reference's fold read in five stretches. The 77 host operations in order are cut where a value is shared:
  the log-softmax, the negated entry of the label's class, the counts as floats, the weights, and the closing
  totals and quotient. The operations of the functions the program calls are written over the buffers themselves. Each stretch is read from ANY contents it is entered with, so the values it takes over from
  the stretches before stay names; no stretch writes a buffer an earlier one wrote, so those pass through. Joined,
  the fold at the result buffer is the last stage of the operations read one at a time, as a function of the two
  argument arrays.
-/
import proofs.«408105_j28698971472547_3_alg».proof.Proof.RefRead

noncomputable section

namespace Cert.ReferenceIdeal.Stages

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-- Stretches A, B and C as the program's own text spells them (operations of called functions over typed references). -/
abbrev opsAg : List (HloOp τ sig (Elt F)) :=
  [ TRef.nullary (TRef.of (T := ⟨S_, .f32⟩) main_call0_cst) (constant S_ .f32 0xFF800000#32),
    TRef.binary (TRef.of (T := ⟨S16x32x256x256, .f32⟩) main_arg0) (TRef.of (T := ⟨S_, .f32⟩) main_call0_cst) (TRef.of (T := ⟨S16x256x256, .f32⟩) main_call0_v0) (fun x v => Host.reduce FloatOps.maximumf x v reducesTo_S16x32x256x256_S16x256x256_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S16x256x256, .f32⟩) main_call0_v1) (broadcastInDim S16x256x256 ![] bcast_S_S16x256x256),
    TRef.binary (TRef.of (T := ⟨S16x256x256, .f32⟩) main_call0_v1) (TRef.of (T := ⟨S16x256x256, .f32⟩) main_call0_v0) (TRef.of (T := ⟨S16x256x256, .f32⟩) main_call0_v2) maximumf,
    TRef.unary (TRef.of (T := ⟨S16x256x256, .f32⟩) main_call0_v2) (TRef.of (T := ⟨S16x1x256x256, .f32⟩) main_call0_v3) (broadcastInDim S16x1x256x256 ![0, 2, 3] bcast_S16x256x256_S16x1x256x256_0_2_3),
    TRef.unary (TRef.of (T := ⟨S16x1x256x256, .f32⟩) main_call0_v3) (TRef.of (T := ⟨S16x32x256x256, .f32⟩) main_call0_v4) (broadcastInDim S16x32x256x256 ![0, 1, 2, 3] bcast_S16x1x256x256_S16x32x256x256_0_1_2_3),
    TRef.binary (TRef.of (T := ⟨S16x32x256x256, .f32⟩) main_arg0) (TRef.of (T := ⟨S16x32x256x256, .f32⟩) main_call0_v4) (TRef.of (T := ⟨S16x32x256x256, .f32⟩) main_call0_v5) subf,
    TRef.unary (TRef.of (T := ⟨S16x32x256x256, .f32⟩) main_call0_v5) (TRef.of (T := ⟨S16x32x256x256, .f32⟩) main_call0_v6) Host.exp,
    TRef.nullary (TRef.of (T := ⟨S_, .f32⟩) main_call0_cst_1) (constant S_ .f32 0x00000000#32),
    TRef.binary (TRef.of (T := ⟨S16x32x256x256, .f32⟩) main_call0_v6) (TRef.of (T := ⟨S_, .f32⟩) main_call0_cst_1) (TRef.of (T := ⟨S16x256x256, .f32⟩) main_call0_v7) (fun x v => Host.reduceAdd x v reducesTo_S16x32x256x256_S16x256x256_d1 h_S_),
    TRef.unary (TRef.of (T := ⟨S16x256x256, .f32⟩) main_call0_v7) (TRef.of (T := ⟨S16x1x256x256, .f32⟩) main_call0_v8) (broadcastInDim S16x1x256x256 ![0, 2, 3] bcast_S16x256x256_S16x1x256x256_0_2_3),
    TRef.unary (TRef.of (T := ⟨S16x1x256x256, .f32⟩) main_call0_v8) (TRef.of (T := ⟨S16x1x256x256, .f32⟩) main_call0_v9) Host.log,
    TRef.unary (TRef.of (T := ⟨S16x1x256x256, .f32⟩) main_call0_v9) (TRef.of (T := ⟨S16x32x256x256, .f32⟩) main_call0_v10) (broadcastInDim S16x32x256x256 ![0, 1, 2, 3] bcast_S16x1x256x256_S16x32x256x256_0_1_2_3),
    TRef.binary (TRef.of (T := ⟨S16x32x256x256, .f32⟩) main_call0_v5) (TRef.of (T := ⟨S16x32x256x256, .f32⟩) main_call0_v10) (TRef.of (T := ⟨S16x32x256x256, .f32⟩) main_v0) subf ]
abbrev opsBg : List (HloOp τ sig (Elt F)) :=
  [ unary main_arg1 main_v1 (broadcastInDim S16x1x256x256 ![0, 2, 3] bcast_S16x256x256_S16x1x256x256_0_2_3 : (⟨S16x256x256, .i32⟩ : BufTy).Contents (Elt F) → (⟨S16x1x256x256, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S16x1x256x256, .i32⟩) main_call1_v0) (broadcastInDim S16x1x256x256 ![] bcast_S_S16x1x256x256),
    TRef.binary (TRef.of (T := ⟨S16x1x256x256, .i32⟩) main_v1) (TRef.of (T := ⟨S16x1x256x256, .i32⟩) main_call1_v0) (TRef.of (T := ⟨S16x1x256x256, .i1⟩) main_call1_v1) (cmpi .slt),
    TRef.nullary (TRef.of (T := ⟨S_, .i32⟩) main_call1_c_0) (constantI S_ 32 32#32),
    TRef.unary (TRef.of (T := ⟨S_, .i32⟩) main_call1_c_0) (TRef.of (T := ⟨S16x1x256x256, .i32⟩) main_call1_v2) (broadcastInDim S16x1x256x256 ![] bcast_S_S16x1x256x256),
    TRef.binary (TRef.of (T := ⟨S16x1x256x256, .i32⟩) main_v1) (TRef.of (T := ⟨S16x1x256x256, .i32⟩) main_call1_v2) (TRef.of (T := ⟨S16x1x256x256, .i32⟩) main_call1_v3) addi,
    TRef.ternary (TRef.of (T := ⟨S16x1x256x256, .i1⟩) main_call1_v1) (TRef.of (T := ⟨S16x1x256x256, .i32⟩) main_call1_v3) (TRef.of (T := ⟨S16x1x256x256, .i32⟩) main_v1) (TRef.of (T := ⟨S16x1x256x256, .i32⟩) main_call1_v4) select,
    TRef.reshape (TRef.of (T := ⟨S16x1x256x256, .i32⟩) main_call1_v4) (TRef.of (T := ⟨S16x1x256x256x1, .i32⟩) main_call1_v5) rfl shapeCasts_S16x1x256x256_S16x1x256x256x1,
    TRef.nullary (TRef.of (T := ⟨S1, .i32⟩) main_call1_c_1) (constantI S1 32 31#32),
    TRef.nullary (TRef.of (T := ⟨S_, .i32⟩) main_call1_c_2) (constantI S_ 32 0#32),
    TRef.unary (TRef.of (T := ⟨S_, .i32⟩) main_call1_c_2) (TRef.of (T := ⟨S16x1x256x256x1, .i32⟩) main_call1_v6) (broadcastInDim S16x1x256x256x1 ![] bcast_S_S16x1x256x256x1),
    TRef.binary (TRef.of (T := ⟨S16x1x256x256x1, .i32⟩) main_call1_v5) (TRef.of (T := ⟨S16x1x256x256x1, .i32⟩) main_call1_v6) (TRef.of (T := ⟨S16x1x256x256x1, .i1⟩) main_call1_v7) (cmpi .sge),
    TRef.unary (TRef.of (T := ⟨S1, .i32⟩) main_call1_c_1) (TRef.of (T := ⟨S1x1x1x1x1, .i32⟩) main_call1_v8) (broadcastInDim S1x1x1x1x1 ![4] bcast_S1_S1x1x1x1x1_4),
    TRef.unary (TRef.of (T := ⟨S1x1x1x1x1, .i32⟩) main_call1_v8) (TRef.of (T := ⟨S16x1x256x256x1, .i32⟩) main_call1_v9) (broadcastInDim S16x1x256x256x1 ![0, 1, 2, 3, 4] bcast_S1x1x1x1x1_S16x1x256x256x1_0_1_2_3_4),
    TRef.binary (TRef.of (T := ⟨S16x1x256x256x1, .i32⟩) main_call1_v5) (TRef.of (T := ⟨S16x1x256x256x1, .i32⟩) main_call1_v9) (TRef.of (T := ⟨S16x1x256x256x1, .i1⟩) main_call1_v10) (cmpi .sle),
    TRef.binary (TRef.of (T := ⟨S16x1x256x256x1, .i1⟩) main_call1_v7) (TRef.of (T := ⟨S16x1x256x256x1, .i1⟩) main_call1_v10) (TRef.of (T := ⟨S16x1x256x256x1, .i1⟩) main_call1_v11) andi,
    TRef.nullary (TRef.of (T := ⟨S_, .i1⟩) main_call1_c_3) (constantI S_ 1 1#1),
    TRef.binary (TRef.of (T := ⟨S16x1x256x256x1, .i1⟩) main_call1_v11) (TRef.of (T := ⟨S_, .i1⟩) main_call1_c_3) (TRef.of (T := ⟨S16x1x256x256, .i1⟩) main_call1_v12) (fun x v => Host.reduce IntOp.andi x v reducesTo_S16x1x256x256x1_S16x1x256x256_d4 h_S_),
    TRef.binary (TRef.of (T := ⟨S16x32x256x256, .f32⟩) main_v0) (TRef.of (T := ⟨S16x1x256x256x1, .i32⟩) main_call1_v5) (TRef.of (T := ⟨S16x1x256x256, .f32⟩) main_call1_v13) (fun x i => Host.gather gather_S16x32x256x256_S16x1x256x256x1_S16x1x256x256_n_1_023_023_1_4_1111 x i),
    TRef.nullary (TRef.of (T := ⟨S_, .f32⟩) main_call1_cst) (constant S_ .f32 0x7FC00000#32),
    TRef.unary (TRef.of (T := ⟨S_, .f32⟩) main_call1_cst) (TRef.of (T := ⟨S16x1x256x256, .f32⟩) main_call1_v14) (broadcastInDim S16x1x256x256 ![] bcast_S_S16x1x256x256),
    TRef.ternary (TRef.of (T := ⟨S16x1x256x256, .i1⟩) main_call1_v12) (TRef.of (T := ⟨S16x1x256x256, .f32⟩) main_call1_v13) (TRef.of (T := ⟨S16x1x256x256, .f32⟩) main_call1_v14) (TRef.of (T := ⟨S16x1x256x256, .f32⟩) main_v2) select,
    reshape main_v2 main_v3 rfl shapeCasts_S16x1x256x256_S16x256x256,
    unary main_v3 main_v4 (Host.negf : (⟨S16x256x256, .f32⟩ : BufTy).Contents (Elt F) → (⟨S16x256x256, .f32⟩ : BufTy).Contents (Elt F)) ]
abbrev opsCg : List (HloOp τ sig (Elt F)) :=
  [ reshape main_arg1 main_v5 rfl shapeCasts_S16x256x256_S1048576,
    nullary main_c (constantI S_ 32 0#32),
    unary main_c main_v6 (broadcastInDim S32 ![] bcast_S_S32 : (⟨S_, .i32⟩ : BufTy).Contents (Elt F) → (⟨S32, .i32⟩ : BufTy).Contents (Elt F)),
    nullary main_c_0 (constantI S_ 32 0#32),
    TRef.unary (TRef.of (T := ⟨S_, .i32⟩) main_c_0) (TRef.of (T := ⟨S_, .i32⟩) main_call2_v0) id,
    TRef.unary (TRef.of (T := ⟨S_, .i32⟩) main_call2_v0) (TRef.of (T := ⟨S1048576, .i32⟩) main_call2_v1) (broadcastInDim S1048576 ![] bcast_S_S1048576),
    TRef.binary (TRef.of (T := ⟨S1048576, .i32⟩) main_call2_v1) (TRef.of (T := ⟨S1048576, .i32⟩) main_v5) (TRef.of (T := ⟨S1048576, .i32⟩) main_v7) maxsi,
    nullary main_c_1 (constantI S_ 32 0#32),
    unary main_c_1 main_v8 (broadcastInDim S1048576 ![] bcast_S_S1048576 : (⟨S_, .i32⟩ : BufTy).Contents (Elt F) → (⟨S1048576, .i32⟩ : BufTy).Contents (Elt F)),
    binary main_v7 main_v8 main_v9 (cmpi .slt : (⟨S1048576, .i32⟩ : BufTy).Contents (Elt F) → (⟨S1048576, .i32⟩ : BufTy).Contents (Elt F) → (⟨S1048576, .i1⟩ : BufTy).Contents (Elt F)),
    nullary main_c_2 (constantI S_ 32 32#32),
    unary main_c_2 main_v10 (broadcastInDim S1048576 ![] bcast_S_S1048576 : (⟨S_, .i32⟩ : BufTy).Contents (Elt F) → (⟨S1048576, .i32⟩ : BufTy).Contents (Elt F)),
    binary main_v7 main_v10 main_v11 (addi : (⟨S1048576, .i32⟩ : BufTy).Contents (Elt F) → (⟨S1048576, .i32⟩ : BufTy).Contents (Elt F) → (⟨S1048576, .i32⟩ : BufTy).Contents (Elt F)),
    ternary main_v9 main_v11 main_v7 main_v12 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v12 main_v13 (broadcastInDim S1048576x1 ![0] bcast_S1048576_S1048576x1_0 : (⟨S1048576, .i32⟩ : BufTy).Contents (Elt F) → (⟨S1048576x1, .i32⟩ : BufTy).Contents (Elt F)),
    nullary main_c_3 (constantI S_ 32 1#32),
    unary main_c_3 main_v14 (broadcastInDim S1048576 ![] bcast_S_S1048576 : (⟨S_, .i32⟩ : BufTy).Contents (Elt F) → (⟨S1048576, .i32⟩ : BufTy).Contents (Elt F)),
    ternary main_v6 main_v13 main_v14 main_v15 ((fun x i u => Host.scatter scatter_S32_S1048576x1_S1048576_n_0_0_1 IntOp.addi x i u) : (⟨S32, .i32⟩ : BufTy).Contents (Elt F) → (⟨S1048576x1, .i32⟩ : BufTy).Contents (Elt F) → (⟨S1048576, .i32⟩ : BufTy).Contents (Elt F) → (⟨S32, .i32⟩ : BufTy).Contents (Elt F)),
    unary main_v15 main_v16 (sitofp .f32 : (⟨S32, .i32⟩ : BufTy).Contents (Elt F) → (⟨S32, .f32⟩ : BufTy).Contents (Elt F)) ]

/-- The log-softmax: through `main_v0`. -/
abbrev opsA : List (HloOp τ sig (Elt F)) :=
  [ nullary main_call0_cst (constant S_ .f32 0xFF800000#32),
    binary main_arg0 main_call0_cst main_call0_v0 ((fun x v => Host.reduce FloatOps.maximumf x v reducesTo_S16x32x256x256_S16x256x256_d1 h_S_) : (⟨S16x32x256x256, .f32⟩ : BufTy).Contents (Elt F) → (⟨S_, .f32⟩ : BufTy).Contents (Elt F) → (⟨S16x256x256, .f32⟩ : BufTy).Contents (Elt F)),
    nullary main_call0_cst_0 (constant S_ .f32 0xFF800000#32),
    unary main_call0_cst_0 main_call0_v1 ((broadcastInDim S16x256x256 ![] bcast_S_S16x256x256) : (⟨S_, .f32⟩ : BufTy).Contents (Elt F) → (⟨S16x256x256, .f32⟩ : BufTy).Contents (Elt F)),
    binary main_call0_v1 main_call0_v0 main_call0_v2 ((maximumf) : (⟨S16x256x256, .f32⟩ : BufTy).Contents (Elt F) → (⟨S16x256x256, .f32⟩ : BufTy).Contents (Elt F) → (⟨S16x256x256, .f32⟩ : BufTy).Contents (Elt F)),
    unary main_call0_v2 main_call0_v3 ((broadcastInDim S16x1x256x256 ![0, 2, 3] bcast_S16x256x256_S16x1x256x256_0_2_3) : (⟨S16x256x256, .f32⟩ : BufTy).Contents (Elt F) → (⟨S16x1x256x256, .f32⟩ : BufTy).Contents (Elt F)),
    unary main_call0_v3 main_call0_v4 ((broadcastInDim S16x32x256x256 ![0, 1, 2, 3] bcast_S16x1x256x256_S16x32x256x256_0_1_2_3) : (⟨S16x1x256x256, .f32⟩ : BufTy).Contents (Elt F) → (⟨S16x32x256x256, .f32⟩ : BufTy).Contents (Elt F)),
    binary main_arg0 main_call0_v4 main_call0_v5 ((subf) : (⟨S16x32x256x256, .f32⟩ : BufTy).Contents (Elt F) → (⟨S16x32x256x256, .f32⟩ : BufTy).Contents (Elt F) → (⟨S16x32x256x256, .f32⟩ : BufTy).Contents (Elt F)),
    unary main_call0_v5 main_call0_v6 ((Host.exp) : (⟨S16x32x256x256, .f32⟩ : BufTy).Contents (Elt F) → (⟨S16x32x256x256, .f32⟩ : BufTy).Contents (Elt F)),
    nullary main_call0_cst_1 (constant S_ .f32 0x00000000#32),
    binary main_call0_v6 main_call0_cst_1 main_call0_v7 ((fun x v => Host.reduceAdd x v reducesTo_S16x32x256x256_S16x256x256_d1 h_S_) : (⟨S16x32x256x256, .f32⟩ : BufTy).Contents (Elt F) → (⟨S_, .f32⟩ : BufTy).Contents (Elt F) → (⟨S16x256x256, .f32⟩ : BufTy).Contents (Elt F)),
    unary main_call0_v7 main_call0_v8 ((broadcastInDim S16x1x256x256 ![0, 2, 3] bcast_S16x256x256_S16x1x256x256_0_2_3) : (⟨S16x256x256, .f32⟩ : BufTy).Contents (Elt F) → (⟨S16x1x256x256, .f32⟩ : BufTy).Contents (Elt F)),
    unary main_call0_v8 main_call0_v9 ((Host.log) : (⟨S16x1x256x256, .f32⟩ : BufTy).Contents (Elt F) → (⟨S16x1x256x256, .f32⟩ : BufTy).Contents (Elt F)),
    unary main_call0_v9 main_call0_v10 ((broadcastInDim S16x32x256x256 ![0, 1, 2, 3] bcast_S16x1x256x256_S16x32x256x256_0_1_2_3) : (⟨S16x1x256x256, .f32⟩ : BufTy).Contents (Elt F) → (⟨S16x32x256x256, .f32⟩ : BufTy).Contents (Elt F)),
    binary main_call0_v5 main_call0_v10 main_v0 ((subf) : (⟨S16x32x256x256, .f32⟩ : BufTy).Contents (Elt F) → (⟨S16x32x256x256, .f32⟩ : BufTy).Contents (Elt F) → (⟨S16x32x256x256, .f32⟩ : BufTy).Contents (Elt F)) ]
/-- The label's entry, negated: through `main_v4`. -/
abbrev opsB : List (HloOp τ sig (Elt F)) :=
  [ unary main_arg1 main_v1 (broadcastInDim S16x1x256x256 ![0, 2, 3] bcast_S16x256x256_S16x1x256x256_0_2_3 : (⟨S16x256x256, .i32⟩ : BufTy).Contents (Elt F) → (⟨S16x1x256x256, .i32⟩ : BufTy).Contents (Elt F)),
    nullary main_call1_c (constantI S_ 32 0#32),
    unary main_call1_c main_call1_v0 ((broadcastInDim S16x1x256x256 ![] bcast_S_S16x1x256x256) : (⟨S_, .i32⟩ : BufTy).Contents (Elt F) → (⟨S16x1x256x256, .i32⟩ : BufTy).Contents (Elt F)),
    binary main_v1 main_call1_v0 main_call1_v1 ((cmpi .slt) : (⟨S16x1x256x256, .i32⟩ : BufTy).Contents (Elt F) → (⟨S16x1x256x256, .i32⟩ : BufTy).Contents (Elt F) → (⟨S16x1x256x256, .i1⟩ : BufTy).Contents (Elt F)),
    nullary main_call1_c_0 (constantI S_ 32 32#32),
    unary main_call1_c_0 main_call1_v2 ((broadcastInDim S16x1x256x256 ![] bcast_S_S16x1x256x256) : (⟨S_, .i32⟩ : BufTy).Contents (Elt F) → (⟨S16x1x256x256, .i32⟩ : BufTy).Contents (Elt F)),
    binary main_v1 main_call1_v2 main_call1_v3 ((addi) : (⟨S16x1x256x256, .i32⟩ : BufTy).Contents (Elt F) → (⟨S16x1x256x256, .i32⟩ : BufTy).Contents (Elt F) → (⟨S16x1x256x256, .i32⟩ : BufTy).Contents (Elt F)),
    ternary main_call1_v1 main_call1_v3 main_v1 main_call1_v4 ((select) : (⟨S16x1x256x256, .i1⟩ : BufTy).Contents (Elt F) → (⟨S16x1x256x256, .i32⟩ : BufTy).Contents (Elt F) → (⟨S16x1x256x256, .i32⟩ : BufTy).Contents (Elt F) → (⟨S16x1x256x256, .i32⟩ : BufTy).Contents (Elt F)),
    reshape main_call1_v4 main_call1_v5 rfl shapeCasts_S16x1x256x256_S16x1x256x256x1,
    nullary main_call1_c_1 (constantI S1 32 31#32),
    nullary main_call1_c_2 (constantI S_ 32 0#32),
    unary main_call1_c_2 main_call1_v6 ((broadcastInDim S16x1x256x256x1 ![] bcast_S_S16x1x256x256x1) : (⟨S_, .i32⟩ : BufTy).Contents (Elt F) → (⟨S16x1x256x256x1, .i32⟩ : BufTy).Contents (Elt F)),
    binary main_call1_v5 main_call1_v6 main_call1_v7 ((cmpi .sge) : (⟨S16x1x256x256x1, .i32⟩ : BufTy).Contents (Elt F) → (⟨S16x1x256x256x1, .i32⟩ : BufTy).Contents (Elt F) → (⟨S16x1x256x256x1, .i1⟩ : BufTy).Contents (Elt F)),
    unary main_call1_c_1 main_call1_v8 ((broadcastInDim S1x1x1x1x1 ![4] bcast_S1_S1x1x1x1x1_4) : (⟨S1, .i32⟩ : BufTy).Contents (Elt F) → (⟨S1x1x1x1x1, .i32⟩ : BufTy).Contents (Elt F)),
    unary main_call1_v8 main_call1_v9 ((broadcastInDim S16x1x256x256x1 ![0, 1, 2, 3, 4] bcast_S1x1x1x1x1_S16x1x256x256x1_0_1_2_3_4) : (⟨S1x1x1x1x1, .i32⟩ : BufTy).Contents (Elt F) → (⟨S16x1x256x256x1, .i32⟩ : BufTy).Contents (Elt F)),
    binary main_call1_v5 main_call1_v9 main_call1_v10 ((cmpi .sle) : (⟨S16x1x256x256x1, .i32⟩ : BufTy).Contents (Elt F) → (⟨S16x1x256x256x1, .i32⟩ : BufTy).Contents (Elt F) → (⟨S16x1x256x256x1, .i1⟩ : BufTy).Contents (Elt F)),
    binary main_call1_v7 main_call1_v10 main_call1_v11 ((andi) : (⟨S16x1x256x256x1, .i1⟩ : BufTy).Contents (Elt F) → (⟨S16x1x256x256x1, .i1⟩ : BufTy).Contents (Elt F) → (⟨S16x1x256x256x1, .i1⟩ : BufTy).Contents (Elt F)),
    nullary main_call1_c_3 (constantI S_ 1 1#1),
    binary main_call1_v11 main_call1_c_3 main_call1_v12 ((fun x v => Host.reduce IntOp.andi x v reducesTo_S16x1x256x256x1_S16x1x256x256_d4 h_S_) : (⟨S16x1x256x256x1, .i1⟩ : BufTy).Contents (Elt F) → (⟨S_, .i1⟩ : BufTy).Contents (Elt F) → (⟨S16x1x256x256, .i1⟩ : BufTy).Contents (Elt F)),
    binary main_v0 main_call1_v5 main_call1_v13 ((fun x i => Host.gather gather_S16x32x256x256_S16x1x256x256x1_S16x1x256x256_n_1_023_023_1_4_1111 x i) : (⟨S16x32x256x256, .f32⟩ : BufTy).Contents (Elt F) → (⟨S16x1x256x256x1, .i32⟩ : BufTy).Contents (Elt F) → (⟨S16x1x256x256, .f32⟩ : BufTy).Contents (Elt F)),
    nullary main_call1_cst (constant S_ .f32 0x7FC00000#32),
    unary main_call1_cst main_call1_v14 ((broadcastInDim S16x1x256x256 ![] bcast_S_S16x1x256x256) : (⟨S_, .f32⟩ : BufTy).Contents (Elt F) → (⟨S16x1x256x256, .f32⟩ : BufTy).Contents (Elt F)),
    ternary main_call1_v12 main_call1_v13 main_call1_v14 main_v2 ((select) : (⟨S16x1x256x256, .i1⟩ : BufTy).Contents (Elt F) → (⟨S16x1x256x256, .f32⟩ : BufTy).Contents (Elt F) → (⟨S16x1x256x256, .f32⟩ : BufTy).Contents (Elt F) → (⟨S16x1x256x256, .f32⟩ : BufTy).Contents (Elt F)),
    reshape main_v2 main_v3 rfl shapeCasts_S16x1x256x256_S16x256x256,
    unary main_v3 main_v4 (Host.negf : (⟨S16x256x256, .f32⟩ : BufTy).Contents (Elt F) → (⟨S16x256x256, .f32⟩ : BufTy).Contents (Elt F)) ]
/-- The counts as floats: through `main_v16`. -/
abbrev opsC : List (HloOp τ sig (Elt F)) :=
  [ reshape main_arg1 main_v5 rfl shapeCasts_S16x256x256_S1048576,
    nullary main_c (constantI S_ 32 0#32),
    unary main_c main_v6 (broadcastInDim S32 ![] bcast_S_S32 : (⟨S_, .i32⟩ : BufTy).Contents (Elt F) → (⟨S32, .i32⟩ : BufTy).Contents (Elt F)),
    nullary main_c_0 (constantI S_ 32 0#32),
    unary main_c_0 main_call2_v0 ((id) : (⟨S_, .i32⟩ : BufTy).Contents (Elt F) → (⟨S_, .i32⟩ : BufTy).Contents (Elt F)),
    unary main_call2_v0 main_call2_v1 ((broadcastInDim S1048576 ![] bcast_S_S1048576) : (⟨S_, .i32⟩ : BufTy).Contents (Elt F) → (⟨S1048576, .i32⟩ : BufTy).Contents (Elt F)),
    binary main_call2_v1 main_v5 main_v7 ((maxsi) : (⟨S1048576, .i32⟩ : BufTy).Contents (Elt F) → (⟨S1048576, .i32⟩ : BufTy).Contents (Elt F) → (⟨S1048576, .i32⟩ : BufTy).Contents (Elt F)),
    nullary main_c_1 (constantI S_ 32 0#32),
    unary main_c_1 main_v8 (broadcastInDim S1048576 ![] bcast_S_S1048576 : (⟨S_, .i32⟩ : BufTy).Contents (Elt F) → (⟨S1048576, .i32⟩ : BufTy).Contents (Elt F)),
    binary main_v7 main_v8 main_v9 (cmpi .slt : (⟨S1048576, .i32⟩ : BufTy).Contents (Elt F) → (⟨S1048576, .i32⟩ : BufTy).Contents (Elt F) → (⟨S1048576, .i1⟩ : BufTy).Contents (Elt F)),
    nullary main_c_2 (constantI S_ 32 32#32),
    unary main_c_2 main_v10 (broadcastInDim S1048576 ![] bcast_S_S1048576 : (⟨S_, .i32⟩ : BufTy).Contents (Elt F) → (⟨S1048576, .i32⟩ : BufTy).Contents (Elt F)),
    binary main_v7 main_v10 main_v11 (addi : (⟨S1048576, .i32⟩ : BufTy).Contents (Elt F) → (⟨S1048576, .i32⟩ : BufTy).Contents (Elt F) → (⟨S1048576, .i32⟩ : BufTy).Contents (Elt F)),
    ternary main_v9 main_v11 main_v7 main_v12 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v12 main_v13 (broadcastInDim S1048576x1 ![0] bcast_S1048576_S1048576x1_0 : (⟨S1048576, .i32⟩ : BufTy).Contents (Elt F) → (⟨S1048576x1, .i32⟩ : BufTy).Contents (Elt F)),
    nullary main_c_3 (constantI S_ 32 1#32),
    unary main_c_3 main_v14 (broadcastInDim S1048576 ![] bcast_S_S1048576 : (⟨S_, .i32⟩ : BufTy).Contents (Elt F) → (⟨S1048576, .i32⟩ : BufTy).Contents (Elt F)),
    ternary main_v6 main_v13 main_v14 main_v15 ((fun x i u => Host.scatter scatter_S32_S1048576x1_S1048576_n_0_0_1 IntOp.addi x i u) : (⟨S32, .i32⟩ : BufTy).Contents (Elt F) → (⟨S1048576x1, .i32⟩ : BufTy).Contents (Elt F) → (⟨S1048576, .i32⟩ : BufTy).Contents (Elt F) → (⟨S32, .i32⟩ : BufTy).Contents (Elt F)),
    unary main_v15 main_v16 (sitofp .f32 : (⟨S32, .i32⟩ : BufTy).Contents (Elt F) → (⟨S32, .f32⟩ : BufTy).Contents (Elt F)) ]
/-- The weights: through `main_v25`. -/
abbrev opsD : List (HloOp τ sig (Elt F)) :=
  [ nullary main_c_4 (constantI S_ 32 0#32),
    unary main_c_4 main_v17 (broadcastInDim S16x256x256 ![] bcast_S_S16x256x256 : (⟨S_, .i32⟩ : BufTy).Contents (Elt F) → (⟨S16x256x256, .i32⟩ : BufTy).Contents (Elt F)),
    binary main_arg1 main_v17 main_v18 (cmpi .slt : (⟨S16x256x256, .i32⟩ : BufTy).Contents (Elt F) → (⟨S16x256x256, .i32⟩ : BufTy).Contents (Elt F) → (⟨S16x256x256, .i1⟩ : BufTy).Contents (Elt F)),
    nullary main_c_5 (constantI S_ 32 32#32),
    unary main_c_5 main_v19 (broadcastInDim S16x256x256 ![] bcast_S_S16x256x256 : (⟨S_, .i32⟩ : BufTy).Contents (Elt F) → (⟨S16x256x256, .i32⟩ : BufTy).Contents (Elt F)),
    binary main_arg1 main_v19 main_v20 (addi : (⟨S16x256x256, .i32⟩ : BufTy).Contents (Elt F) → (⟨S16x256x256, .i32⟩ : BufTy).Contents (Elt F) → (⟨S16x256x256, .i32⟩ : BufTy).Contents (Elt F)),
    ternary main_v18 main_v20 main_arg1 main_v21 (select : (⟨S16x256x256, .i1⟩ : BufTy).Contents (Elt F) → (⟨S16x256x256, .i32⟩ : BufTy).Contents (Elt F) → (⟨S16x256x256, .i32⟩ : BufTy).Contents (Elt F) → (⟨S16x256x256, .i32⟩ : BufTy).Contents (Elt F)),
    unary main_v21 main_v22 (broadcastInDim S16x256x256x1 ![0, 1, 2] bcast_S16x256x256_S16x256x256x1_0_1_2 : (⟨S16x256x256, .i32⟩ : BufTy).Contents (Elt F) → (⟨S16x256x256x1, .i32⟩ : BufTy).Contents (Elt F)),
    binary main_v16 main_v22 main_v23 ((fun x i => Host.gather gather_S32_S16x256x256x1_S16x256x256_n_0_n_n_0_3_1 x i) : (⟨S32, .f32⟩ : BufTy).Contents (Elt F) → (⟨S16x256x256x1, .i32⟩ : BufTy).Contents (Elt F) → (⟨S16x256x256, .f32⟩ : BufTy).Contents (Elt F)),
    nullary main_cst (constant S_ .f32 0x3F800000#32),
    unary main_cst main_v24 (broadcastInDim S16x256x256 ![] bcast_S_S16x256x256 : (⟨S_, .f32⟩ : BufTy).Contents (Elt F) → (⟨S16x256x256, .f32⟩ : BufTy).Contents (Elt F)),
    binary main_v24 main_v23 main_v25 (Host.divf : (⟨S16x256x256, .f32⟩ : BufTy).Contents (Elt F) → (⟨S16x256x256, .f32⟩ : BufTy).Contents (Elt F) → (⟨S16x256x256, .f32⟩ : BufTy).Contents (Elt F)) ]
/-- The two totals and the quotient: through `main_v29`. -/
abbrev opsE : List (HloOp τ sig (Elt F)) :=
  [ binary main_v4 main_v25 main_v26 (mulf : (⟨S16x256x256, .f32⟩ : BufTy).Contents (Elt F) → (⟨S16x256x256, .f32⟩ : BufTy).Contents (Elt F) → (⟨S16x256x256, .f32⟩ : BufTy).Contents (Elt F)),
    nullary main_cst_6 (constant S_ .f32 0x00000000#32),
    binary main_v26 main_cst_6 main_v27 ((fun x v => Host.reduceAdd x v reducesTo_S16x256x256_S_d0_1_2 h_S_) : (⟨S16x256x256, .f32⟩ : BufTy).Contents (Elt F) → (⟨S_, .f32⟩ : BufTy).Contents (Elt F) → (⟨S_, .f32⟩ : BufTy).Contents (Elt F)),
    nullary main_cst_7 (constant S_ .f32 0x00000000#32),
    binary main_v25 main_cst_7 main_v28 ((fun x v => Host.reduceAdd x v reducesTo_S16x256x256_S_d0_1_2 h_S_) : (⟨S16x256x256, .f32⟩ : BufTy).Contents (Elt F) → (⟨S_, .f32⟩ : BufTy).Contents (Elt F) → (⟨S_, .f32⟩ : BufTy).Contents (Elt F)),
    binary main_v27 main_v28 main_v29 (Host.divf : (⟨S_, .f32⟩ : BufTy).Contents (Elt F) → (⟨S_, .f32⟩ : BufTy).Contents (Elt F) → (⟨S_, .f32⟩ : BufTy).Contents (Elt F)) ]

/-! ## An operation over typed references is the operation over their buffers

A typed reference carries a proof that its buffer's type is the value's type, and an operation over typed references
carries its function across that proof. Where the proof is by computation the function is carried nowhere. -/

theorem nullary_of (ry : Ref sig .tc) (v : ry.ty.Contents (Elt F)) (y2 : ry.space ≠ .host) (y3 : ry.isScoped = false)
    (hy : (ry.space ≠ .host ∧ (ry : DevRef τ sig).isScoped = false)) :
    (TRef.nullary (τ := τ) (Ty := ry.ty) ⟨ry, rfl, y2, y3⟩ v : HloOp τ sig (Elt F)) = StableHlo.nullary ry v hy := rfl

theorem unary_of (rx ry : Ref sig .tc) (f : rx.ty.Contents (Elt F) → ry.ty.Contents (Elt F))
    (x2 : rx.space ≠ .host) (x3 : rx.isScoped = false) (y2 : ry.space ≠ .host) (y3 : ry.isScoped = false)
    (hx : (rx.space ≠ .host ∧ (rx : DevRef τ sig).isScoped = false)) (hy : (ry.space ≠ .host ∧ (ry : DevRef τ sig).isScoped = false)) :
    (TRef.unary (τ := τ) (Tx := rx.ty) (Ty := ry.ty) ⟨rx, rfl, x2, x3⟩ ⟨ry, rfl, y2, y3⟩ f : HloOp τ sig (Elt F))
      = StableHlo.unary rx ry f hx hy := rfl

theorem binary_of (ra rb ry : Ref sig .tc) (f : ra.ty.Contents (Elt F) → rb.ty.Contents (Elt F) → ry.ty.Contents (Elt F))
    (a2 : ra.space ≠ .host) (a3 : ra.isScoped = false) (b2 : rb.space ≠ .host) (b3 : rb.isScoped = false)
    (y2 : ry.space ≠ .host) (y3 : ry.isScoped = false)
    (ha : (ra.space ≠ .host ∧ (ra : DevRef τ sig).isScoped = false)) (hb : (rb.space ≠ .host ∧ (rb : DevRef τ sig).isScoped = false)) (hy : (ry.space ≠ .host ∧ (ry : DevRef τ sig).isScoped = false)) :
    (TRef.binary (τ := τ) (Ta := ra.ty) (Tb := rb.ty) (Ty := ry.ty) ⟨ra, rfl, a2, a3⟩ ⟨rb, rfl, b2, b3⟩ ⟨ry, rfl, y2, y3⟩ f
        : HloOp τ sig (Elt F))
      = StableHlo.binary ra rb ry f ha hb hy := rfl

theorem ternary_of (rc ra rb ry : Ref sig .tc)
    (f : rc.ty.Contents (Elt F) → ra.ty.Contents (Elt F) → rb.ty.Contents (Elt F) → ry.ty.Contents (Elt F))
    (c2 : rc.space ≠ .host) (c3 : rc.isScoped = false) (a2 : ra.space ≠ .host) (a3 : ra.isScoped = false)
    (b2 : rb.space ≠ .host) (b3 : rb.isScoped = false) (y2 : ry.space ≠ .host) (y3 : ry.isScoped = false)
    (hc : (rc.space ≠ .host ∧ (rc : DevRef τ sig).isScoped = false)) (ha : (ra.space ≠ .host ∧ (ra : DevRef τ sig).isScoped = false)) (hb : (rb.space ≠ .host ∧ (rb : DevRef τ sig).isScoped = false)) (hy : (ry.space ≠ .host ∧ (ry : DevRef τ sig).isScoped = false)) :
    (TRef.ternary (τ := τ) (Tc := rc.ty) (Ta := ra.ty) (Tb := rb.ty) (Ty := ry.ty)
        ⟨rc, rfl, c2, c3⟩ ⟨ra, rfl, a2, a3⟩ ⟨rb, rfl, b2, b3⟩ ⟨ry, rfl, y2, y3⟩ f : HloOp τ sig (Elt F))
      = StableHlo.ternary rc ra rb ry f hc ha hb hy := rfl

theorem reshape_of (rx ry : Ref sig .tc) (he : rx.ty.elt = ry.ty.elt) (hn : rx.ty.shape.ShapeCasts ry.ty.shape)
    (x2 : rx.space ≠ .host) (x3 : rx.isScoped = false) (y2 : ry.space ≠ .host) (y3 : ry.isScoped = false)
    (he' : rx.ty.elt = ry.ty.elt) (hn' : rx.ty.shape.ShapeCasts ry.ty.shape)
    (hx : (rx.space ≠ .host ∧ (rx : DevRef τ sig).isScoped = false)) (hy : (ry.space ≠ .host ∧ (ry : DevRef τ sig).isScoped = false)) :
    (TRef.reshape (τ := τ) (Val := Elt F) (Tx := rx.ty) (Ty := ry.ty) ⟨rx, rfl, x2, x3⟩ ⟨ry, rfl, y2, y3⟩ he hn : HloOp τ sig (Elt F))
      = StableHlo.reshape rx ry he' hn' hx hy := rfl

/-- The operations are the five stretches in order, the first three in the program's own spelling. -/
theorem ops_split : (ops : List (HloOp τ sig (Elt F))) = opsAg ++ (opsBg ++ (opsCg ++ (opsD ++ opsE))) := rfl

/-- An operation of a function the program calls is spelt over typed references, which unfolds to the operation over
    the buffers with its function carried across the references' types; one operation at a time the two spellings
    are the same term. -/
theorem opsA_eq : (opsAg : List (HloOp τ sig (Elt F))) = opsA :=
  congrArg₂ List.cons (nullary_of ..) (congrArg₂ List.cons (binary_of ..) (congrArg₂ List.cons (nullary_of ..) (congrArg₂ List.cons (unary_of ..) (congrArg₂ List.cons (binary_of ..) (congrArg₂ List.cons (unary_of ..) (congrArg₂ List.cons (unary_of ..) (congrArg₂ List.cons (binary_of ..) (congrArg₂ List.cons (unary_of ..) (congrArg₂ List.cons (nullary_of ..) (congrArg₂ List.cons (binary_of ..) (congrArg₂ List.cons (unary_of ..) (congrArg₂ List.cons (unary_of ..) (congrArg₂ List.cons (unary_of ..) (congrArg₂ List.cons (binary_of ..) (rfl)))))))))))))))
theorem opsB_eq : (opsBg : List (HloOp τ sig (Elt F))) = opsB :=
  congrArg₂ List.cons rfl (congrArg₂ List.cons (nullary_of ..) (congrArg₂ List.cons (unary_of ..) (congrArg₂ List.cons (binary_of ..) (congrArg₂ List.cons (nullary_of ..) (congrArg₂ List.cons (unary_of ..) (congrArg₂ List.cons (binary_of ..) (congrArg₂ List.cons (ternary_of ..) (congrArg₂ List.cons (reshape_of ..) (congrArg₂ List.cons (nullary_of ..) (congrArg₂ List.cons (nullary_of ..) (congrArg₂ List.cons (unary_of ..) (congrArg₂ List.cons (binary_of ..) (congrArg₂ List.cons (unary_of ..) (congrArg₂ List.cons (unary_of ..) (congrArg₂ List.cons (binary_of ..) (congrArg₂ List.cons (binary_of ..) (congrArg₂ List.cons (nullary_of ..) (congrArg₂ List.cons (binary_of ..) (congrArg₂ List.cons (binary_of ..) (congrArg₂ List.cons (nullary_of ..) (congrArg₂ List.cons (unary_of ..) (congrArg₂ List.cons (ternary_of ..) (congrArg₂ List.cons rfl (congrArg₂ List.cons rfl (rfl)))))))))))))))))))))))))
theorem opsC_eq : (opsCg : List (HloOp τ sig (Elt F))) = opsC :=
  congrArg₂ List.cons rfl (congrArg₂ List.cons rfl (congrArg₂ List.cons rfl (congrArg₂ List.cons rfl (congrArg₂ List.cons (unary_of ..) (congrArg₂ List.cons (unary_of ..) (congrArg₂ List.cons (binary_of ..) (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (rfl)))))))))))))))))))

/-- The contents after two lines in order are the second's after the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- The negated entry of the label's class, from ANY log-probabilities `lp`. -/
def pickNeg (lp : (⟨S16x32x256x256, .f32⟩ : BufTy).Contents (Elt F)) (x1 : (⟨S16x256x256, .i32⟩ : BufTy).Contents (Elt F)) : (⟨S16x256x256, .f32⟩ : BufTy).Contents (Elt F) :=
  Host.negf (shapeCast _ (select (val_main_call1_v12 (F := F) x1)
    (Host.gather gather_S16x32x256x256_S16x1x256x256x1_S16x1x256x256_n_1_023_023_1_4_1111 lp (val_main_call1_v5 (F := F) x1))
    (val_main_call1_v14 (F := F))) shapeCasts_S16x1x256x256_S16x256x256)
theorem pickNeg_eq (x0 : (⟨S16x32x256x256, .f32⟩ : BufTy).Contents (Elt F)) (x1 : (⟨S16x256x256, .i32⟩ : BufTy).Contents (Elt F)) :
    val_main_v4 (F := F) x0 x1 = pickNeg (val_main_v0 (F := F) x0) x1 := rfl

/-- The weights, from ANY table `cf` of counts. -/
def wgt (cf : (⟨S32, .f32⟩ : BufTy).Contents (Elt F)) (x1 : (⟨S16x256x256, .i32⟩ : BufTy).Contents (Elt F)) : (⟨S16x256x256, .f32⟩ : BufTy).Contents (Elt F) :=
  Host.divf (val_main_v24 (F := F)) (Host.gather gather_S32_S16x256x256x1_S16x256x256_n_0_n_n_0_3_1 cf (val_main_v22 (F := F) x1))
theorem wgt_eq (x1 : (⟨S16x256x256, .i32⟩ : BufTy).Contents (Elt F)) : val_main_v25 (F := F) x1 = wgt (val_main_v16 (F := F) x1) x1 := rfl

/-- The quotient of the two totals, from ANY cross entropies `a` and weights `w`. -/
def fin (a w : (⟨S16x256x256, .f32⟩ : BufTy).Contents (Elt F)) : (⟨S_, .f32⟩ : BufTy).Contents (Elt F) :=
  Host.divf (Host.reduceAdd (mulf a w) (val_main_cst_6 (F := F)) reducesTo_S16x256x256_S_d0_1_2 h_S_)
    (Host.reduceAdd w (val_main_cst_7 (F := F)) reducesTo_S16x256x256_S_d0_1_2 h_S_)
theorem fin_eq (x0 : (⟨S16x32x256x256, .f32⟩ : BufTy).Contents (Elt F)) (x1 : (⟨S16x256x256, .i32⟩ : BufTy).Contents (Elt F)) :
    val_main_v29 (F := F) x0 x1 = fin (val_main_v4 (F := F) x0 x1) (val_main_v25 (F := F) x1) := rfl

section
variable (V : Valuation τ sig (Elt F))

/-! ## Stretch A -/
theorem stA_v0 : after opsA V (Proc.devRef .tc main_v0) = val_main_v0 (F := F) (V (Proc.devRef .tc main_arg0)) := by
  after_results_simp <;> rfl
theorem stA_arg1 : after opsA V (Proc.devRef .tc main_arg1) = V (Proc.devRef .tc main_arg1) := by
  after_results_simp <;> rfl

/-! ## Stretch B -/
theorem stB_v4 : after opsB V (Proc.devRef .tc main_v4)
    = pickNeg (V (Proc.devRef .tc main_v0)) (V (Proc.devRef .tc main_arg1)) := by
  after_results_simp <;> rfl
theorem stB_arg1 : after opsB V (Proc.devRef .tc main_arg1) = V (Proc.devRef .tc main_arg1) := by
  after_results_simp <;> rfl

/-! ## Stretch C -/
theorem stC_v16 : after opsC V (Proc.devRef .tc main_v16) = val_main_v16 (F := F) (V (Proc.devRef .tc main_arg1)) := by
  after_results_simp <;> rfl
theorem stC_v4 : after opsC V (Proc.devRef .tc main_v4) = V (Proc.devRef .tc main_v4) := by
  after_results_simp <;> rfl
theorem stC_arg1 : after opsC V (Proc.devRef .tc main_arg1) = V (Proc.devRef .tc main_arg1) := by
  after_results_simp <;> rfl

/-! ## Stretch D -/
theorem stD_v25 : after opsD V (Proc.devRef .tc main_v25)
    = wgt (V (Proc.devRef .tc main_v16)) (V (Proc.devRef .tc main_arg1)) := by
  after_results_simp <;> rfl
theorem stD_v4 : after opsD V (Proc.devRef .tc main_v4) = V (Proc.devRef .tc main_v4) := by
  after_results_simp <;> rfl

/-! ## Stretch E -/
theorem stE_v29 : after opsE V (Proc.devRef .tc main_v29)
    = fin (V (Proc.devRef .tc main_v4)) (V (Proc.devRef .tc main_v25)) := by
  after_results_simp <;> rfl

/-- The fold at the result buffer is the last stage, as a function of the two argument arrays. -/
theorem fold_eq : after ops V (Proc.devRef .tc main_v29)
    = val_main_v29 (F := F) (V (Proc.devRef .tc main_arg0)) (V (Proc.devRef .tc main_arg1)) := by
  rw [ops_split, opsA_eq, opsB_eq, opsC_eq, after_append, after_append, after_append, after_append,
    stE_v29, stD_v25, stD_v4, stC_v16, stC_v4, stC_arg1, stB_v4, stB_arg1, stA_v0, stA_arg1,
    fin_eq, pickNeg_eq, wgt_eq]

end

end Cert.ReferenceIdeal.Stages

end
-- ==== Proof.Spec.lean ====
/-
  The class-weighted cross entropy both programs compute, as one function of the logits
  `X : [16, 32, 256, 256]` and the labels `T : [16, 256, 256]` (32-bit words), over the extended reals.

  For a pixel (n, h, w): `mx` is the largest of its 32 logits, `lse` the logarithm of the sum of the
  exponentials of the logits shifted by `mx`, `pick` the logit of the pixel's own class, written as the sum over
  the classes of the logit where the label is that class's word and zero elsewhere; the cross entropy is
  `ce = mx + lse - pick`. `cnt c` counts the pixels labelled `c`; a pixel's weight `wt` is the reciprocal of the
  count of its own class, again written as a sum over the classes that keeps one term. The loss is the weighted
  sum of the cross entropies over the sum of the weights.

  The sums also appear cut the way the grid cuts them: a block of 128 rows (`hrow hb r` is row `128 hb + r`),
  and the counts one grid point (a batch entry `pn k` and a block `ph k`, `k = 2 n + hb`) at a time.
-/
import Idealize.ShloMosaic.PureOps.Ideal
import Idealize.ShloMosaic.Lib.ValueIdx

noncomputable section

namespace Cert.Wce

open Idealize.ShloMosaic Idealize.ShloMosaic.ValueIdx

abbrev SX : Shape := ⟨4, ![16, 32, 256, 256]⟩
abbrev ST : Shape := ⟨3, ![16, 256, 256]⟩
abbrev SC : Shape := ⟨3, ![32, 1, 1]⟩
abbrev SO : Shape := ⟨3, ![16, 1, 2]⟩

/-- The word of class `c`. -/
def cls (c : Fin 32) : BitVec 32 := BitVec.ofNat 32 c.val

/-- Row `r` of the block `hb` of 128 rows. -/
def hrow (hb : Fin 2) (r : Fin 128) : Fin 256 := ⟨128 * hb.val + r.val, by omega⟩

/-- The batch entry and the block of grid point `k = 2 n + hb`. -/
def pn (k : Fin 32) : Fin 16 := ⟨k.val / 2, by omega⟩
def ph (k : Fin 32) : Fin 2 := ⟨k.val % 2, by omega⟩

section
variable (X : SX.Idx → EReal) (T : ST.Idx → BitVec 32)

/-- Every logit is a real number. -/
def Finite : Prop := ∀ i : SX.Idx, ∃ r : ℝ, X i = (r : EReal)

/-- Every label, read as a signed integer, is a class: `0 ≤ t < 32`. -/
def InRange : Prop := ∀ i : ST.Idx, 0 ≤ (T i).toInt ∧ (T i).toInt < 32

/-- The class of pixel (n, h, w) (its label's word reduced into the 32 classes; under `InRange` the label itself). -/
def tcl (n : Fin 16) (h w : Fin 256) : Fin 32 := ⟨(T (ix3 n h w)).toNat % 32, Nat.mod_lt _ (by decide)⟩

/-- One where pixel (n, h, w) is labelled `c`, zero elsewhere. -/
def hit (n : Fin 16) (h w : Fin 256) (c : Fin 32) : EReal := if T (ix3 n h w) = cls c then 1 else 0

/-- The number of pixels labelled `c`. -/
def cnt (c : Fin 32) : EReal := ∑ n : Fin 16, ∑ h : Fin 256, ∑ w : Fin 256, hit T n h w c

/-- The part of `cnt c` that one block of rows of one batch entry contributes. -/
def part0 (n : Fin 16) (hb : Fin 2) (c : Fin 32) : EReal := ∑ r : Fin 128, ∑ w : Fin 256, hit T n (hrow hb r) w c

/-- The largest logit of a pixel. -/
def mx (n : Fin 16) (h w : Fin 256) : EReal := (Finset.univ : Finset (Fin 32)).fold max ⊥ (fun c => X (ix4 n c h w))

/-- The logarithm of the sum of the shifted exponentials. -/
def lse (n : Fin 16) (h w : Fin 256) : EReal := Ideal.log (∑ c : Fin 32, Ideal.exp (X (ix4 n c h w) - mx X n h w))

/-- The logit of the pixel's own class, as a sum that keeps one term. -/
def pick (n : Fin 16) (h w : Fin 256) : EReal := ∑ c : Fin 32, if T (ix3 n h w) = cls c then X (ix4 n c h w) else 0

/-- The cross entropy of a pixel. -/
def ce (n : Fin 16) (h w : Fin 256) : EReal := mx X n h w + lse X n h w - pick X T n h w

/-- The weight of a pixel from a table `iv` of per-class weights, as a sum that keeps one term. -/
def wtOf (iv : Fin 32 → EReal) (n : Fin 16) (h w : Fin 256) : EReal := ∑ c : Fin 32, if T (ix3 n h w) = cls c then iv c else 0

/-- The reciprocal of a class's count. -/
def inv (c : Fin 32) : EReal := Ideal.div 1 (cnt T c)

/-- The weight of a pixel. -/
def wt (n : Fin 16) (h w : Fin 256) : EReal := wtOf T (inv T) n h w

/-- The weighted sum of the cross entropies, the sum of the weights, the loss. -/
def num : EReal := ∑ n : Fin 16, ∑ h : Fin 256, ∑ w : Fin 256, ce X T n h w * wt T n h w
def den : EReal := ∑ n : Fin 16, ∑ h : Fin 256, ∑ w : Fin 256, wt T n h w
def loss : EReal := Ideal.div (num X T) (den T)

/-- What one block of rows of batch entry `n` adds to the pair (weighted sum, sum of weights), from a table `iv`. -/
def blkNum (iv : Fin 32 → EReal) (n : Fin 16) (hb : Fin 2) : EReal :=
  ∑ r : Fin 128, ∑ w : Fin 256, ce X T n (hrow hb r) w * wtOf T iv n (hrow hb r) w
def blkDen (iv : Fin 32 → EReal) (n : Fin 16) (hb : Fin 2) : EReal :=
  ∑ r : Fin 128, ∑ w : Fin 256, wtOf T iv n (hrow hb r) w

/-- Batch entry `n`'s pair after its two blocks, accumulated from zero in order. -/
def rowNum (iv : Fin 32 → EReal) (n : Fin 16) : EReal := (0 + blkNum X T iv n 0) + blkNum X T iv n 1
def rowDen (iv : Fin 32 → EReal) (n : Fin 16) : EReal := (0 + blkDen T iv n 0) + blkDen T iv n 1

/-- The counts accumulated from zero one grid point at a time, in order. -/
def cntRun (c : Fin 32) : ℕ → EReal
  | 0 => 0 + part0 T (pn 0) (ph 0) c
  | k + 1 => if h : k + 1 < 32 then cntRun c k + part0 T (pn ⟨k + 1, h⟩) (ph ⟨k + 1, h⟩) c else cntRun c k

/-- The loss as the two-region program assembles it: the counts point by point, their reciprocals, each batch
    entry's pair block by block, the two totals from zero, the quotient. -/
def lossK : EReal :=
  Ideal.div (0 + ∑ n : Fin 16, rowNum X T (fun c => Ideal.div 1 (cntRun T c 31)) n)
    (0 + ∑ n : Fin 16, rowDen T (fun c => Ideal.div 1 (cntRun T c 31)) n)

end

end Cert.Wce

end
-- ==== Proof.Region0.lean ====
/-
  The first region's value. Its 32 grid points (batch entry n, block hb of 128 rows; point k = 2 n + hb) each add
  to one [32, 1, 1] block the number of the block's pixels labelled with each class: the label block compared
  with the class index along a new leading axis, the matches as ones, summed along the lanes and then along the
  rows. The first point stores zeros first. So after the last point the block, which is the whole result array,
  holds the counts gathered point by point from zero.
-/
import proofs.«408105_j28698971472547_3_alg».proof.Proof.Gen.KernelIdeal.Frame
import proofs.«408105_j28698971472547_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val0

open Cert.KernelIdeal Cert.KernelIdeal.Gen Idealize.ShloMosaic Idealize.ShloMosaic.TcCoe Idealize.SL.Sem
open Idealize.ShloMosaic.ValueIdx

/-! ## What one grid point leaves in the block -/

section Pieces
variable {F : FTy → Type} [FloatOps F]

theorem zeros3 : (![0, 0, 0] : Fin 3 → Nat) = fun _ => 0 := funext fun a => by fin_cases a <;> rfl

/-- A point that is not the first leaves, in the block holding `xo`, the sum of `xo` and the counts of the label
    block `x`: its one store covers the block, and its loads read the whole buffers. -/
theorem out_B (c : Dev nD) (i : grid0.Coords) (a2 : Memref sig .tc .vmem S1x128x256 .i32) (h2 : a2.IsWhole)
    (a3 : Memref sig .tc .vmem S32x1x1 .f32) (h3 : a3.IsWhole) (hc : ¬cond0_0 i)
    (x : Vec F S1x128x256 .i32) (xo : Vec F S32x1x1 .f32) :
    out0_B_1 c i a2 h2 a3 h3 hc x xo = k0_pay2 x xo := by
  unfold out0_B_1
  rw [View.read_writes_eq_canon _ _ _ (cover0_B_1 c i a2 h2 a3 h3 hc x xo)]
  unfold kernelRun0_B
  dsimp only
  sl_unfold_words
  rw [View.canon_unit_zero zeros3]
  simp only [View.readAt_eq_ld, h2.read_unread, h3.read_unread, View.ld_unit_zero (S := S1x128x256) zeros3,
    View.ld_unit_zero (S := S32x1x1) zeros3]

/-- The first point stores the zero block, reads it back, and leaves the zero block plus the counts of `x`. -/
theorem out_A (c : Dev nD) (i : grid0.Coords) (a2 : Memref sig .tc .vmem S1x128x256 .i32) (h2 : a2.IsWhole)
    (a3 : Memref sig .tc .vmem S32x1x1 .f32) (h3 : a3.IsWhole) (hc : cond0_0 i)
    (x : Vec F S1x128x256 .i32) :
    out0_A_1 c i a2 h2 a3 h3 hc x = k0_pay2 x (k0_pay1 (F := F)) := by
  unfold out0_A_1
  rw [View.read_writes_eq_canon _ _ _ (cover0_A_1 c i a2 h2 a3 h3 hc x)]
  unfold kernelRun0_A
  dsimp only
  sl_unfold_words
  rw [View.canon_cons_unit_zero (S := S32x1x1) zeros3, View.readCov_unit_zero (S := S32x1x1) _ zeros3]
  simp only [View.readAt_eq_ld, h2.read_unread, View.ld_unit_zero (S := S1x128x256) zeros3]

end Pieces

/-! ## The arithmetic of one point, read at a class -/

/-- A one-bit match widened to 32 bits and converted as a signed integer is one where the words agree, zero
    elsewhere. -/
theorem sitofp_match (x y : BitVec 32) :
    (FloatOps.sitofp (F := Ideal) .f32 ((IntOp.cmpi .eq x y).setWidth 32) : EReal) = if x = y then 1 else 0 := by
  by_cases h : x = y
  · rw [if_pos h, IntOp.cmpi_eq.mpr h]
    show ((((1#1 : BitVec 1).setWidth 32).toInt : ℝ) : EReal) = 1
    rw [show ((1#1 : BitVec 1).setWidth 32).toInt = 1 from by decide]
    simp
  · rw [if_neg h, eq_zero_of_ne_one (fun e => h (IntOp.cmpi_eq.mp e))]
    show ((((0#1 : BitVec 1).setWidth 32).toInt : ℝ) : EReal) = 0
    rw [show ((0#1 : BitVec 1).setWidth 32).toInt = 0 from by decide]
    simp

/-- The label block compared with the class index along a new leading axis, the matches as ones and zeros. -/
def hits (v5 : IVec S1x128x256 32) : FVec Ideal S32x128x256 .f32 :=
  sitofp .f32 (extui 32 (cmpi .eq
    (broadcastTo S32x128x256
      (shapeCast S1x128x256 (shapeCast S128x256 v5 shapeCasts_S1x128x256_S128x256) shapeCasts_S128x256_S1x128x256)
      broadcasts_S1x128x256_S32x128x256)
    (iota .tc S32x128x256 32 [0] iota_S32x128x256_d0_w32)) natLt_1_32)

/-- At (c, r, w) it is one where pixel (r, w) of the block carries class `c`'s word. -/
theorem hits_apply (v5 : IVec S1x128x256 32) (c : Fin 32) (r : Fin 128) (w : Fin 256) :
    (hits v5 (ix3 c r w) : EReal) = if v5 (ix3 (0 : Fin 1) r w) = BitVec.ofNat 32 c.val then 1 else 0 := by
  have e9 : broadcastTo S32x128x256
      (shapeCast S1x128x256 (shapeCast S128x256 v5 shapeCasts_S1x128x256_S128x256) shapeCasts_S128x256_S1x128x256)
      broadcasts_S1x128x256_S32x128x256 (ix3 c r w) = v5 (ix3 (0 : Fin 1) r w) := by
    rw [shapeCast_shapeCast]
    refine broadcastTo_apply v5 _ (ix3 c r w) (ix3 (0 : Fin 1) r w) fun ax => ?_
    match ax with
    | ⟨0, _⟩ => rfl
    | ⟨1, _⟩ => rfl
    | ⟨2, _⟩ => rfl
  have e7 : iota .tc S32x128x256 32 [0] iota_S32x128x256_d0_w32 (ix3 c r w) = BitVec.ofNat 32 c.val :=
    iota_single_apply .tc S32x128x256 32 0 _ _
  refine Eq.trans ?_ (sitofp_match (v5 (ix3 (0 : Fin 1) r w)) (BitVec.ofNat 32 c.val))
  exact congrArg₂ (fun a b : BitVec 32 => FloatOps.sitofp (F := Ideal) .f32 ((IntOp.cmpi .eq a b).setWidth 32)) e9 e7

section Layout
variable {α : Type}

/-- An `[a, 1]` array cast to `[a, 1, 1]` reads, at `(i, u, v)`, the operand at `(i, 0)`. -/
theorem shapeCast_a1_a11_apply {a : ℕ} (x : (⟨2, ![a, 1]⟩ : Shape).Idx → α)
    (h : (⟨2, ![a, 1]⟩ : Shape).ShapeCasts ⟨3, ![a, 1, 1]⟩) (i : Fin a) (u v : Fin 1) :
    shapeCast ⟨3, ![a, 1, 1]⟩ x h (ix3 i u v) = x (ix2 i (0 : Fin 1)) :=
  shapeCast_apply x h _ _ (by
    have hu : u.val = 0 := by omega
    have hv : v.val = 0 := by omega
    rw [Shape.rowMajor_val_two, Shape.rowMajor_val_three]
    show i.val * 1 + 0 = (i.val * 1 + u.val) * 1 + v.val
    omega)

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    omega)

end Layout

/-- The sum along the lanes of a [32, 128, 256] vector, at (c, r): the sum over the lanes `w` of its (c, r, w). -/
theorem sum_lanes (src : FVec Ideal S32x128x256 .f32) (h : S32x128x256.Reduces [2] S32x128) (hφ : FKind.Formats .f32)
    (hacc : (0x00000000#32 : BitVec 32) = 0x00000000#32) (c : Fin 32) (r : Fin 128) :
    multiReduction (F := Ideal) .add [2] S32x128 src 0x00000000#32 h hφ hacc (ix2 c r) = ∑ w : Fin 256, src (ix3 c r w) :=
  (Ideal.multiReduction_add_single src 0x00000000#32 h hφ hacc (ix2 c r)).trans
    (Finset.sum_congr rfl fun w _ => congrArg src (funext fun a => by
      match a with
      | ⟨0, _⟩ => exact Fin.ext rfl
      | ⟨1, _⟩ => exact Fin.ext rfl
      | ⟨2, _⟩ => exact Fin.ext rfl))

/-- The sum along the rows of a [32, 128, 1] vector, at (c, 0): the sum over the rows `r` of its (c, r, 0). -/
theorem sum_rows (src : FVec Ideal S32x128x1 .f32) (h : S32x128x1.Reduces [1] S32x1) (hφ : FKind.Formats .f32)
    (hacc : (0x00000000#32 : BitVec 32) = 0x00000000#32) (c : Fin 32) :
    multiReduction (F := Ideal) .add [1] S32x1 src 0x00000000#32 h hφ hacc (ix2 c (0 : Fin 1))
      = ∑ r : Fin 128, src (ix3 c r (0 : Fin 1)) :=
  (Ideal.multiReduction_add_single src 0x00000000#32 h hφ hacc (ix2 c (0 : Fin 1))).trans
    (Finset.sum_congr rfl fun r _ => congrArg src (funext fun a => by
      match a with
      | ⟨0, _⟩ => exact Fin.ext rfl
      | ⟨1, _⟩ => exact Fin.ext rfl
      | ⟨2, _⟩ => exact Fin.ext rfl))

/-- The running block's update as one expression of the label block's matches. -/
theorem pay2_eq (v5 : IVec S1x128x256 32) (v17 : FVec Ideal S32x1x1 .f32) :
    k0_pay2 (F := Ideal) v5 v17
      = addf (F := Ideal) (shapeCast S32x1x1 v17 shapeCasts_S32x1x1_S32x1x1)
          (shapeCast S32x1x1
            (multiReduction (F := Ideal) .add [1] S32x1
              (shapeCast S32x128x1
                (multiReduction (F := Ideal) .add [2] S32x128 (hits v5) 0x00000000#32 reduces_S32x128x256_S32x128 (.inl rfl) rfl)
                shapeCasts_S32x128_S32x128x1)
              0x00000000#32 reduces_S32x128x1_S32x1 (.inl rfl) rfl)
            shapeCasts_S32x1_S32x1x1) := rfl

/-- Class `c`'s entry after a point: the entry before plus the number of the block's pixels carrying `c`'s word. -/
theorem pay2_apply (v5 : IVec S1x128x256 32) (v17 : FVec Ideal S32x1x1 .f32) (c : Fin 32) :
    k0_pay2 (F := Ideal) v5 v17 (ix3 c (0 : Fin 1) (0 : Fin 1))
      = v17 (ix3 c (0 : Fin 1) (0 : Fin 1))
        + ∑ r : Fin 128, ∑ w : Fin 256, (if v5 (ix3 (0 : Fin 1) r w) = BitVec.ofNat 32 c.val then (1 : EReal) else 0) := by
  rw [pay2_eq]
  refine (addf_apply _ _ _).trans ?_
  refine congrArg₂ (fun a b : EReal => a + b) ?_ ?_
  · exact congrFun (shapeCast_self v17 _) _
  · refine (shapeCast_a1_a11_apply _ _ c 0 0).trans ?_
    refine (sum_rows _ _ _ _ c).trans ?_
    refine Finset.sum_congr rfl fun r _ => ?_
    refine (shapeCast_ab_ab1_apply _ _ c r 0).trans ?_
    refine (sum_lanes _ _ _ _ c r).trans ?_
    exact Finset.sum_congr rfl fun w _ => hits_apply v5 c r w

/-- The zero block's entries are zero. -/
theorem pay1_apply (i : S32x1x1.Idx) : k0_pay1 (F := Ideal) i = (0 : EReal) := by
  show Ideal.ofBits .f32 0x00000000#32 = 0
  exact Ideal.ofBits_zero_f32

/-! ## The label block of a point -/

variable (V : (c : Dev nD) → (b : Ref sig .tc) → Buf (Elt Ideal) ((c : Thread nD τ).loc b))

/-- The label array as the region finds it. -/
abbrev labels (c : Dev nD) : IVec S16x256x256 32 := V c main_arg1

/-- Point `t`'s label block is block (t / 2, t % 2, 0) of the array: decided over the grid. -/
theorem block_index : ∀ t : Fin cfg0.N, win0_0.index t 0 = t.val / 2 ∧ win0_0.index t 1 = t.val % 2 ∧ win0_0.index t 2 = 0 :=
  (by decide +kernel : ∀ t : Fin grid0.N, win0_0.index t 0 = t.val / 2 ∧ win0_0.index t 1 = t.val % 2 ∧ win0_0.index t 2 = 0)

/-- Pixel (r, w) of point `t`'s label block is pixel (128 (t % 2) + r, w) of batch entry t / 2. -/
theorem iblk_apply (c : Dev nD) (t : Fin cfg0.N) (n : Fin 16) (h : Fin 256) (r : Fin 128) (w : Fin 256)
    (hn : n.val = t.val / 2) (hh : h.val = 128 * (t.val % 2) + r.val) :
    (iblk0 V c 0 t : IVec S1x128x256 32) (ix3 (0 : Fin 1) r w) = labels V c (ix3 n h w) := by
  unfold iblk0
  rw [View.read_apply]
  show V c main_arg1 _ = V c main_arg1 _
  congr 1
  funext a
  apply Fin.ext
  match a with
  | ⟨0, _⟩ => show win0_0.index t 0 * 1 + 1 * 0 = n.val; rw [(block_index t).1]; omega
  | ⟨1, _⟩ => show win0_0.index t 1 * 128 + 1 * r.val = h.val; rw [(block_index t).2.1]; omega
  | ⟨2, _⟩ => show win0_0.index t 2 * 256 + 1 * w.val = w.val; rw [(block_index t).2.2]; omega

/-! ## The counts gathered point by point -/

/-- The matches of point `t`'s label block with class `cl`, summed, are what the block contributes to `cl`'s count. -/
theorem block_sum (c : Dev nD) (t : Fin cfg0.N) (ht : t.val < 32) (cl : Fin 32) :
    (∑ r : Fin 128, ∑ w : Fin 256,
        (if (iblk0 V c 0 t : IVec S1x128x256 32) (ix3 (0 : Fin 1) r w) = BitVec.ofNat 32 cl.val then (1 : EReal) else 0))
      = Cert.Wce.part0 (labels V c) (Cert.Wce.pn ⟨t.val, ht⟩) (Cert.Wce.ph ⟨t.val, ht⟩) cl := by
  unfold Cert.Wce.part0 Cert.Wce.hit Cert.Wce.cls
  refine Finset.sum_congr rfl fun r _ => Finset.sum_congr rfl fun w _ => ?_
  exact congrArg (fun x : BitVec 32 => if x = BitVec.ofNat 32 cl.val then (1 : EReal) else 0)
    (iblk_apply V c t (Cert.Wce.pn ⟨t.val, ht⟩) (Cert.Wce.hrow (Cert.Wce.ph ⟨t.val, ht⟩) r) r w rfl rfl)

/-- After point `k` class `cl`'s entry of the block is the count gathered over the points up to `k`. -/
theorem outsAt_counts (c : Dev nD) (cl : Fin 32) : ∀ (k : ℕ) (hk : k < cfg0.N),
    outsAt0 V c k hk (ix3 cl (0 : Fin 1) (0 : Fin 1)) = Cert.Wce.cntRun (labels V c) cl k
  | 0, hk => by
    have h0 : (⟨0, hk⟩ : Fin cfg0.N).val % 32 = 0 := rfl
    rw [outsAt0_A V c ⟨0, hk⟩ h0]
    refine (congrFun (out_A (F := Ideal) c (grid0.coords ⟨0, hk⟩) (ms0_0 ⟨0, hk⟩) (hs0_0 ⟨0, hk⟩) (ms0_1 ⟨0, hk⟩)
      (hs0_1 ⟨0, hk⟩) ((hcond0_0 ⟨0, hk⟩).mpr h0) (iblk0 V c 0 ⟨0, hk⟩)) (ix3 cl (0 : Fin 1) (0 : Fin 1))).trans ?_
    refine (pay2_apply (iblk0 V c 0 ⟨0, hk⟩) (k0_pay1 (F := Ideal)) cl).trans ?_
    rw [pay1_apply]
    exact congrArg (fun s : EReal => 0 + s) (block_sum V c ⟨0, hk⟩ (show (0 : ℕ) < 32 by decide) cl)
  | k + 1, hk => by
    have hN : cfg0.N = 32 := N_0
    have hk32 : k + 1 < 32 := by omega
    have hB : ¬(⟨k + 1, hk⟩ : Fin cfg0.N).val % 32 = 0 := by dsimp only; omega
    have e : Cert.Wce.cntRun (labels V c) cl (k + 1)
        = Cert.Wce.cntRun (labels V c) cl k
          + Cert.Wce.part0 (labels V c) (Cert.Wce.pn ⟨k + 1, hk32⟩) (Cert.Wce.ph ⟨k + 1, hk32⟩) cl := by
      show (if h : k + 1 < 32 then Cert.Wce.cntRun (labels V c) cl k
          + Cert.Wce.part0 (labels V c) (Cert.Wce.pn ⟨k + 1, h⟩) (Cert.Wce.ph ⟨k + 1, h⟩) cl
        else Cert.Wce.cntRun (labels V c) cl k) = _
      rw [dif_pos hk32]
    rw [outsAt0_B V c ⟨k + 1, hk⟩ hB, e]
    show out0_B_1 c (grid0.coords ⟨k + 1, hk⟩) (ms0_0 ⟨k + 1, hk⟩) (hs0_0 ⟨k + 1, hk⟩) (ms0_1 ⟨k + 1, hk⟩)
      (hs0_1 ⟨k + 1, hk⟩) (fun h => hB ((hcond0_0 ⟨k + 1, hk⟩).mp h)) (iblk0 V c 0 ⟨k + 1, hk⟩)
      (outsAt0 V c k (Nat.lt_of_succ_lt hk)) (ix3 cl (0 : Fin 1) (0 : Fin 1)) = _
    refine (congrFun (out_B (F := Ideal) c (grid0.coords ⟨k + 1, hk⟩) (ms0_0 ⟨k + 1, hk⟩) (hs0_0 ⟨k + 1, hk⟩)
      (ms0_1 ⟨k + 1, hk⟩) (hs0_1 ⟨k + 1, hk⟩) (fun h => hB ((hcond0_0 ⟨k + 1, hk⟩).mp h)) (iblk0 V c 0 ⟨k + 1, hk⟩)
      (outsAt0 V c k (Nat.lt_of_succ_lt hk))) (ix3 cl (0 : Fin 1) (0 : Fin 1))).trans ?_
    refine (pay2_apply (iblk0 V c 0 ⟨k + 1, hk⟩) (outsAt0 V c k (Nat.lt_of_succ_lt hk)) cl).trans ?_
    rw [outsAt_counts c cl k (Nat.lt_of_succ_lt hk)]
    exact congrArg (fun s : EReal => Cert.Wce.cntRun (labels V c) cl k + s) (block_sum V c ⟨k + 1, hk⟩ hk32 cl)

/-! ## The result array -/

/-- The counts array the region leaves: class `i 0`'s count gathered over the 32 points. -/
abbrev countsRes (c : Dev nD) : Buf (Elt Ideal) ((c : Thread nD τ).loc main_v0) :=
  (fun i : S32x1x1.Idx => Cert.Wce.cntRun (V c main_arg1 : IVec S16x256x256 32) ⟨(i 0).val, (i 0).isLt⟩ 31 :
    Vec Ideal S32x1x1 .f32)

/-- The last point. -/
abbrev tLast : Fin cfg0.N := ⟨31, by rw [show cfg0.N = 32 from N_0]; decide⟩

/-- After the last point the block holds the counts. -/
theorem outs_last (c : Dev nD) :
    outsAt0 V c tLast.val tLast.isLt = (countsRes V c : Vec Ideal S32x1x1 .f32) := by
  funext i
  obtain ⟨cl, u, v, rfl⟩ : ∃ (cl : Fin 32) (u v : Fin 1), i = ix3 cl u v := ⟨i 0, i 1, i 2, eq_ix3 i⟩
  obtain rfl : u = 0 := Subsingleton.elim _ _
  obtain rfl : v = 0 := Subsingleton.elim _ _
  exact outsAt_counts V c cl 31 tLast.isLt

/-- The one write-back, at the last point, writes the counts: block (0, 0, 0) of the [32, 1, 1] array read through
    zero offsets is the array. -/
theorem flushed_counts (c : Dev nD) (t : Fin cfg0.N) (hf : (cfg0.win 1).flush t = true) :
    (dat0 V c).flushed 1 t = ((cfg0.win 1).blk t).view.read (Elt Ideal) (countsRes V c) := by
  have hN : cfg0.N = 32 := N_0
  have h31 : t.val = 31 := by have := (flush0_1 t).mp hf; have := t.isLt; omega
  obtain rfl : t = tLast := Fin.ext h31
  show (cfg0.win 1).cut (grid0.coords tLast) ((dat0 V c).after 1 tLast) = _
  rw [after0_1, outs_last]
  have hz' : (fun a => win0_1.index tLast a * main_v0.ty.shape.size a) = fun _ => 0 :=
    funext fun a => by fin_cases a <;> decide +kernel
  exact (Memref.read_access_unit_zero (Elt Ideal) main_v0 hz' (fun a => by rw [congrFun hz' a]; simp) (countsRes V c)).symm

/-- After the region its result array holds the counts. -/
theorem counts_final (c : Dev nD) : (dat0 (F := Ideal) V c).arrAt 1 cfg0.N = countsRes V c :=
  (dat0 V c).arrAt_eq_of_cover 1 (countsRes V c) (flushed_counts V c) fun i =>
    ⟨tLast, (flush0_1 tLast).mpr rfl, by
      show i ∈ ((View.whole main_v0).slice (win0_1.rect tLast)).set
      rw [View.set_slice_whole, Rect.mem_set_unit]
      intro a
      have h0 : (i 0 : Nat) < 32 := (i 0).isLt
      have h1 : (i 1 : Nat) < 1 := (i 1).isLt
      have h2 : (i 2 : Nat) < 1 := (i 2).isLt
      match a with
      | ⟨0, _⟩ => show win0_1.index tLast 0 * win0_1.size 0 ≤ (i 0 : Nat) ∧ (i 0 : Nat) < win0_1.index tLast 0 * win0_1.size 0 + win0_1.xsize (grid0.coords tLast) 0
                  rw [show win0_1.index tLast 0 * win0_1.size 0 = 0 from by decide +kernel, show win0_1.xsize (grid0.coords tLast) 0 = 32 from by decide +kernel]; omega
      | ⟨1, _⟩ => show win0_1.index tLast 1 * win0_1.size 1 ≤ (i 1 : Nat) ∧ (i 1 : Nat) < win0_1.index tLast 1 * win0_1.size 1 + win0_1.xsize (grid0.coords tLast) 1
                  rw [show win0_1.index tLast 1 * win0_1.size 1 = 0 from by decide +kernel, show win0_1.xsize (grid0.coords tLast) 1 = 1 from by decide +kernel]; omega
      | ⟨2, _⟩ => show win0_1.index tLast 2 * win0_1.size 2 ≤ (i 2 : Nat) ∧ (i 2 : Nat) < win0_1.index tLast 2 * win0_1.size 2 + win0_1.xsize (grid0.coords tLast) 2
                  rw [show win0_1.index tLast 2 * win0_1.size 2 = 0 from by decide +kernel, show win0_1.xsize (grid0.coords tLast) 2 = 1 from by decide +kernel]; omega⟩

end Cert.KernelIdeal.Val0

end
-- ==== Proof.Region1Pay.lean ====
/-
  The second region's arithmetic at one grid point, over the point's blocks as variables. With the logits' block
  `x`, the labels' block `t` and the weights' table `iv` holding batch entry n's block hb of the arrays X and T, the
  pair the body adds to the running block `prev` is (sum over the block's pixels of cross entropy times weight,
  sum over the block's pixels of the weights): per pixel the largest logit is the fold of max from -inf over the
  class axis, the log-sum-exp the logarithm of the sum of the shifted exponentials, the label's logit and the
  label's weight each a sum over the class axis of a select on the one-hot compare of the label with the class
  index; the lane sums and then the row sums are plain sums; the two totals sit at columns 0 and 1.
-/
import proofs.«408105_j28698971472547_3_alg».proof.Proof.Gen.KernelIdeal.Skeleton
import proofs.«408105_j28698971472547_3_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.KernelIdeal.Pay1

open Cert.KernelIdeal Cert.KernelIdeal.Gen Idealize.ShloMosaic Idealize.ShloMosaic.ValueIdx

/-! ## Layout operations and reductions read at coordinates -/

section Read
variable {α : Type}

/-- An `[a]` array cast to the column `[a, 1]` reads, at `(i, u)`, the operand at `i`. -/
theorem cast_col_apply {a : ℕ} (v : (⟨1, ![a]⟩ : Shape).Idx → α) (h : (⟨1, ![a]⟩ : Shape).ShapeCasts ⟨2, ![a, 1]⟩)
    (i : Fin a) (u : Fin 1) : shapeCast ⟨2, ![a, 1]⟩ v h (ix2 i u) = v (ix1 i) :=
  shapeCast_apply v h _ _ (by
    have hu : u.val = 0 := by omega
    rw [Shape.rowMajor_val_two, Shape.rowMajor_val_one]
    show i.val = i.val * 1 + u.val
    rw [hu, Nat.mul_one, Nat.add_zero])

/-- A per-pixel `[1, 128, 256]` array broadcast over the 32 classes reads, at `(c, r, w)`, the operand at `(0, r, w)`. -/
theorem bcast_pix_apply (v : S1x128x256.Idx → α) (h : S1x128x256.Broadcasts S32x128x256) (c : Fin 32) (r : Fin 128)
    (w : Fin 256) : broadcastTo S32x128x256 v h (ix3 c r w) = v (ix3 (0 : Fin 1) r w) := by
  refine broadcastTo_apply v h (ix3 c r w) (ix3 (0 : Fin 1) r w) fun a => ?_
  match a with
  | ⟨0, _⟩ => rfl
  | ⟨1, _⟩ => rfl
  | ⟨2, _⟩ => rfl

/-- A per-class `[32, 1, 1]` table broadcast over the pixels reads, at `(c, r, w)`, the table at `(c, 0, 0)`. -/
theorem bcast_cls_apply (v : S32x1x1.Idx → α) (h : S32x1x1.Broadcasts S32x128x256) (c : Fin 32) (r : Fin 128)
    (w : Fin 256) : broadcastTo S32x128x256 v h (ix3 c r w) = v (ix3 c (0 : Fin 1) (0 : Fin 1)) := by
  refine broadcastTo_apply v h (ix3 c r w) (ix3 c (0 : Fin 1) (0 : Fin 1)) fun a => ?_
  match a with
  | ⟨0, _⟩ => rfl
  | ⟨1, _⟩ => rfl
  | ⟨2, _⟩ => rfl

/-- Two `[1, 1]` pieces side by side: column 0 of the `[1, 2]` row is the first piece. -/
theorem cat_left (x₁ x₂ : S1x1.Idx → α) (h : Shape.Concatenates [S1x1, S1x1] S1x2 1) :
    concatenate S1x2 1 [⟨S1x1, x₁⟩, ⟨S1x1, x₂⟩] h (ix2 (0 : Fin 1) (0 : Fin 2)) = x₁ (ix2 (0 : Fin 1) (0 : Fin 1)) :=
  concatenate_pair_apply_left 1 x₁ x₂ h (ix2 (0 : Fin 1) (0 : Fin 2)) rfl (ix2 (0 : Fin 1) (0 : Fin 1)) (fun b => by
    match b with
    | ⟨0, _⟩ => rfl
    | ⟨1, _⟩ => rfl)

/-- … and column 1 is the second piece. -/
theorem cat_right (x₁ x₂ : S1x1.Idx → α) (h : Shape.Concatenates [S1x1, S1x1] S1x2 1) :
    concatenate S1x2 1 [⟨S1x1, x₁⟩, ⟨S1x1, x₂⟩] h (ix2 (0 : Fin 1) (1 : Fin 2)) = x₂ (ix2 (0 : Fin 1) (0 : Fin 1)) :=
  concatenate_pair_apply_right 1 x₁ x₂ h (ix2 (0 : Fin 1) (1 : Fin 2)) rfl rfl (ix2 (0 : Fin 1) (0 : Fin 1))
    (fun b hb => by
      match b with
      | ⟨0, _⟩ => rfl
      | ⟨1, _⟩ => exact absurd rfl hb)
    rfl

end Read

/-- The word of minus infinity is the bottom of the extended reals. -/
theorem ofBits_ninf_f32 : Ideal.ofBits .f32 0xFF800000#32 = (⊥ : EReal) := by simp [Ideal.ofBits, Ideal.ieee]

/-- The sum over the class axis of a `[32, 128, 256]` vector, at pixel `(r, w)`. -/
theorem sum_cls_apply (src : FVec Ideal S32x128x256 .f32) (h : S32x128x256.Reduces [0] S128x256) (hφ : FKind.Formats .f32)
    (hacc : (0x00000000#32 : BitVec 32) = FKind.add.neutral .f32 hφ) (r : Fin 128) (w : Fin 256) :
    multiReduction (F := Ideal) .add [0] S128x256 src 0x00000000#32 h hφ hacc (ix2 r w) = ∑ c : Fin 32, src (ix3 c r w) := by
  refine (Ideal.multiReduction_add_single src _ h hφ hacc (ix2 r w)).trans ?_
  refine Finset.sum_congr rfl fun c _ => congrArg src ?_
  funext a
  refine Fin.ext ?_
  match a with
  | ⟨0, _⟩ => rfl
  | ⟨1, _⟩ => rfl
  | ⟨2, _⟩ => rfl

/-- The largest entry along the class axis of a `[32, 128, 256]` vector, at pixel `(r, w)`: the fold of `max` from the bottom. -/
theorem max_cls_apply (src : FVec Ideal S32x128x256 .f32) (h : S32x128x256.Reduces [0] S128x256) (hφ : FKind.Formats .f32)
    (hacc : (0xFF800000#32 : BitVec 32) = FKind.maximumf.neutral .f32 hφ) (r : Fin 128) (w : Fin 256) :
    multiReduction (F := Ideal) .maximumf [0] S128x256 src 0xFF800000#32 h hφ hacc (ix2 r w)
      = (Finset.univ : Finset (Fin 32)).fold max (⊥ : EReal) (fun c => src (ix3 c r w)) := by
  refine (Ideal.multiReduction_maximumf_single src _ h hφ hacc (ix2 r w)).trans ?_
  have hf : (src ∘ h.lift (ix2 r w)) = fun c : Fin 32 => src (ix3 c r w) := by
    funext c
    refine congrArg src ?_
    funext a
    refine Fin.ext ?_
    match a with
    | ⟨0, _⟩ => rfl
    | ⟨1, _⟩ => rfl
    | ⟨2, _⟩ => rfl
  have hb : FloatOps.ofBits (F := Ideal) .f32 0xFF800000#32 = (⊥ : EReal) := ofBits_ninf_f32
  exact (congrArg (fun f : Fin 32 → EReal =>
      (Finset.univ : Finset (Fin 32)).fold max (FloatOps.ofBits (F := Ideal) .f32 0xFF800000#32) f) hf).trans
    (congrArg (fun b : EReal => (Finset.univ : Finset (Fin 32)).fold max b (fun c : Fin 32 => src (ix3 c r w))) hb)

/-- The sum along the lanes of a `[128, 256]` vector, at row `r`. -/
theorem sum_lane_apply (src : FVec Ideal S128x256 .f32) (h : S128x256.Reduces [1] S128) (hφ : FKind.Formats .f32)
    (hacc : (0x00000000#32 : BitVec 32) = FKind.add.neutral .f32 hφ) (r : Fin 128) :
    multiReduction (F := Ideal) .add [1] S128 src 0x00000000#32 h hφ hacc (ix1 r) = ∑ w : Fin 256, src (ix2 r w) := by
  refine (Ideal.multiReduction_add_single src _ h hφ hacc (ix1 r)).trans ?_
  refine Finset.sum_congr rfl fun w _ => congrArg src ?_
  funext a
  refine Fin.ext ?_
  match a with
  | ⟨0, _⟩ => rfl
  | ⟨1, _⟩ => rfl

/-- The sum down the rows of a `[128, 1]` column. -/
theorem sum_row_apply (src : FVec Ideal S128x1 .f32) (h : S128x1.Reduces [0] S1) (hφ : FKind.Formats .f32)
    (hacc : (0x00000000#32 : BitVec 32) = FKind.add.neutral .f32 hφ) (u : Fin 1) :
    multiReduction (F := Ideal) .add [0] S1 src 0x00000000#32 h hφ hacc (ix1 u) = ∑ r : Fin 128, src (ix2 r u) := by
  refine (Ideal.multiReduction_add_single src _ h hφ hacc (ix1 u)).trans ?_
  refine Finset.sum_congr rfl fun r _ => congrArg src ?_
  funext a
  refine Fin.ext ?_
  match a with
  | ⟨0, _⟩ => rfl
  | ⟨1, _⟩ => rfl

/-! ## The one-hot compare of the label with the class index -/

/-- An equality test on words is the bit 1 exactly when the words are equal. -/
theorem cmpi_eq_one (a b : BitVec 32) : IntOp.cmpi .eq a b = 1 ↔ a = b := by
  have h : ∀ c : Bool, BitVec.ofBool c = 1 ↔ c = true := fun c => by cases c <;> decide
  exact (h (a == b)).trans beq_iff_eq

/-- The compare at class `c` and pixel `(r, w)`: the pixel's label against the word of `c`. -/
theorem hot_apply (t : Vec Ideal S1x128x256 .i32) (c : Fin 32) (r : Fin 128) (w : Fin 256) :
    k1_pay3 (F := Ideal) t (ix3 c r w) = IntOp.cmpi .eq (t (ix3 (0 : Fin 1) r w) : BitVec 32) (BitVec.ofNat 32 c.val) := by
  have h1 : shapeCast S1x128x256 (shapeCast S128x256 t shapeCasts_S1x128x256_S128x256) shapeCasts_S128x256_S1x128x256 = t :=
    shapeCast_shapeCast t _ _
  have h2 : iota .tc S32x128x256 32 [0] iota_S32x128x256_d0_w32 (ix3 c r w) = BitVec.ofNat 32 c.val :=
    iota_single_apply .tc S32x128x256 32 0 _ (ix3 c r w)
  unfold k1_pay3
  refine congrArg₂ (IntOp.cmpi .eq) ?_ h2
  refine (bcast_pix_apply _ _ c r w).trans ?_
  exact congrFun h1 _

/-- A select on the compare keeps its first operand exactly where the pixel's label is the word of the class. -/
theorem hot_select {α : Type} (t : Vec Ideal S1x128x256 .i32) (c : Fin 32) (r : Fin 128) (w : Fin 256) (a b : α) :
    Scalar.select (k1_pay3 (F := Ideal) t (ix3 c r w)) a b
      = if (t (ix3 (0 : Fin 1) r w) : BitVec 32) = BitVec.ofNat 32 c.val then a else b := by
  refine (congrArg (fun q : BitVec 1 => Scalar.select q a b) (hot_apply t c r w)).trans ?_
  unfold Scalar.select
  exact if_congr (cmpi_eq_one _ _) rfl rfl

/-! ## The label's weight -/

/-- The weight vector at pixel `(r, w)`: the sum over the classes that keeps the table's entry of the pixel's label. -/
theorem pay4_apply (t : Vec Ideal S1x128x256 .i32) (iv : Vec Ideal S32x1x1 .f32) (r : Fin 128) (w : Fin 256) :
    k1_pay4 (F := Ideal) t iv (ix2 r w)
      = ∑ c : Fin 32, if (t (ix3 (0 : Fin 1) r w) : BitVec 32) = BitVec.ofNat 32 c.val
          then (iv (ix3 c (0 : Fin 1) (0 : Fin 1)) : EReal) else 0 := by
  unfold k1_pay4
  refine (congrFun (shapeCast_shapeCast _ _ _) (ix2 r w)).trans ?_
  refine (sum_cls_apply _ _ _ _ r w).trans ?_
  refine Finset.sum_congr rfl fun c _ => ?_
  refine (hot_select t c r w _ _).trans ?_
  refine if_congr Iff.rfl ?_ Ideal.ofBits_zero_f32
  refine (bcast_cls_apply _ _ c r w).trans ?_
  exact congrFun ((shapeCast_self _ _).trans (shapeCast_self _ _)) _

/-! ## The cross entropy of the block's pixels, stage by stage -/

/-- The logits' block without its unit axis. -/
def lg (x : Vec Ideal S1x32x128x256 .f32) : FVec Ideal S32x128x256 .f32 :=
  shapeCast S32x128x256 x shapeCasts_S1x32x128x256_S32x128x256

/-- Per pixel, the largest logit. -/
def mxv (x : Vec Ideal S1x32x128x256 .f32) : FVec Ideal S1x128x256 .f32 :=
  shapeCast S1x128x256
    (multiReduction (F := Ideal) .maximumf [0] S128x256 (lg x) 0xFF800000#32 reduces_S32x128x256_S128x256 (.inl rfl) rfl)
    shapeCasts_S128x256_S1x128x256

/-- Per pixel, the logarithm of the sum of the exponentials of the logits less the largest. -/
def lsev (x : Vec Ideal S1x32x128x256 .f32) : FVec Ideal S1x128x256 .f32 :=
  log (shapeCast S1x128x256
    (multiReduction (F := Ideal) .add [0] S128x256
      (exp (subf (lg x) (broadcastTo S32x128x256 (mxv x) broadcasts_S1x128x256_S32x128x256)))
      0x00000000#32 reduces_S32x128x256_S128x256 (.inl rfl) rfl)
    shapeCasts_S128x256_S1x128x256)

/-- Per pixel, the label's logit. -/
def pickv (x : Vec Ideal S1x32x128x256 .f32) (t : Vec Ideal S1x128x256 .i32) : FVec Ideal S1x128x256 .f32 :=
  shapeCast S1x128x256
    (multiReduction (F := Ideal) .add [0] S128x256
      (select (k1_pay3 (F := Ideal) t) (lg x) (broadcast S32x128x256 (Scalar.ofBits (F := Ideal) .f32 0x00000000#32)))
      0x00000000#32 reduces_S32x128x256_S128x256 (.inl rfl) rfl)
    shapeCasts_S128x256_S1x128x256

/-- Per pixel, the cross entropy: largest logit plus log-sum-exp less the label's logit. -/
def cev (x : Vec Ideal S1x32x128x256 .f32) (t : Vec Ideal S1x128x256 .i32) : FVec Ideal S128x256 .f32 :=
  shapeCast S128x256 (subf (addf (mxv x) (lsev x)) (pickv x t)) shapeCasts_S1x128x256_S128x256

/-- The column of the block's weighted row sums, over the stages above. -/
theorem pay5_eq (x : Vec Ideal S1x32x128x256 .f32) (t : Vec Ideal S1x128x256 .i32) (iv : Vec Ideal S32x1x1 .f32) :
    k1_pay5 (F := Ideal) x t iv
      = shapeCast S128x1
          (multiReduction (F := Ideal) .add [1] S128 (mulf (cev x t) (k1_pay4 (F := Ideal) t iv)) 0x00000000#32 reduces_S128x256_S128
            (.inl rfl) rfl)
          shapeCasts_S128_S128x1 := rfl

theorem lg_apply (x : Vec Ideal S1x32x128x256 .f32) (c : Fin 32) (r : Fin 128) (w : Fin 256) :
    lg x (ix3 c r w) = (x (ix4 (0 : Fin 1) c r w) : EReal) := by
  unfold lg
  exact shapeCast_1abc_abc_apply x _ c r w

theorem mxv_apply (x : Vec Ideal S1x32x128x256 .f32) (u : Fin 1) (r : Fin 128) (w : Fin 256) :
    mxv x (ix3 u r w) = (Finset.univ : Finset (Fin 32)).fold max (⊥ : EReal) (fun c => x (ix4 (0 : Fin 1) c r w)) := by
  unfold mxv
  refine (shapeCast_ab_1ab_apply _ _ u r w).trans ?_
  refine (max_cls_apply _ _ _ _ r w).trans ?_
  exact congrArg (fun f : Fin 32 → EReal => (Finset.univ : Finset (Fin 32)).fold max (⊥ : EReal) f)
    (funext fun c => lg_apply x c r w)

theorem lsev_apply (x : Vec Ideal S1x32x128x256 .f32) (u : Fin 1) (r : Fin 128) (w : Fin 256) :
    lsev x (ix3 u r w)
      = Ideal.log (∑ c : Fin 32, Ideal.exp ((x (ix4 (0 : Fin 1) c r w) : EReal)
          - (Finset.univ : Finset (Fin 32)).fold max (⊥ : EReal) (fun c' => x (ix4 (0 : Fin 1) c' r w)))) := by
  unfold lsev
  refine congrArg Ideal.log ?_
  refine (shapeCast_ab_1ab_apply _ _ u r w).trans ?_
  refine (sum_cls_apply _ _ _ _ r w).trans ?_
  refine Finset.sum_congr rfl fun c _ => ?_
  refine congrArg Ideal.exp ?_
  refine congrArg₂ (· - ·) (lg_apply x c r w) ?_
  exact (bcast_pix_apply _ _ c r w).trans (mxv_apply x 0 r w)

theorem pickv_apply (x : Vec Ideal S1x32x128x256 .f32) (t : Vec Ideal S1x128x256 .i32) (u : Fin 1) (r : Fin 128)
    (w : Fin 256) :
    pickv x t (ix3 u r w)
      = ∑ c : Fin 32, if (t (ix3 (0 : Fin 1) r w) : BitVec 32) = BitVec.ofNat 32 c.val
          then (x (ix4 (0 : Fin 1) c r w) : EReal) else 0 := by
  unfold pickv
  refine (shapeCast_ab_1ab_apply _ _ u r w).trans ?_
  refine (sum_cls_apply _ _ _ _ r w).trans ?_
  refine Finset.sum_congr rfl fun c _ => ?_
  refine (hot_select t c r w _ _).trans ?_
  exact if_congr Iff.rfl (lg_apply x c r w) Ideal.ofBits_zero_f32

/-- The block's column at row `r`: the lane sum of cross entropy times weight. -/
theorem pay5_apply (x : Vec Ideal S1x32x128x256 .f32) (t : Vec Ideal S1x128x256 .i32) (iv : Vec Ideal S32x1x1 .f32)
    (r : Fin 128) (u : Fin 1) :
    k1_pay5 (F := Ideal) x t iv (ix2 r u) = ∑ w : Fin 256, cev x t (ix2 r w) * k1_pay4 (F := Ideal) t iv (ix2 r w) := by
  refine (congrFun (pay5_eq x t iv) (ix2 r u)).trans ?_
  refine (cast_col_apply _ _ r u).trans ?_
  refine (sum_lane_apply _ _ _ _ r).trans ?_
  exact Finset.sum_congr rfl fun w _ => mulf_apply _ _ _

/-! ## The body's pair: prev plus the two totals at columns 0 and 1 -/

/-- Column 0 of the stored block: the running value plus the sum down the rows of the column operand. -/
theorem pay1_col0 (v34 : FVec Ideal S128x256 .f32) (v37 : FVec Ideal S128x1 .f32) (prev : Vec Ideal S1x1x2 .f32) :
    k1_pay1 (F := Ideal) v34 v37 prev (ix3 (0 : Fin 1) (0 : Fin 1) (0 : Fin 2))
      = (prev (ix3 (0 : Fin 1) (0 : Fin 1) (0 : Fin 2)) : EReal) + ∑ r : Fin 128, v37 (ix2 r (0 : Fin 1)) := by
  unfold k1_pay1
  refine (shapeCast_ab_1ab_apply _ _ (0 : Fin 1) (0 : Fin 1) (0 : Fin 2)).trans ?_
  refine (addf_apply _ _ _).trans ?_
  refine congrArg₂ (· + ·) (shapeCast_1ab_ab_apply _ _ (0 : Fin 1) (0 : Fin 2)) ?_
  refine (cat_left _ _ _).trans ?_
  refine (cast_col_apply _ _ (0 : Fin 1) (0 : Fin 1)).trans ?_
  exact sum_row_apply _ _ _ _ (0 : Fin 1)

/-- Column 1 of the stored block: the running value plus the sum over the rows of the lane sums of the weights. -/
theorem pay1_col1 (v34 : FVec Ideal S128x256 .f32) (v37 : FVec Ideal S128x1 .f32) (prev : Vec Ideal S1x1x2 .f32) :
    k1_pay1 (F := Ideal) v34 v37 prev (ix3 (0 : Fin 1) (0 : Fin 1) (1 : Fin 2))
      = (prev (ix3 (0 : Fin 1) (0 : Fin 1) (1 : Fin 2)) : EReal) + ∑ r : Fin 128, ∑ w : Fin 256, v34 (ix2 r w) := by
  unfold k1_pay1
  refine (shapeCast_ab_1ab_apply _ _ (0 : Fin 1) (0 : Fin 1) (1 : Fin 2)).trans ?_
  refine (addf_apply _ _ _).trans ?_
  refine congrArg₂ (· + ·) (shapeCast_1ab_ab_apply _ _ (0 : Fin 1) (1 : Fin 2)) ?_
  refine (cat_right _ _ _).trans ?_
  refine (cast_col_apply _ _ (0 : Fin 1) (0 : Fin 1)).trans ?_
  refine (sum_row_apply _ _ _ _ (0 : Fin 1)).trans ?_
  refine Finset.sum_congr rfl fun r _ => ?_
  refine (cast_col_apply _ _ r (0 : Fin 1)).trans ?_
  exact sum_lane_apply _ _ _ _ r

/-! ## The block's pixels are the arrays' pixels -/

section Block
variable (X : Cert.Wce.SX.Idx → EReal) (T : Cert.Wce.ST.Idx → BitVec 32) (n : Fin 16) (hb : Fin 2)
variable (x : Vec Ideal S1x32x128x256 .f32) (t : Vec Ideal S1x128x256 .i32) (iv : Vec Ideal S32x1x1 .f32)

/-- The weight vector at a pixel of the block is the pixel's weight from the table. -/
theorem pay4_wt
    (ht : ∀ (r : Fin 128) (w : Fin 256), t (ix3 (0 : Fin 1) r w) = T (ix3 n (Cert.Wce.hrow hb r) w))
    (r : Fin 128) (w : Fin 256) :
    k1_pay4 (F := Ideal) t iv (ix2 r w)
      = Cert.Wce.wtOf T (fun k => iv (ix3 k (0 : Fin 1) (0 : Fin 1))) n (Cert.Wce.hrow hb r) w := by
  rw [pay4_apply]
  unfold Cert.Wce.wtOf Cert.Wce.cls
  simp only [ht]

/-- The cross entropy vector at a pixel of the block is the pixel's cross entropy. -/
theorem cev_ce
    (hx : ∀ (c : Fin 32) (r : Fin 128) (w : Fin 256), x (ix4 (0 : Fin 1) c r w) = X (ix4 n c (Cert.Wce.hrow hb r) w))
    (ht : ∀ (r : Fin 128) (w : Fin 256), t (ix3 (0 : Fin 1) r w) = T (ix3 n (Cert.Wce.hrow hb r) w))
    (r : Fin 128) (w : Fin 256) :
    cev x t (ix2 r w) = Cert.Wce.ce X T n (Cert.Wce.hrow hb r) w := by
  unfold cev
  refine (shapeCast_1ab_ab_apply _ _ r w).trans ?_
  refine (subf_apply _ _ _).trans ?_
  rw [addf_apply, mxv_apply, lsev_apply, pickv_apply]
  unfold Cert.Wce.ce Cert.Wce.lse Cert.Wce.pick Cert.Wce.mx Cert.Wce.cls
  simp only [hx, ht]

end Block

variable (X : Cert.Wce.SX.Idx → EReal) (T : Cert.Wce.ST.Idx → BitVec 32) (n : Fin 16) (hb : Fin 2)
variable (x : Vec Ideal S1x32x128x256 .f32) (t : Vec Ideal S1x128x256 .i32) (iv : Vec Ideal S32x1x1 .f32)
variable (prev : Vec Ideal S1x1x2 .f32)

/-- The reset's block is zero everywhere. -/
theorem pay2_zero (j : S1x1x2.Idx) : k1_pay2 (F := Ideal) j = 0 := by
  unfold k1_pay2
  show Ideal.ofBits .f32 0x00000000#32 = 0
  exact Ideal.ofBits_zero_f32

/-- Column 0 after the body: the running value plus the block's weighted sum of cross entropies. -/
theorem pay1_num
    (hx : ∀ (c : Fin 32) (r : Fin 128) (w : Fin 256), x (ix4 (0 : Fin 1) c r w) = X (ix4 n c (Cert.Wce.hrow hb r) w))
    (ht : ∀ (r : Fin 128) (w : Fin 256), t (ix3 (0 : Fin 1) r w) = T (ix3 n (Cert.Wce.hrow hb r) w)) :
    k1_pay1 (F := Ideal) (k1_pay4 t iv) (k1_pay5 x t iv) prev (ix3 (0 : Fin 1) (0 : Fin 1) (0 : Fin 2))
      = prev (ix3 (0 : Fin 1) (0 : Fin 1) (0 : Fin 2))
        + Cert.Wce.blkNum X T (fun k => iv (ix3 k (0 : Fin 1) (0 : Fin 1))) n hb := by
  refine (pay1_col0 _ _ prev).trans ?_
  refine congrArg (fun s : EReal => (prev (ix3 (0 : Fin 1) (0 : Fin 1) (0 : Fin 2)) : EReal) + s) ?_
  unfold Cert.Wce.blkNum
  refine Finset.sum_congr rfl fun r _ => ?_
  refine (pay5_apply x t iv r (0 : Fin 1)).trans ?_
  refine Finset.sum_congr rfl fun w _ => ?_
  exact congrArg₂ (· * ·) (cev_ce X T n hb x t hx ht r w) (pay4_wt T n hb t iv ht r w)

/-- Column 1 after the body: the running value plus the block's sum of weights. -/
theorem pay1_den
    (ht : ∀ (r : Fin 128) (w : Fin 256), t (ix3 (0 : Fin 1) r w) = T (ix3 n (Cert.Wce.hrow hb r) w)) :
    k1_pay1 (F := Ideal) (k1_pay4 t iv) (k1_pay5 x t iv) prev (ix3 (0 : Fin 1) (0 : Fin 1) (1 : Fin 2))
      = prev (ix3 (0 : Fin 1) (0 : Fin 1) (1 : Fin 2))
        + Cert.Wce.blkDen T (fun k => iv (ix3 k (0 : Fin 1) (0 : Fin 1))) n hb := by
  refine (pay1_col1 _ _ prev).trans ?_
  refine congrArg (fun s : EReal => (prev (ix3 (0 : Fin 1) (0 : Fin 1) (1 : Fin 2)) : EReal) + s) ?_
  unfold Cert.Wce.blkDen
  refine Finset.sum_congr rfl fun r _ => ?_
  refine Finset.sum_congr rfl fun w _ => ?_
  exact pay4_wt T n hb t iv ht r w

end Cert.KernelIdeal.Pay1

end
-- ==== Proof.Region1.lean ====
/-
  The second region's value. Point (n, hb) reads the [32, 1, 1] table of per-class weights, the logits' block
  [1, 32, 128, 256] and the labels' block [1, 128, 256], and adds to batch entry n's [1, 1, 2] block the pair
  (sum over the block's pixels of cross entropy times weight, sum of the weights); the block is zeroed at
  hb = 0. So entry (n, 0, 0) of the result array ends at the weighted sum over entry n's two blocks accumulated
  from zero, and (n, 0, 1) at the sum of the weights.

  The steps: what each of the two control cases leaves in the [1, 1, 2] block, as the body's arithmetic of the
  blocks it loads (at hb = 0 over the zero block, at hb = 1 over what the point before left); the blocks read
  where the grid point says (the logits' block at (n, ·, 128 hb + r, ·), the labels' at (n, 128 hb + r, ·), the
  table whole); so after point 2 n the block holds 0 + (block 0's pair) and after point 2 n + 1 that plus block
  1's pair; point 2 n + 1 writes the block to rows (n, 0, ·) of the result array, and these rows tile it.
-/
import proofs.«408105_j28698971472547_3_alg».proof.Proof.Gen.KernelIdeal.Frame
import proofs.«408105_j28698971472547_3_alg».proof.Proof.Spec
import proofs.«408105_j28698971472547_3_alg».proof.Proof.Region1Pay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val1

open Cert.KernelIdeal Cert.KernelIdeal.Gen Idealize.ShloMosaic Idealize.ShloMosaic.TcCoe Idealize.SL.Sem
open Idealize.ShloMosaic.ValueIdx
open Idealize.ShloMosaic.Pipeline (Dat)

/-! ## What each control case leaves in the pair's block -/

section Pieces

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- At hb = 1 the body leaves, in the block holding `xo`, `xo` plus the pair computed from the table `x0`, the logits'
    block `x1` and the labels' block `x2`: its one store covers the block and its loads read whole blocks. -/
theorem out_B (c : Dev nD) (i : grid1.Coords) (a2 : Memref sig .tc .vmem S32x1x1 .f32) (h2 : a2.IsWhole)
    (a3 : Memref sig .tc .vmem S1x32x128x256 .f32) (h3 : a3.IsWhole) (a4 : Memref sig .tc .vmem S1x128x256 .i32) (h4 : a4.IsWhole)
    (a5 : Memref sig .tc .vmem S1x1x2 .f32) (h5 : a5.IsWhole) (hc : ¬cond1_0 i)
    (x0 : Vec F S32x1x1 .f32) (x1 : Vec F S1x32x128x256 .f32) (x2 : Vec F S1x128x256 .i32) (xo : Vec F S1x1x2 .f32) :
    out1_B_3 c i a2 h2 a3 h3 a4 h4 a5 h5 hc x0 x1 x2 xo = k1_pay1 (k1_pay4 x2 x0) (k1_pay5 x1 x2 x0) xo := by
  unfold out1_B_3
  rw [View.read_writes_eq_canon _ _ _ (cover1_B_3 c i a2 h2 a3 h3 a4 h4 a5 h5 hc x0 x1 x2 xo)]
  unfold kernelRun1_B
  dsimp only
  sl_unfold_words
  rw [View.canon_unit_zero hz3]
  simp only [View.readAt_eq_ld, h2.read_unread, h3.read_unread, h4.read_unread, h5.read_unread,
    View.ld_unit_zero (S := S32x1x1) hz3, View.ld_unit_zero (S := S1x32x128x256) hz4,
    View.ld_unit_zero (S := S1x128x256) hz3, View.ld_unit_zero (S := S1x1x2) hz3]

/-- At hb = 0 the body first stores the zero block, reads it back, and leaves it plus the pair. -/
theorem out_A (c : Dev nD) (i : grid1.Coords) (a2 : Memref sig .tc .vmem S32x1x1 .f32) (h2 : a2.IsWhole)
    (a3 : Memref sig .tc .vmem S1x32x128x256 .f32) (h3 : a3.IsWhole) (a4 : Memref sig .tc .vmem S1x128x256 .i32) (h4 : a4.IsWhole)
    (a5 : Memref sig .tc .vmem S1x1x2 .f32) (h5 : a5.IsWhole) (hc : cond1_0 i)
    (x0 : Vec F S32x1x1 .f32) (x1 : Vec F S1x32x128x256 .f32) (x2 : Vec F S1x128x256 .i32) :
    out1_A_3 c i a2 h2 a3 h3 a4 h4 a5 h5 hc x0 x1 x2 = k1_pay1 (k1_pay4 x2 x0) (k1_pay5 x1 x2 x0) (k1_pay2 (F := F)) := by
  unfold out1_A_3
  rw [View.read_writes_eq_canon _ _ _ (cover1_A_3 c i a2 h2 a3 h3 a4 h4 a5 h5 hc x0 x1 x2)]
  unfold kernelRun1_A
  dsimp only
  sl_unfold_words
  rw [View.canon_cons_unit_zero (S := S1x1x2) hz3, View.readCov_unit_zero (S := S1x1x2) _ hz3]
  simp only [View.readAt_eq_ld, h2.read_unread, h3.read_unread, h4.read_unread,
    View.ld_unit_zero (S := S32x1x1) hz3, View.ld_unit_zero (S := S1x32x128x256) hz4,
    View.ld_unit_zero (S := S1x128x256) hz3]

end Pieces

variable (V : (c : Dev nD) → (b : Ref sig .tc) → Buf (Elt Ideal) ((c : Thread nD τ).loc b))

/-- The per-class weights the region reads, as a table over the classes. -/
abbrev ivOf (c : Dev nD) : Fin 32 → EReal := fun k => V c main_v2 (ix3 k (0 : Fin 1) (0 : Fin 1))

/-- The pairs array the region leaves. -/
abbrev outRes (c : Dev nD) : Buf (Elt Ideal) ((c : Thread nD τ).loc main_v3) :=
  fun i => if (i 2).val = 0
    then Cert.Wce.rowNum (V c main_arg0) (V c main_arg1) (ivOf V c) ⟨(i 0).val, (i 0).isLt⟩
    else Cert.Wce.rowDen (V c main_arg1) (ivOf V c) ⟨(i 0).val, (i 0).isLt⟩

/-! ## The blocks a point reads -/

/-- The table's, the logits' and the labels' block at point `t`. -/
abbrev ivB (c : Dev nD) (t : Fin cfg1.N) : Vec Ideal S32x1x1 .f32 := iblk1 V c 0 t
abbrev xB (c : Dev nD) (t : Fin cfg1.N) : Vec Ideal S1x32x128x256 .f32 := iblk1 V c 1 t
abbrev tB (c : Dev nD) (t : Fin cfg1.N) : Vec Ideal S1x128x256 .i32 := iblk1 V c 2 t

/-- The block indices over the grid: point `t` is batch entry `t / 2`, block of rows `t % 2`; the table's index
    never moves; the pair's block is batch entry `t / 2`'s. -/
theorem idx_facts : ∀ t : Fin cfg1.N,
    win1_0.index t (0 : Fin 3) = 0 ∧ win1_0.index t (1 : Fin 3) = 0 ∧ win1_0.index t (2 : Fin 3) = 0
    ∧ win1_1.index t (0 : Fin 4) = t.val / 2 ∧ win1_1.index t (1 : Fin 4) = 0
    ∧ win1_1.index t (2 : Fin 4) = t.val % 2 ∧ win1_1.index t (3 : Fin 4) = 0
    ∧ win1_2.index t (0 : Fin 3) = t.val / 2 ∧ win1_2.index t (1 : Fin 3) = t.val % 2 ∧ win1_2.index t (2 : Fin 3) = 0
    ∧ win1_3.index t (0 : Fin 3) = t.val / 2 ∧ win1_3.index t (1 : Fin 3) = 0 ∧ win1_3.index t (2 : Fin 3) = 0 :=
  (by decide +kernel : ∀ t : Fin grid1.N, _)

/-- The table's block is the table. -/
theorem ivB_apply (c : Dev nD) (t : Fin cfg1.N) (k : Fin 32) :
    ivB V c t (ix3 k (0 : Fin 1) (0 : Fin 1)) = V c main_v2 (ix3 k (0 : Fin 1) (0 : Fin 1)) := by
  obtain ⟨e0, e1, e2, -⟩ := idx_facts t
  show iblk1 V c 0 t (ix3 k (0 : Fin 1) (0 : Fin 1)) = _
  unfold iblk1
  rw [View.read_apply]
  show V c main_v2 _ = V c main_v2 _
  congr 1
  funext a
  apply Fin.ext
  match a with
  | ⟨0, _⟩ => show win1_0.index t (0 : Fin 3) * 32 + 1 * k.val = k.val; rw [e0]; omega
  | ⟨1, _⟩ => show win1_0.index t (1 : Fin 3) * 1 + 1 * 0 = 0; rw [e1]
  | ⟨2, _⟩ => show win1_0.index t (2 : Fin 3) * 1 + 1 * 0 = 0; rw [e2]

theorem ivB_fun (c : Dev nD) (t : Fin cfg1.N) :
    (fun k : Fin 32 => ivB V c t (ix3 k (0 : Fin 1) (0 : Fin 1))) = ivOf V c :=
  funext fun k => ivB_apply V c t k

/-- The logits' block at point `t` is rows `128 hb + r` of batch entry `n`, for `n = t / 2` and `hb = t % 2`. -/
theorem xB_apply (c : Dev nD) (t : Fin cfg1.N) (k : Fin 32) (r : Fin 128) (w : Fin 256) (n : Fin 16) (hb : Fin 2)
    (hn : n.val = t.val / 2) (hh : hb.val = t.val % 2) :
    xB V c t (ix4 (0 : Fin 1) k r w) = V c main_arg0 (ix4 n k (Cert.Wce.hrow hb r) w) := by
  obtain ⟨-, -, -, e0, e1, e2, e3, -⟩ := idx_facts t
  show iblk1 V c 1 t (ix4 (0 : Fin 1) k r w) = _
  unfold iblk1
  rw [View.read_apply]
  show V c main_arg0 _ = V c main_arg0 _
  congr 1
  funext a
  apply Fin.ext
  match a with
  | ⟨0, _⟩ => show win1_1.index t (0 : Fin 4) * 1 + 1 * 0 = n.val; rw [e0, hn]; omega
  | ⟨1, _⟩ => show win1_1.index t (1 : Fin 4) * 32 + 1 * k.val = k.val; rw [e1]; omega
  | ⟨2, _⟩ => show win1_1.index t (2 : Fin 4) * 128 + 1 * r.val = 128 * hb.val + r.val; rw [e2, hh]; omega
  | ⟨3, _⟩ => show win1_1.index t (3 : Fin 4) * 256 + 1 * w.val = w.val; rw [e3]; omega

/-- The labels' block likewise. -/
theorem tB_apply (c : Dev nD) (t : Fin cfg1.N) (r : Fin 128) (w : Fin 256) (n : Fin 16) (hb : Fin 2)
    (hn : n.val = t.val / 2) (hh : hb.val = t.val % 2) :
    tB V c t (ix3 (0 : Fin 1) r w) = V c main_arg1 (ix3 n (Cert.Wce.hrow hb r) w) := by
  obtain ⟨-, -, -, -, -, -, -, e0, e1, e2, -⟩ := idx_facts t
  show iblk1 V c 2 t (ix3 (0 : Fin 1) r w) = _
  unfold iblk1
  rw [View.read_apply]
  show V c main_arg1 _ = V c main_arg1 _
  congr 1
  funext a
  apply Fin.ext
  match a with
  | ⟨0, _⟩ => show win1_2.index t (0 : Fin 3) * 1 + 1 * 0 = n.val; rw [e0, hn]; omega
  | ⟨1, _⟩ => show win1_2.index t (1 : Fin 3) * 128 + 1 * r.val = 128 * hb.val + r.val; rw [e1, hh]; omega
  | ⟨2, _⟩ => show win1_2.index t (2 : Fin 3) * 256 + 1 * w.val = w.val; rw [e2]; omega

/-! ## What the pair's block holds after each point -/

/-- After a point with hb = 0: the body's pair of the point's blocks over the zero block. -/
theorem outsA_eq (c : Dev nD) (t : Fin cfg1.N) (h0 : t.val % 2 = 0) :
    outsAt1 V c t.val t.isLt
      = k1_pay1 (F := Ideal) (k1_pay4 (tB V c t) (ivB V c t)) (k1_pay5 (xB V c t) (tB V c t) (ivB V c t)) (k1_pay2 (F := Ideal)) :=
  (outsAt1_A V c t h0).trans
    (out_A (F := Ideal) c (grid1.coords t) (ms1_0 t) (hs1_0 t) (ms1_1 t) (hs1_1 t) (ms1_2 t) (hs1_2 t) (ms1_3 t) (hs1_3 t)
      ((hcond1_0 t).mpr h0) (ivB V c t) (xB V c t) (tB V c t))

/-- After a point with hb = 1: the body's pair of the point's blocks over what the point before left. -/
theorem outsB_eq (c : Dev nD) (t : Fin cfg1.N) (h0 : ¬t.val % 2 = 0) :
    outsAt1 V c t.val t.isLt
      = k1_pay1 (F := Ideal) (k1_pay4 (tB V c t) (ivB V c t)) (k1_pay5 (xB V c t) (tB V c t) (ivB V c t))
          (outsAt1 V c (t.val - 1) (Nat.lt_of_le_of_lt (Nat.sub_le _ _) t.isLt)) :=
  (outsAt1_B V c t h0).trans
    (out_B (F := Ideal) c (grid1.coords t) (ms1_0 t) (hs1_0 t) (ms1_1 t) (hs1_1 t) (ms1_2 t) (hs1_2 t) (ms1_3 t) (hs1_3 t)
      (fun h => h0 ((hcond1_0 t).mp h)) (ivB V c t) (xB V c t) (tB V c t)
      (outsAt1 V c (t.val - 1) (Nat.lt_of_le_of_lt (Nat.sub_le _ _) t.isLt)))

/-- Column 0 after point `2 n`: zero plus block 0's weighted sum. -/
theorem numA (c : Dev nD) (t : Fin cfg1.N) (h0 : t.val % 2 = 0) (n : Fin 16) (hn : n.val = t.val / 2) :
    outsAt1 V c t.val t.isLt (ix3 (0 : Fin 1) (0 : Fin 1) (0 : Fin 2))
      = 0 + Cert.Wce.blkNum (V c main_arg0) (V c main_arg1) (ivOf V c) n 0 := by
  rw [outsA_eq V c t h0]
  refine (Pay1.pay1_num (V c main_arg0) (V c main_arg1) n (0 : Fin 2) (xB V c t) (tB V c t) (ivB V c t) (k1_pay2 (F := Ideal))
    (fun k r w => xB_apply V c t k r w n 0 hn ((show ((0 : Fin 2) : ℕ) = 0 from rfl).trans h0.symm))
    (fun r w => tB_apply V c t r w n 0 hn ((show ((0 : Fin 2) : ℕ) = 0 from rfl).trans h0.symm))).trans ?_
  rw [Pay1.pay2_zero, ivB_fun V c t]

/-- Column 1 after point `2 n`: zero plus block 0's sum of weights. -/
theorem denA (c : Dev nD) (t : Fin cfg1.N) (h0 : t.val % 2 = 0) (n : Fin 16) (hn : n.val = t.val / 2) :
    outsAt1 V c t.val t.isLt (ix3 (0 : Fin 1) (0 : Fin 1) (1 : Fin 2))
      = 0 + Cert.Wce.blkDen (V c main_arg1) (ivOf V c) n 0 := by
  rw [outsA_eq V c t h0]
  refine (Pay1.pay1_den (V c main_arg1) n (0 : Fin 2) (xB V c t) (tB V c t) (ivB V c t) (k1_pay2 (F := Ideal))
    (fun r w => tB_apply V c t r w n 0 hn ((show ((0 : Fin 2) : ℕ) = 0 from rfl).trans h0.symm))).trans ?_
  rw [Pay1.pay2_zero, ivB_fun V c t]

/-- Column 0 after point `2 n + 1`: batch entry `n`'s weighted sum, its two blocks accumulated from zero in order. -/
theorem numB (c : Dev nD) (t : Fin cfg1.N) (h1 : t.val % 2 = 1) (n : Fin 16) (hn : n.val = t.val / 2) :
    outsAt1 V c t.val t.isLt (ix3 (0 : Fin 1) (0 : Fin 1) (0 : Fin 2))
      = Cert.Wce.rowNum (V c main_arg0) (V c main_arg1) (ivOf V c) n := by
  have hlt : t.val - 1 < cfg1.N := Nat.lt_of_le_of_lt (Nat.sub_le _ _) t.isLt
  have hA := numA V c ⟨t.val - 1, hlt⟩ (by show (t.val - 1) % 2 = 0; omega) n (by show n.val = (t.val - 1) / 2; omega)
  rw [outsB_eq V c t (by omega)]
  refine (Pay1.pay1_num (V c main_arg0) (V c main_arg1) n (1 : Fin 2) (xB V c t) (tB V c t) (ivB V c t)
    (outsAt1 V c (t.val - 1) (Nat.lt_of_le_of_lt (Nat.sub_le _ _) t.isLt))
    (fun k r w => xB_apply V c t k r w n 1 hn ((show ((1 : Fin 2) : ℕ) = 1 from rfl).trans h1.symm))
    (fun r w => tB_apply V c t r w n 1 hn ((show ((1 : Fin 2) : ℕ) = 1 from rfl).trans h1.symm))).trans ?_
  rw [ivB_fun V c t]
  exact congrArg (· + Cert.Wce.blkNum (V c main_arg0) (V c main_arg1) (ivOf V c) n 1) hA

/-- Column 1 after point `2 n + 1`: batch entry `n`'s sum of weights. -/
theorem denB (c : Dev nD) (t : Fin cfg1.N) (h1 : t.val % 2 = 1) (n : Fin 16) (hn : n.val = t.val / 2) :
    outsAt1 V c t.val t.isLt (ix3 (0 : Fin 1) (0 : Fin 1) (1 : Fin 2))
      = Cert.Wce.rowDen (V c main_arg1) (ivOf V c) n := by
  have hlt : t.val - 1 < cfg1.N := Nat.lt_of_le_of_lt (Nat.sub_le _ _) t.isLt
  have hA := denA V c ⟨t.val - 1, hlt⟩ (by show (t.val - 1) % 2 = 0; omega) n (by show n.val = (t.val - 1) / 2; omega)
  rw [outsB_eq V c t (by omega)]
  refine (Pay1.pay1_den (V c main_arg1) n (1 : Fin 2) (xB V c t) (tB V c t) (ivB V c t)
    (outsAt1 V c (t.val - 1) (Nat.lt_of_le_of_lt (Nat.sub_le _ _) t.isLt))
    (fun r w => tB_apply V c t r w n 1 hn ((show ((1 : Fin 2) : ℕ) = 1 from rfl).trans h1.symm))).trans ?_
  rw [ivB_fun V c t]
  exact congrArg (· + Cert.Wce.blkDen (V c main_arg1) (ivOf V c) n 1) hA

/-- The whole block after point `2 n + 1`: batch entry `n`'s pair. -/
theorem outsB_all (c : Dev nD) (t : Fin cfg1.N) (h1 : t.val % 2 = 1) (n : Fin 16) (hn : n.val = t.val / 2) (i : S1x1x2.Idx) :
    outsAt1 V c t.val t.isLt i
      = if (i 2).val = 0 then Cert.Wce.rowNum (V c main_arg0) (V c main_arg1) (ivOf V c) n
        else Cert.Wce.rowDen (V c main_arg1) (ivOf V c) n := by
  obtain ⟨a, b, j, rfl⟩ : ∃ (a : Fin 1) (b : Fin 1) (j : Fin 2), i = ix3 a b j := ⟨i 0, i 1, i 2, eq_ix3 i⟩
  obtain rfl : a = 0 := Fin.eq_zero a
  obtain rfl : b = 0 := Fin.eq_zero b
  match j with
  | ⟨0, _⟩ => exact (numB V c t h1 n hn).trans (if_pos rfl).symm
  | ⟨1, _⟩ => exact (denB V c t h1 n hn).trans (if_neg (show ¬(1 : ℕ) = 0 from Nat.one_ne_zero)).symm

/-! ## The write-backs and the result array -/

/-- The pairs array at an index of batch entry `n`. -/
theorem outRes_at (c : Dev nD) (i : S16x1x2.Idx) (n : Fin 16) (hn : (i 0).val = n.val) :
    outRes V c i = if (i 2).val = 0 then Cert.Wce.rowNum (V c main_arg0) (V c main_arg1) (ivOf V c) n
      else Cert.Wce.rowDen (V c main_arg1) (ivOf V c) n := by
  have e : (⟨(i 0).val, (i 0).isLt⟩ : Fin 16) = n := Fin.ext hn
  show (if (i 2).val = 0 then Cert.Wce.rowNum (V c main_arg0) (V c main_arg1) (ivOf V c) ⟨(i 0).val, (i 0).isLt⟩
    else Cert.Wce.rowDen (V c main_arg1) (ivOf V c) ⟨(i 0).val, (i 0).isLt⟩) = _
  rw [e]

/-- Point `2 n + 1` writes back rows (n, 0, ·) of the pairs array. -/
theorem flushed_eq (c : Dev nD) (t : Fin cfg1.N) (hf : (cfg1.win 3).flush t = true) :
    (dat1 (F := Ideal) V c).flushed 3 t = ((cfg1.win 3).blk t).view.read (Elt Ideal) (outRes V c) := by
  have h1 : t.val % 2 = 1 := (flush1_3 t).mp hf
  have hN : t.val < 32 := lt_of_lt_of_eq t.isLt (show cfg1.N = 32 from N_1)
  obtain ⟨-, -, -, -, -, -, -, -, -, -, e0, e1, e2⟩ := idx_facts t
  show (cfg1.win 3).cut (grid1.coords t) ((dat1 V c).after 3 t) = _
  rw [after1_3]
  funext y
  refine (outsB_all V c t h1 ⟨t.val / 2, by omega⟩ rfl _).trans ?_
  rw [View.read_apply]
  show _ = outRes V c (((cfg1.win 3).blk t).view.emb y)
  have hy0 : (y 0).val < 1 := (y 0).isLt
  have q0 : ((((cfg1.win 3).blk t).view.emb y) 0).val = t.val / 2 := by
    show win1_3.index t (0 : Fin 3) * 1 + 1 * (y 0).val = t.val / 2; rw [e0]; omega
  have q2 : ((((cfg1.win 3).blk t).view.emb y) 2).val = (y 2).val := by
    show win1_3.index t (2 : Fin 3) * 2 + 1 * (y 2).val = (y 2).val; rw [e2]; omega
  rw [outRes_at V c _ ⟨t.val / 2, by omega⟩ q0]
  exact (if_congr (Iff.of_eq (congrArg (· = 0) q2)) rfl rfl).symm

/-- An index of the pairs array is in point `t`'s block iff each coordinate is in the block's range on its axis. -/
theorem mem_blk3 (t : Fin cfg1.N) (i : S16x1x2.Idx) :
    i ∈ ((cfg1.win 3).blk t).view.set ↔ ∀ a : Fin 3, win1_3.index t a * S1x1x2.size a ≤ (i a).val
      ∧ (i a).val < win1_3.index t a * S1x1x2.size a + S1x1x2.size a := by
  show i ∈ ((View.whole main_v3).slice (win1_3.rect t)).set ↔ _
  rw [View.set_slice_whole, Rect.mem_set_unit]
  exact Iff.rfl

/-- Rows (n, 0, ·) are in the block point `2 n + 1` writes back. -/
theorem cover3 (i : S16x1x2.Idx) :
    ∃ t : Fin cfg1.N, (cfg1.win 3).flush t = true ∧ i ∈ ((cfg1.win 3).blk t).view.set := by
  have hi0 : (i 0).val < 16 := (i 0).isLt
  have hi1 : (i 1).val < 1 := (i 1).isLt
  have hi2 : (i 2).val < 2 := (i 2).isLt
  have hlt : 2 * (i 0).val + 1 < cfg1.N := by rw [show cfg1.N = 32 from N_1]; omega
  refine ⟨⟨2 * (i 0).val + 1, hlt⟩, (flush1_3 _).mpr (by show (2 * (i 0).val + 1) % 2 = 1; omega), ?_⟩
  obtain ⟨-, -, -, -, -, -, -, -, -, -, e0, e1, e2⟩ := idx_facts ⟨2 * (i 0).val + 1, hlt⟩
  rw [mem_blk3]
  intro a
  match a with
  | ⟨0, _⟩ =>
    show win1_3.index ⟨2 * (i 0).val + 1, hlt⟩ (0 : Fin 3) * 1 ≤ (i 0).val
      ∧ (i 0).val < win1_3.index ⟨2 * (i 0).val + 1, hlt⟩ (0 : Fin 3) * 1 + 1
    rw [e0]; show (2 * (i 0).val + 1) / 2 * 1 ≤ (i 0).val ∧ (i 0).val < (2 * (i 0).val + 1) / 2 * 1 + 1; omega
  | ⟨1, _⟩ =>
    show win1_3.index ⟨2 * (i 0).val + 1, hlt⟩ (1 : Fin 3) * 1 ≤ (i 1).val
      ∧ (i 1).val < win1_3.index ⟨2 * (i 0).val + 1, hlt⟩ (1 : Fin 3) * 1 + 1
    rw [e1]; omega
  | ⟨2, _⟩ =>
    show win1_3.index ⟨2 * (i 0).val + 1, hlt⟩ (2 : Fin 3) * 2 ≤ (i 2).val
      ∧ (i 2).val < win1_3.index ⟨2 * (i 0).val + 1, hlt⟩ (2 : Fin 3) * 2 + 2
    rw [e2]; omega

/-- After the region its result array holds each batch entry's pair. -/
theorem out_final (c : Dev nD) : (dat1 (F := Ideal) V c).arrAt 3 cfg1.N = outRes V c :=
  (dat1 (F := Ideal) V c).arrAt_eq_of_cover 3 (outRes V c) (flushed_eq V c) fun i => cover3 i

end Cert.KernelIdeal.Val1

end
-- ==== Proof.Glue.lean ====
/-
  The two-region program's result as one function of the launch arrays. Region 0 leaves the counts gathered point
  by point; the host stretch after it divides one by each count; region 1, entered with that table and with the
  logits and labels as launched, leaves each batch entry's pair; the last host stretch takes column 0 and column 1
  of the pairs, sums each over the 16 batch entries from zero, and divides the first total by the second.
-/
import proofs.«408105_j28698971472547_3_alg».proof.Proof.Region0
import proofs.«408105_j28698971472547_3_alg».proof.Proof.Region1
import Idealize.ShloMosaic.Lib.IdealHost
import Idealize.ShloMosaic.Lib.StableHlo.Run

set_option maxRecDepth 16384

noncomputable section

namespace Cert.KernelIdeal.Glue

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg)

/-- The logits and the labels as launched. -/
abbrev Xof (c : Dev nD) : Cert.Wce.SX.Idx → EReal := m ((c : Thread nD τ).loc main_arg0)
abbrev Tof (c : Dev nD) : Cert.Wce.ST.Idx → BitVec 32 := m ((c : Thread nD τ).loc main_arg1)

/-- Region 0 leaves the counts in its result array. -/
theorem W1_v0 (c : Dev nD) : W1 m ρ c (Proc.devRef .tc main_v0) = Val0.countsRes (V0 m ρ) c :=
  (W1_arr m ρ c 1).trans (Val0.counts_final (V0 m ρ) c)

/-- The host stretch between the regions: the table of reciprocals. -/
theorem W2_v2 (c : Dev nD) : W2 m ρ c (Proc.devRef .tc main_v2)
    = Host.divf (broadcastInDim S32x1x1 ![] bcast_S_S32x1x1 (constant (F := Ideal) S_ .f32 0x3F800000#32))
        (W1 m ρ c (Proc.devRef .tc main_v0)) := by
  show StableHlo.after hostOps1 (W1 m ρ c) (Proc.devRef .tc main_v2) = _
  after_results

/-- Region 1 is entered with the logits and the labels as launched: no host operation and no region wrote them. -/
theorem W2_arg0 (c : Dev nD) : W2 m ρ c (Proc.devRef .tc main_arg0) = m ((c : Thread nD τ).loc main_arg0) :=
  calc W2 m ρ c (Proc.devRef .tc main_arg0)
    _ = W1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := W1_of_ne m ρ c main_arg0 (by decide)
    _ = m ((c : Thread nD τ).loc main_arg0) := rfl
theorem W2_arg1 (c : Dev nD) : W2 m ρ c (Proc.devRef .tc main_arg1) = m ((c : Thread nD τ).loc main_arg1) :=
  calc W2 m ρ c (Proc.devRef .tc main_arg1)
    _ = W1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := (W1_arr m ρ c 0).trans (((dat0 (V0 m ρ) c).arrAt_in 0 rfl _).trans (A_eq0 (V0 m ρ) c 0))
    _ = m ((c : Thread nD τ).loc main_arg1) := rfl

/-- The table region 1 reads: one over the counts gathered point by point. -/
theorem iv_eq (c : Dev nD) (k : Fin 32) :
    Val1.ivOf (V2 m ρ) c k = Ideal.div 1 (Cert.Wce.cntRun (Tof m c) k 31) := by
  show W2 m ρ c (Proc.devRef .tc main_v2) (ix3 k (0 : Fin 1) (0 : Fin 1)) = _
  rw [W2_v2, hostDivf_apply, broadcastInDim_scalar_apply, W1_v0]
  show Ideal.div (Ideal.ofBits .f32 0x3F800000#32) _ = _
  rw [Ideal.ofBits_one_f32]

/-- Region 1 leaves each batch entry's pair in its result array. -/
theorem W3_v3 (c : Dev nD) : W3 m ρ c (Proc.devRef .tc main_v3) = Val1.outRes (V2 m ρ) c :=
  (W3_arr m ρ c 3).trans (Val1.out_final (V2 m ρ) c)

/-- The last host stretch: two columns, two totals from zero, the quotient. -/
theorem W4_v10 (c : Dev nD) : W4 m ρ c (Proc.devRef .tc main_v10)
    = Host.divf
        (Host.reduceAdd (shapeCast S16 (extractStridedSlice S16x1x1 ![0, 0, 0] (W3 m ρ c (Proc.devRef .tc main_v3)) slices_S16x1x2_S16x1x1_0_0_0) shapeCasts_S16x1x1_S16)
          (constant (F := Ideal) S_ .f32 0x00000000#32) reducesTo_S16_S_d0 h_S_)
        (Host.reduceAdd (shapeCast S16 (extractStridedSlice S16x1x1 ![0, 0, 1] (W3 m ρ c (Proc.devRef .tc main_v3)) slices_S16x1x2_S16x1x1_0_0_1) shapeCasts_S16x1x1_S16)
          (constant (F := Ideal) S_ .f32 0x00000000#32) reducesTo_S16_S_d0 h_S_) := by
  show StableHlo.after hostOps2 (W3 m ρ c) (Proc.devRef .tc main_v10) = _
  after_results; rfl

/-- Column 0 of the pairs, as a [16] array, read at batch entry `n`. -/
theorem col0_apply (o : Vec Ideal S16x1x2 .f32) (n : Fin 16) :
    shapeCast S16 (extractStridedSlice S16x1x1 ![0, 0, 0] o slices_S16x1x2_S16x1x1_0_0_0) shapeCasts_S16x1x1_S16 (ix1 n)
      = o (ix3 n (0 : Fin 1) (0 : Fin 2)) := by
  rw [shapeCast_apply _ shapeCasts_S16x1x1_S16 (ix1 n) (ix3 n (0 : Fin 1) (0 : Fin 1))
    (by rw [Shape.rowMajor_val_three, Shape.rowMajor_val_one]; simp)]
  exact extractStridedSlice_apply _ o slices_S16x1x2_S16x1x1_0_0_0 _ (ix3 n (0 : Fin 1) (0 : Fin 2)) (fun a => by
    match a with
    | ⟨0, _⟩ => exact (Nat.zero_add _).symm
    | ⟨1, _⟩ => rfl
    | ⟨2, _⟩ => rfl)

/-- Column 1 of the pairs, as a [16] array, read at batch entry `n`. -/
theorem col1_apply (o : Vec Ideal S16x1x2 .f32) (n : Fin 16) :
    shapeCast S16 (extractStridedSlice S16x1x1 ![0, 0, 1] o slices_S16x1x2_S16x1x1_0_0_1) shapeCasts_S16x1x1_S16 (ix1 n)
      = o (ix3 n (0 : Fin 1) (1 : Fin 2)) := by
  rw [shapeCast_apply _ shapeCasts_S16x1x1_S16 (ix1 n) (ix3 n (0 : Fin 1) (0 : Fin 1))
    (by rw [Shape.rowMajor_val_three, Shape.rowMajor_val_one]; simp)]
  exact extractStridedSlice_apply _ o slices_S16x1x2_S16x1x1_0_0_1 _ (ix3 n (0 : Fin 1) (1 : Fin 2)) (fun a => by
    match a with
    | ⟨0, _⟩ => exact (Nat.zero_add _).symm
    | ⟨1, _⟩ => rfl
    | ⟨2, _⟩ => rfl)

/-- A total over a [16] array from zero, as a sum over the batch entries. -/
theorem total_apply (y : FVec Ideal S16 .f32) (i : S_.Idx) :
    Host.reduceAdd y (constant (F := Ideal) S_ .f32 0x00000000#32) reducesTo_S16_S_d0 h_S_ i
      = 0 + ∑ n : Fin 16, y (ix1 n) := by
  rw [hostReduceAdd_apply, Ideal.hostReduceAdd_total reducesTo_S16_S_d0 (fun b => b.elim0)]
  have hz : (constant (F := Ideal) S_ .f32 0x00000000#32) (Shape.Idx.first h_S_) = 0 := Ideal.ofBits_zero_f32
  rw [hz]
  congr 1
  exact Fintype.sum_equiv ⟨fun j => j 0, fun n => ix1 n, fun j => (eq_ix1 j).symm, fun _ => rfl⟩ _ _
    (fun j => congrArg y (eq_ix1 j))

/-- The program's result is the loss assembled block by block and point by point. -/
theorem result_eq (c : Dev nD) :
    W4 m ρ c (Proc.devRef .tc main_v10) = fun _ => Cert.Wce.lossK (Xof m c) (Tof m c) := by
  funext i
  have hiv : Val1.ivOf (V2 m ρ) c = fun k => Ideal.div 1 (Cert.Wce.cntRun (Tof m c) k 31) := funext (iv_eq m ρ c)
  have hX : V2 m ρ c main_arg0 = Xof m c := W2_arg0 m ρ c
  have hT : V2 m ρ c main_arg1 = Tof m c := W2_arg1 m ρ c
  have h0 : ∀ n : Fin 16, W3 m ρ c (Proc.devRef .tc main_v3) (ix3 n (0 : Fin 1) (0 : Fin 2))
      = Cert.Wce.rowNum (Xof m c) (Tof m c) (fun k => Ideal.div 1 (Cert.Wce.cntRun (Tof m c) k 31)) n := fun n => by
    rw [W3_v3]
    refine (if_pos (show ((ix3 n (0 : Fin 1) (0 : Fin 2) : S16x1x2.Idx) 2).val = 0 from rfl)).trans ?_
    rw [hiv, hX, hT]
    first | rfl | skip
  have h1 : ∀ n : Fin 16, W3 m ρ c (Proc.devRef .tc main_v3) (ix3 n (0 : Fin 1) (1 : Fin 2))
      = Cert.Wce.rowDen (Tof m c) (fun k => Ideal.div 1 (Cert.Wce.cntRun (Tof m c) k 31)) n := fun n => by
    rw [W3_v3]
    refine (if_neg (show ¬((ix3 n (0 : Fin 1) (1 : Fin 2) : S16x1x2.Idx) 2).val = 0 from Nat.succ_ne_zero 0)).trans ?_
    rw [hiv, hT]
    first | rfl | skip
  rw [W4_v10, hostDivf_apply, total_apply, total_apply]
  unfold Cert.Wce.lossK
  rw [Finset.sum_congr rfl (fun n _ => (col0_apply _ n).trans (h0 n)),
    Finset.sum_congr rfl (fun n _ => (col1_apply _ n).trans (h1 n))]

end Cert.KernelIdeal.Glue

end
-- ==== Proof.Algebra.lean ====
/-
  Facts about the weighted cross entropy that mention no program: a label in range is its class's word, so the
  sums over the classes that keep one term are that term; for real logits the two ways of writing the cross
  entropy agree; the counts gathered one grid point at a time are the counts; the loss assembled block by block
  and point by point, and the loss written over all pixels at once, are the loss.
-/
import proofs.«408105_j28698971472547_3_alg».proof.Proof.Spec

noncomputable section

namespace Cert.Wce

open Idealize.ShloMosaic Idealize.ShloMosaic.ValueIdx

variable (X : SX.Idx → EReal) (T : ST.Idx → BitVec 32)

/-! ### Sums over indices, rows and grid points -/

/-- A pixel's index is the triple of its coordinates. -/
def idxEquiv3 : ST.Idx ≃ Fin 16 × Fin 256 × Fin 256 where
  toFun i := (i 0, i 1, i 2)
  invFun p := ix3 p.1 p.2.1 p.2.2
  left_inv i := (eq_ix3 i).symm
  right_inv _ := rfl

/-- A sum over the pixels' indices is the triple sum over their coordinates. -/
theorem sum_idx3 {M : Type*} [AddCommMonoid M] (f : ST.Idx → M) :
    ∑ j : ST.Idx, f j = ∑ n : Fin 16, ∑ h : Fin 256, ∑ w : Fin 256, f (ix3 n h w) := by
  rw [← Equiv.sum_comp idxEquiv3.symm f, Fintype.sum_prod_type]
  refine Finset.sum_congr rfl fun n _ => ?_
  rw [Fintype.sum_prod_type]
  rfl

/-- A row is a block of 128 rows and a row inside it: `h = 128 hb + r`. -/
def rowEquiv : Fin 2 × Fin 128 ≃ Fin 256 where
  toFun p := hrow p.1 p.2
  invFun h := (⟨h.val / 128, by have := h.isLt; omega⟩, ⟨h.val % 128, by omega⟩)
  left_inv p := by
    rcases p with ⟨hb, r⟩
    have h1 := hb.isLt
    have h2 := r.isLt
    refine Prod.ext (Fin.ext ?_) (Fin.ext ?_)
    · show (128 * hb.val + r.val) / 128 = hb.val
      omega
    · show (128 * hb.val + r.val) % 128 = r.val
      omega
  right_inv h := by
    apply Fin.ext
    show 128 * (h.val / 128) + h.val % 128 = h.val
    omega

/-- A sum over the 256 rows is the sum over the two blocks of the sums over each block's 128 rows. -/
theorem sum_rows {M : Type*} [AddCommMonoid M] (g : Fin 256 → M) :
    ∑ h : Fin 256, g h = ∑ hb : Fin 2, ∑ r : Fin 128, g (hrow hb r) := by
  rw [← Equiv.sum_comp rowEquiv g, Fintype.sum_prod_type]
  rfl

/-- A grid point is a batch entry and a block: `k = 2 n + hb`. -/
def gridEquiv : Fin 16 × Fin 2 ≃ Fin 32 where
  toFun p := ⟨2 * p.1.val + p.2.val, by have := p.1.isLt; have := p.2.isLt; omega⟩
  invFun k := (pn k, ph k)
  left_inv p := by
    rcases p with ⟨a, b⟩
    have h1 := a.isLt
    have h2 := b.isLt
    refine Prod.ext (Fin.ext ?_) (Fin.ext ?_)
    · show (2 * a.val + b.val) / 2 = a.val
      omega
    · show (2 * a.val + b.val) % 2 = b.val
      omega
  right_inv k := by
    apply Fin.ext
    show 2 * (k.val / 2) + k.val % 2 = k.val
    omega

/-- A sum over the 32 grid points is the sum over the batch entries of the sums over their two blocks. -/
theorem sum_grid {M : Type*} [AddCommMonoid M] (g : Fin 16 → Fin 2 → M) :
    ∑ k : Fin 32, g (pn k) (ph k) = ∑ n : Fin 16, ∑ hb : Fin 2, g n hb := by
  have h := Equiv.sum_comp gridEquiv.symm (fun p : Fin 16 × Fin 2 => g p.1 p.2)
  rw [Fintype.sum_prod_type] at h
  exact h

/-! ### Labels and classes -/

/-- A word whose signed value lies in `[0, 32)` has an unsigned value below 32. -/
theorem toNat_lt_of_toInt {t : BitVec 32} (h0 : 0 ≤ t.toInt) (h1 : t.toInt < 32) : t.toNat < 32 := by
  have hlt : t.toNat < 2 ^ 32 := t.isLt
  have hc := BitVec.toInt_eq_toNat_cond t
  split at hc <;> omega

theorem label_toNat_lt (hT : InRange T) (i : ST.Idx) : (T i).toNat < 32 :=
  toNat_lt_of_toInt (hT i).1 (hT i).2

/-- The unsigned value of a class's word is the class. -/
theorem cls_toNat (c : Fin 32) : (cls c).toNat = c.val := by
  have hc := c.isLt
  unfold cls
  rw [BitVec.toNat_ofNat]
  exact Nat.mod_eq_of_lt (by omega)

/-- Under the range hypothesis a label's unsigned value is its class. -/
theorem tcl_toNat (hT : InRange T) (n : Fin 16) (h w : Fin 256) :
    (T (ix3 n h w)).toNat = (tcl T n h w).val := by
  show _ = (T (ix3 n h w)).toNat % 32
  exact (Nat.mod_eq_of_lt (label_toNat_lt T hT _)).symm

/-- Under the range hypothesis a label's signed value is its class. -/
theorem tcl_toInt (hT : InRange T) (n : Fin 16) (h w : Fin 256) :
    (T (ix3 n h w)).toInt = ((tcl T n h w).val : ℤ) := by
  rw [← tcl_toNat T hT]
  apply BitVec.toInt_eq_toNat_of_lt
  have := label_toNat_lt T hT (ix3 n h w)
  omega

/-- A label in range is the word of its class. -/
theorem label_eq (hT : InRange T) (n : Fin 16) (h w : Fin 256) : T (ix3 n h w) = cls (tcl T n h w) := by
  apply BitVec.eq_of_toNat_eq
  rw [cls_toNat]
  exact tcl_toNat T hT n h w

/-- Distinct classes have distinct words. -/
theorem cls_injective : Function.Injective cls := by
  intro a b hab
  have h := congrArg BitVec.toNat hab
  rw [cls_toNat, cls_toNat] at h
  exact Fin.ext h

/-- A sum over the classes that keeps the term of the label's class is that term. -/
theorem sum_keep (hT : InRange T) (g : Fin 32 → EReal) (n : Fin 16) (h w : Fin 256) :
    (∑ c : Fin 32, if T (ix3 n h w) = cls c then g c else 0) = g (tcl T n h w) := by
  rw [Finset.sum_eq_single (tcl T n h w)]
  · exact if_pos (label_eq T hT n h w)
  · intro c _ hc
    exact if_neg fun heq => hc (cls_injective (heq.symm.trans (label_eq T hT n h w)))
  · intro habs
    exact absurd (Finset.mem_univ _) habs

/-- Under the range hypothesis a pixel is labelled `c` exactly when its class is `c`. -/
theorem hit_eq (hT : InRange T) (n : Fin 16) (h w : Fin 256) (c : Fin 32) :
    hit T n h w c = if tcl T n h w = c then 1 else 0 := by
  unfold hit
  rw [label_eq T hT n h w]
  by_cases hc : tcl T n h w = c
  · rw [if_pos hc, if_pos (congrArg cls hc)]
  · rw [if_neg hc, if_neg fun heq => hc (cls_injective heq)]

/-- The sum over the classes that keeps the label's class keeps exactly that term. -/
theorem wtOf_eq (hT : InRange T) (iv : Fin 32 → EReal) (n : Fin 16) (h w : Fin 256) :
    wtOf T iv n h w = iv (tcl T n h w) := by
  unfold wtOf
  exact sum_keep T hT iv n h w

theorem pick_eq (hT : InRange T) (n : Fin 16) (h w : Fin 256) :
    pick X T n h w = X (ix4 n (tcl T n h w) h w) := by
  unfold pick
  exact sum_keep T hT (fun c => X (ix4 n c h w)) n h w

theorem wt_eq (hT : InRange T) (n : Fin 16) (h w : Fin 256) :
    wt T n h w = Ideal.div 1 (cnt T (tcl T n h w)) := by
  unfold wt
  rw [wtOf_eq T hT]
  rfl

/-! ### Real logits -/

/-- A finite sum of reals, taken in the extended reals, is the real sum. -/
theorem coe_sum {ι : Type*} (s : Finset ι) (g : ι → ℝ) :
    ∑ c ∈ s, (g c : EReal) = ((∑ c ∈ s, g c : ℝ) : EReal) := by
  classical
  induction s using Finset.induction_on with
  | empty => simp
  | insert a s ha ih => rw [Finset.sum_insert ha, Finset.sum_insert ha, ih, EReal.coe_add]

/-- The largest of finitely many reals, folded from `⊥`, is `⊥` (no term) or a real. -/
theorem fold_max_coe {ι : Type*} (s : Finset ι) (g : ι → ℝ) :
    s.fold max (⊥ : EReal) (fun c => (g c : EReal)) = ⊥ ∨
      ∃ m : ℝ, s.fold max (⊥ : EReal) (fun c => (g c : EReal)) = (m : EReal) := by
  classical
  induction s using Finset.induction_on with
  | empty => exact Or.inl Finset.fold_empty
  | insert a s ha ih =>
    right
    rw [Finset.fold_insert ha]
    rcases ih with hb | ⟨m, hm⟩
    · rw [hb]
      exact ⟨g a, max_bot_right _⟩
    · rw [hm]
      rcases le_total (g a) m with hle | hle
      · exact ⟨m, max_eq_right (EReal.coe_le_coe_iff.2 hle)⟩
      · exact ⟨g a, max_eq_left (EReal.coe_le_coe_iff.2 hle)⟩

/-- The largest of a pixel's 32 real logits is a real. -/
theorem mx_real (f : SX.Idx → ℝ) (hf : ∀ i, X i = (f i : EReal)) (n : Fin 16) (h w : Fin 256) :
    ∃ m : ℝ, mx X n h w = (m : EReal) := by
  have hfun : (fun c : Fin 32 => X (ix4 n c h w)) = fun c : Fin 32 => ((f (ix4 n c h w) : ℝ) : EReal) :=
    funext fun c => hf _
  unfold mx
  rw [hfun]
  rcases fold_max_coe Finset.univ (fun c : Fin 32 => f (ix4 n c h w)) with hb | hm
  · exfalso
    have hle : ((f (ix4 n 0 h w) : ℝ) : EReal) ≤
        Finset.univ.fold max (⊥ : EReal) (fun c : Fin 32 => ((f (ix4 n c h w) : ℝ) : EReal)) :=
      (Finset.le_fold_max _).2 (Or.inr ⟨0, Finset.mem_univ _, le_rfl⟩)
    rw [hb] at hle
    exact EReal.coe_ne_bot _ (le_bot_iff.1 hle)
  · exact hm

/-- With real logits and a real largest logit `m`, the log-sum-exp is the real logarithm of a positive real sum. -/
theorem lse_real (f : SX.Idx → ℝ) (hf : ∀ i, X i = (f i : EReal)) (n : Fin 16) (h w : Fin 256) (m : ℝ)
    (hm : mx X n h w = (m : EReal)) :
    lse X n h w = ((Real.log (∑ c : Fin 32, Real.exp (f (ix4 n c h w) - m)) : ℝ) : EReal) := by
  have hterm : ∀ c : Fin 32,
      Ideal.exp (X (ix4 n c h w) - mx X n h w) = ((Real.exp (f (ix4 n c h w) - m) : ℝ) : EReal) := by
    intro c
    rw [hf, hm, ← EReal.coe_sub, Ideal.exp_coe]
  have hsum : (∑ c : Fin 32, Ideal.exp (X (ix4 n c h w) - mx X n h w)) =
      ∑ c : Fin 32, ((Real.exp (f (ix4 n c h w) - m) : ℝ) : EReal) :=
    Finset.sum_congr rfl fun c _ => hterm c
  unfold lse
  rw [hsum, coe_sum, Ideal.log_coe, if_neg]
  exact not_le.2 (Finset.sum_pos (fun c _ => Real.exp_pos _) Finset.univ_nonempty)

/-- For real logits: the largest logit plus the log-sum-exp less the label's logit is the negated log-probability
    `-((x_t - mx) - lse)`. All three terms are real, so this is an identity of real numbers. -/
theorem ce_eq (hX : Finite X) (hT : InRange T) (n : Fin 16) (h w : Fin 256) :
    ce X T n h w = -((X (ix4 n (tcl T n h w) h w) - mx X n h w) - lse X n h w) := by
  have hX' : ∀ i : SX.Idx, ∃ r : ℝ, X i = (r : EReal) := hX
  choose f hf using hX'
  obtain ⟨m, hm⟩ := mx_real X f hf n h w
  have hl := lse_real X f hf n h w m hm
  unfold ce
  rw [pick_eq X T hT, hl, hm, hf (ix4 n (tcl T n h w) h w)]
  rw [← EReal.coe_add, ← EReal.coe_sub, ← EReal.coe_sub, ← EReal.coe_sub, ← EReal.coe_neg]
  congr 1
  ring

/-! ### The counts, one grid point at a time -/

/-- What grid point `j` adds to the count of class `c` (nothing past the 32 points). -/
def pointPart (c : Fin 32) (j : ℕ) : EReal :=
  if h : j < 32 then part0 T (pn ⟨j, h⟩) (ph ⟨j, h⟩) c else 0

theorem pointPart_of_lt (c : Fin 32) (j : ℕ) (h : j < 32) :
    pointPart T c j = part0 T (pn ⟨j, h⟩) (ph ⟨j, h⟩) c := by
  unfold pointPart
  exact dif_pos h

/-- After grid point `k` the running count is the sum of the parts of the points `0, …, k`. -/
theorem cntRun_range (c : Fin 32) : ∀ k : ℕ, k < 32 →
    cntRun T c k = ∑ j ∈ Finset.range (k + 1), pointPart T c j := by
  intro k
  induction k with
  | zero =>
    intro h0
    rw [Finset.sum_range_succ, Finset.range_zero, Finset.sum_empty, cntRun, pointPart_of_lt T c 0 h0]
    rfl
  | succ k ih =>
    intro hk
    rw [Finset.sum_range_succ, ← ih (by omega), cntRun, dif_pos hk, pointPart_of_lt T c (k + 1) hk]

/-- The counts gathered one grid point at a time, from zero, are the counts. -/
theorem cntRun_eq (c : Fin 32) : cntRun T c 31 = cnt T c := by
  have h1 : cntRun T c 31 = ∑ j ∈ Finset.range 32, pointPart T c j := cntRun_range T c 31 (by omega)
  have h2 : ∑ j ∈ Finset.range 32, pointPart T c j = ∑ k : Fin 32, part0 T (pn k) (ph k) c := by
    rw [Finset.sum_range]
    exact Finset.sum_congr rfl fun k _ => pointPart_of_lt T c k.val k.isLt
  have h3 : ∑ k : Fin 32, part0 T (pn k) (ph k) c = ∑ n : Fin 16, ∑ hb : Fin 2, part0 T n hb c :=
    sum_grid (fun n hb => part0 T n hb c)
  have h4 : ∀ n : Fin 16, ∑ hb : Fin 2, part0 T n hb c = ∑ h : Fin 256, ∑ w : Fin 256, hit T n h w c := by
    intro n
    exact (sum_rows (fun h => ∑ w : Fin 256, hit T n h w c)).symm
  rw [h1, h2, h3]
  unfold cnt
  exact Finset.sum_congr rfl fun n _ => h4 n

/-! ### The loss, block by block -/

/-- A batch entry's weighted sum after its two blocks is its sum over all rows. -/
theorem rowNum_eq (iv : Fin 32 → EReal) (n : Fin 16) :
    rowNum X T iv n = ∑ h : Fin 256, ∑ w : Fin 256, ce X T n h w * wtOf T iv n h w := by
  unfold rowNum blkNum
  rw [zero_add, sum_rows (fun h => ∑ w : Fin 256, ce X T n h w * wtOf T iv n h w), Fin.sum_univ_two]

/-- A batch entry's sum of weights after its two blocks is its sum over all rows. -/
theorem rowDen_eq (iv : Fin 32 → EReal) (n : Fin 16) :
    rowDen T iv n = ∑ h : Fin 256, ∑ w : Fin 256, wtOf T iv n h w := by
  unfold rowDen blkDen
  rw [zero_add, sum_rows (fun h => ∑ w : Fin 256, wtOf T iv n h w), Fin.sum_univ_two]

/-- The loss assembled the way the grid cuts the sums is the loss. No hypothesis: only the order of sums changes. -/
theorem lossK_eq : lossK X T = loss X T := by
  have hiv : (fun c : Fin 32 => Ideal.div 1 (cntRun T c 31)) = inv T := by
    funext c
    show Ideal.div 1 (cntRun T c 31) = Ideal.div 1 (cnt T c)
    rw [cntRun_eq]
  unfold lossK loss num den
  rw [hiv, zero_add, zero_add]
  congr 1
  · show ∑ n : Fin 16, rowNum X T (inv T) n =
      ∑ n : Fin 16, ∑ h : Fin 256, ∑ w : Fin 256, ce X T n h w * wtOf T (inv T) n h w
    exact Finset.sum_congr rfl fun n _ => rowNum_eq X T (inv T) n
  · show ∑ n : Fin 16, rowDen T (inv T) n = ∑ n : Fin 16, ∑ h : Fin 256, ∑ w : Fin 256, wtOf T (inv T) n h w
    exact Finset.sum_congr rfl fun n _ => rowDen_eq T (inv T) n

/-- The loss written over all pixels at once, from per-pixel cross entropies and weights in their other spelling,
    is the loss. -/
theorem lossRef_eq (hX : Finite X) (hT : InRange T) (ceR wR : ST.Idx → EReal)
    (hce : ∀ (n : Fin 16) (h w : Fin 256),
      ceR (ix3 n h w) = -((X (ix4 n (tcl T n h w) h w) - mx X n h w) - lse X n h w))
    (hw : ∀ (n : Fin 16) (h w : Fin 256), wR (ix3 n h w) = Ideal.div 1 (cnt T (tcl T n h w))) :
    Ideal.div (0 + ∑ j : ST.Idx, ceR j * wR j) (0 + ∑ j : ST.Idx, wR j) = loss X T := by
  have hnum : ∑ j : ST.Idx, ceR j * wR j = num X T := by
    rw [sum_idx3]
    unfold num
    refine Finset.sum_congr rfl fun n _ => Finset.sum_congr rfl fun h _ => Finset.sum_congr rfl fun w _ => ?_
    rw [hce, hw, ← ce_eq X T hX hT, ← wt_eq T hT]
  have hden : ∑ j : ST.Idx, wR j = den T := by
    rw [sum_idx3]
    unfold den
    refine Finset.sum_congr rfl fun n _ => Finset.sum_congr rfl fun h _ => Finset.sum_congr rfl fun w _ => ?_
    rw [hw, ← wt_eq T hT]
  unfold loss
  rw [zero_add, zero_add, hnum, hden]

end Cert.Wce

end
-- ==== Proof.Pre.lean ====
/-
  The precondition read back: where the printed predicate is all ones, every logit is a real number and every
  label, read signed, lies in `[0, 32)`.

  The predicate is one bit: the conjunction of three reductions by `and` over all axes, of the masks |x| < +∞
  (the logits), t ≥ 0 and t < 32 (the labels, signed). A conjunction that is one has both sides one; a reduction by
  `and` that is one met only ones; so each mask is one at every index. For a logit, |x| = max x (-x) < +∞ over the
  extended reals excludes both infinities. For a label, the two signed comparisons are the two bounds.
-/
import proofs.«408105_j28698971472547_3_alg».proof.Pre_finite_inputs
import proofs.«408105_j28698971472547_3_alg».proof.Proof.Gen.Pre_finite_inputs
import proofs.«408105_j28698971472547_3_alg».proof.Proof.Spec
import Idealize.ShloMosaic.Lib.ReduceAll
import Idealize.ShloMosaic.Lib.StableHlo.Predicate

noncomputable section

namespace Cert.Wce

open Idealize.ShloMosaic Idealize.ShloMosaic.ValueIdx

namespace Pre

/-- A shape of rank zero has one index. -/
instance subsingleton_scalar_idx : Subsingleton Cert.Pre_finite_inputs.S_.Idx :=
  ⟨fun _ _ => funext fun d => d.elim0⟩

/-- The f32 pattern 0x7F800000 denotes +∞. -/
theorem ofBits_inf : Ideal.ofBits .f32 0x7F800000#32 = ⊤ := by simp [Ideal.ofBits, Ideal.ieee]

/-- An extended real whose absolute value, max x (-x), compares below +∞ is a real number: ⊤ fails because
    max ⊤ ⊥ = ⊤, ⊥ fails because -⊥ = ⊤. -/
theorem real_of_abs_lt_inf (x : Ideal .f32)
    (h : FloatOps.cmpf .olt (FloatOps.hostAbsf x) (FloatOps.ofBits (F := Ideal) .f32 0x7F800000#32) = 1#1) :
    ∃ r : ℝ, (x : EReal) = (r : EReal) := by
  have h' : BitVec.ofBool (decide (max (x : EReal) (-(x : EReal)) < Ideal.ofBits .f32 0x7F800000#32)) = 1#1 := h
  rw [ofBits_inf, StableHlo.Predicate.ofBool_eq_one_iff, decide_eq_true_eq, max_lt_iff] at h'
  induction x using EReal.rec with
  | bot => exact absurd h'.2 (by simp)
  | coe r => exact ⟨r, rfl⟩
  | top => exact absurd h'.1 (by simp)

/-- A word that compares signed at least 0 and signed below 32 reads, signed, in [0, 32). -/
theorem range_of_cmp (t : BitVec 32) (h0 : IntOp.cmpi .sge t 0#32 = 1#1) (h1 : IntOp.cmpi .slt t 32#32 = 1#1) :
    0 ≤ t.toInt ∧ t.toInt < 32 := by
  rw [IntOp.cmpi_sge] at h0
  rw [IntOp.cmpi_slt] at h1
  have e0 : (0#32 : BitVec 32).toInt = 0 := by decide
  have e1 : (32#32 : BitVec 32).toInt = 32 := by decide
  rw [e0] at h0
  rw [e1] at h1
  exact ⟨h0, h1⟩

end Pre

/-- The printed precondition all ones gives real logits and labels in range. -/
theorem decode [Cert.Pre_finite_inputs.Facts] (X : SX.Idx → EReal) (T : ST.Idx → BitVec 32)
    (h : Cert.Pre_finite_inputs.fn (F := Ideal) X T = fun _ => 1#1) : Finite X ∧ InRange T := by
  -- the predicate's one element: the conjunction of the three all-reductions
  have e := congrFun h ValueIdx.ix0
  dsimp only [Cert.Pre_finite_inputs.fn] at e
  obtain ⟨e12, hlt⟩ := IntOp.andi_eq_one.1 e
  obtain ⟨hx, hge⟩ := IntOp.andi_eq_one.1 e12
  refine ⟨fun i => ?_, fun i => ?_⟩
  · -- the mask |x| < +∞ is one at i
    have hm := Host.reduce_andi_all _ _ _ _ _ hx i
    exact Pre.real_of_abs_lt_inf (X i) hm
  · -- the masks t ≥ 0 and t < 32 are one at i
    have h0 := Host.reduce_andi_all _ _ _ _ _ hge i
    have h1 := Host.reduce_andi_all _ _ _ _ _ hlt i
    exact Pre.range_of_cmp (T i) h0 h1

end Cert.Wce

end
-- ==== Proof.RefSoftmax.lean ====
/-
  The reference's per-pixel cross entropy. Its log-softmax at (n, c, h, w) is the logit less the largest logit of
  the pixel less the logarithm of the sum of the shifted exponentials. The entry of the label's class is taken by
  a gather along the class axis whose start index is the label with a negative one wrapped by 32; a label in
  range is not wrapped, passes the range test that guards the fill value, and reads its own class. The result
  negated is the cross entropy in its other spelling.
-/
import proofs.«408105_j28698971472547_3_alg».proof.Proof.RefRead
import proofs.«408105_j28698971472547_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce
import Idealize.ShloMosaic.Lib.StableHlo.Predicate

noncomputable section

namespace Cert.ReferenceIdeal.RefValue

open Cert.ReferenceIdeal Cert.ReferenceIdeal.Gen Cert.ReferenceIdeal.ReadP Idealize.ShloMosaic
open Idealize.ShloMosaic.ValueIdx

/-! ## Words

The pattern of minus infinity, and the three comparisons a label in range decides. -/

/-- The pattern of minus infinity is the bottom element of the extended reals. -/
private theorem bits_bot : Ideal.ofBits .f32 0xFF800000#32 = (⊥ : EReal) := by simp [Ideal.ofBits, Ideal.ieee]

/-- A word that reads as a nonnegative integer reads the same unsigned. -/
private theorem toInt_eq_toNat_of_nonneg (t : BitVec 32) (h0 : 0 ≤ t.toInt) : t.toInt = (t.toNat : ℤ) := by
  have hlt : t.toNat < 2 ^ 32 := t.isLt
  have hc : 2 * t.toNat < 2 ^ 32 := by
    by_contra hc
    rw [BitVec.toInt_eq_toNat_cond, if_neg hc] at h0
    push_cast at h0
    omega
  exact BitVec.toInt_eq_toNat_of_lt hc

/-- For a label in range the start index, read signed and clamped into the 32 classes, is the label's class. -/
private theorem start_of_inRange (t : BitVec 32) (h0 : 0 ≤ t.toInt) (h1 : t.toInt < 32) :
    min t.toInt.toNat 31 = t.toNat % 32 := by
  have e := toInt_eq_toNat_of_nonneg t h0
  rw [e] at h1 ⊢
  have h2 : t.toNat < 32 := by exact_mod_cast h1
  rw [Int.toNat_natCast, Nat.mod_eq_of_lt h2]
  omega

/-- A word that reads nonnegative is not below zero: the wrap is not taken. -/
private theorem cmp_slt_zero (t : BitVec 32) (h0 : 0 ≤ t.toInt) : IntOp.cmpi .slt t 0#32 = 0#1 := by
  have hd : t.slt 0#32 = false := by
    rw [BitVec.slt_eq_decide, BitVec.toInt_zero]; exact decide_eq_false (not_lt.mpr h0)
  show BitVec.ofBool (t.slt 0#32) = 0#1
  rewrite [hd]; rfl

/-- A word that reads nonnegative passes the lower range test. -/
private theorem cmp_sge_zero (t : BitVec 32) (h0 : 0 ≤ t.toInt) : IntOp.cmpi .sge t 0#32 = 1#1 := by
  have hd : (0#32 : BitVec 32).sle t = true := by
    rw [BitVec.sle_eq_decide, BitVec.toInt_zero]; exact decide_eq_true h0
  show BitVec.ofBool ((0#32 : BitVec 32).sle t) = 1#1
  rewrite [hd]; rfl

/-- A word that reads below 32 passes the upper range test. -/
private theorem cmp_sle_31 (t : BitVec 32) (h1 : t.toInt < 32) : IntOp.cmpi .sle t 31#32 = 1#1 := by
  have h31 : (31#32 : BitVec 32).toInt = 31 := by decide
  have hd : t.sle 31#32 = true := by
    rw [BitVec.sle_eq_decide, h31]; exact decide_eq_true (by omega)
  show BitVec.ofBool (t.sle 31#32) = 1#1
  rewrite [hd]; rfl

/-! ## The maximum over the class axis

A reduce over one axis folds over that axis's coordinates; the index over (n, h, w) with class k put back is
(n, k, h, w), and the fold from minus infinity is the fold from the bottom element. -/

private theorem reduces_class : S16x32x256x256.Reduces [1] S16x256x256 := by decide

private theorem lift_class (n : Fin 16) (h w : Fin 256) (k : Fin (S16x32x256x256.size 1)) :
    reduces_class.lift (ix3 n h w) k = ix4 n (⟨k.val, k.isLt⟩ : Fin 32) h w := by
  funext c; apply Fin.ext
  match c with
  | ⟨0, _⟩ => rfl
  | ⟨1, _⟩ => rfl
  | ⟨2, _⟩ => rfl
  | ⟨3, _⟩ => rfl

private theorem reduce_max_apply (X : S16x32x256x256.Idx → EReal) (init : S_.Idx → EReal)
    (hinit : init (Shape.Idx.first h_S_) = ⊥) (n : Fin 16) (h w : Fin 256) :
    Host.reduce (FloatOps.maximumf (F := Ideal) (φ := .f32)) X init reducesTo_S16x32x256x256_S16x256x256_d1 h_S_ (ix3 n h w)
      = (Finset.univ : Finset (Fin 32)).fold max ⊥ (fun c => X (ix4 n c h w)) := by
  rw [Host.reduce_eq_fold_single (FloatOps.maximumf (F := Ideal) (φ := .f32)) X init
    reducesTo_S16x32x256x256_S16x256x256_d1 reduces_class h_S_, hinit]
  have hf : (X ∘ reduces_class.lift (ix3 n h w)) = fun k : Fin 32 => X (ix4 n k h w) :=
    funext fun k => congrArg X (lift_class n h w k)
  rewrite [hf]
  rfl

/-! ## The conjunction over the unit axis

The range test is reduced by "and" over a trailing axis of size one: the one element and-ed with true. -/

private theorem reduces_unit : S16x1x256x256x1.Reduces [4] S16x1x256x256 := by decide

private theorem lift_unit (n : Fin 16) (h w : Fin 256) (k : Fin (S16x1x256x256x1.size 4)) :
    reduces_unit.lift (ix4 n (0 : Fin 1) h w) k = ix5 n (0 : Fin 1) h w (0 : Fin 1) := by
  funext c; apply Fin.ext
  have hk : k.val < 1 := k.isLt
  match c with
  | ⟨0, _⟩ => rfl
  | ⟨1, _⟩ => rfl
  | ⟨2, _⟩ => rfl
  | ⟨3, _⟩ => rfl
  | ⟨4, _⟩ => show k.val = 0; omega

private theorem reduce_and_apply (m : IVec S16x1x256x256x1 1) (init : IVec S_ 1)
    (hinit : init (Shape.Idx.first h_S_) = 1#1) (n : Fin 16) (h w : Fin 256) :
    Host.reduce IntOp.andi m init reducesTo_S16x1x256x256x1_S16x1x256x256_d4 h_S_ (ix4 n (0 : Fin 1) h w)
      = m (ix5 n (0 : Fin 1) h w (0 : Fin 1)) := by
  rw [Host.reduce_eq_fold_single IntOp.andi m init
    reducesTo_S16x1x256x256x1_S16x1x256x256_d4 reduces_unit h_S_, hinit]
  have hf : (m ∘ reduces_unit.lift (ix4 n (0 : Fin 1) h w)) = fun _ : Fin 1 => m (ix5 n (0 : Fin 1) h w (0 : Fin 1)) :=
    funext fun k => congrArg m (lift_unit n h w k)
  rewrite [hf]
  show Finset.fold IntOp.andi 1#1 (fun _ : Fin 1 => m (ix5 n (0 : Fin 1) h w (0 : Fin 1))) (Finset.univ : Finset (Fin 1)) = _
  rewrite [show (Finset.univ : Finset (Fin 1)) = {0} from by decide, Finset.fold_singleton]
  show m (ix5 n (0 : Fin 1) h w (0 : Fin 1)) &&& 1#1 = _
  generalize m (ix5 n (0 : Fin 1) h w (0 : Fin 1)) = b
  rcases BitVec.eq_zero_or_eq_one b with rfl | rfl <;> decide

/-! ## The gather along the class axis

Axes 0, 2, 3 of the operand are batching axes: the operand index has the result's coordinate there. Axis 1 is the
collapsed axis the start index addresses: the operand index has the start index there, read signed and clamped
into the 32 classes. -/

private theorem gather_class {α : Type} {v : Nat} (x : S16x32x256x256.Idx → α) (idx : IVec S16x1x256x256x1 v)
    (n : Fin 16) (h w : Fin 256) :
    Host.gather gather_S16x32x256x256_S16x1x256x256x1_S16x1x256x256_n_1_023_023_1_4_1111 x idx (ix4 n (0 : Fin 1) h w)
      = x (ix4 n (⟨min (idx (ix5 n (0 : Fin 1) h w (0 : Fin 1))).toInt.toNat 31, by omega⟩ : Fin 32) h w) := by
  show x (gather_S16x32x256x256_S16x1x256x256x1_S16x1x256x256_n_1_023_023_1_4_1111.operandIdx (ix4 n (0 : Fin 1) h w) idx) = _
  refine congrArg x (funext fun a => Fin.ext ?_)
  show gather_S16x32x256x256_S16x1x256x256x1_S16x1x256x256_n_1_023_023_1_4_1111.start (ix4 n (0 : Fin 1) h w) idx a + gather_S16x32x256x256_S16x1x256x256x1_S16x1x256x256_n_1_023_023_1_4_1111.batchCoord (ix4 n (0 : Fin 1) h w) a
    + gather_S16x32x256x256_S16x1x256x256x1_S16x1x256x256_n_1_023_023_1_4_1111.offCoord (ix4 n (0 : Fin 1) h w) a = _
  match a with
  | ⟨0, ha⟩ =>
    have hb : (⟨0, ha⟩ : Fin 4) ∈ gather_S16x32x256x256_S16x1x256x256x1_S16x1x256x256_n_1_023_023_1_4_1111.operandBatchingDims := (by decide : (0 : Fin 4) ∈ gather_S16x32x256x256_S16x1x256x256x1_S16x1x256x256_n_1_023_023_1_4_1111.operandBatchingDims)
    rewrite [GatherDims.start_batching _ _ _ _ hb,
      GatherDims.offCoord_eq_zero _ _ _ (fun hk => ((GatherDims.mem_sKept _ _).1 hk).2 hb), Nat.zero_add, Nat.add_zero]
    rfl
  | ⟨1, ha⟩ =>
    have hb : (⟨1, ha⟩ : Fin 4) ∉ gather_S16x32x256x256_S16x1x256x256x1_S16x1x256x256_n_1_023_023_1_4_1111.operandBatchingDims := (by decide : (1 : Fin 4) ∉ gather_S16x32x256x256_S16x1x256x256x1_S16x1x256x256_n_1_023_023_1_4_1111.operandBatchingDims)
    have hc : (⟨1, ha⟩ : Fin 4) ∈ gather_S16x32x256x256_S16x1x256x256x1_S16x1x256x256_n_1_023_023_1_4_1111.collapsedSliceDims := (by decide : (1 : Fin 4) ∈ gather_S16x32x256x256_S16x1x256x256x1_S16x1x256x256_n_1_023_023_1_4_1111.collapsedSliceDims)
    have hm : (⟨1, ha⟩ : Fin 4) ∈ gather_S16x32x256x256_S16x1x256x256x1_S16x1x256x256_n_1_023_023_1_4_1111.startIndexMap := (by decide : (1 : Fin 4) ∈ gather_S16x32x256x256_S16x1x256x256x1_S16x1x256x256_n_1_023_023_1_4_1111.startIndexMap)
    rewrite [GatherDims.batchCoord_eq_zero _ _ _ hb,
      GatherDims.offCoord_eq_zero _ _ _ (fun hk => ((GatherDims.mem_sKept _ _).1 hk).1 hc), Nat.add_zero]
    unfold GatherDims.start
    rewrite [dif_pos hm]
    have hsi : gather_S16x32x256x256_S16x1x256x256x1_S16x1x256x256_n_1_023_023_1_4_1111.siIdx (ix4 n (0 : Fin 1) h w) ⟨List.idxOf (⟨1, ha⟩ : Fin 4) gather_S16x32x256x256_S16x1x256x256x1_S16x1x256x256_n_1_023_023_1_4_1111.startIndexMap,
        List.idxOf_lt_length_iff.2 hm⟩ = ix5 n (0 : Fin 1) h w (0 : Fin 1) := by
      funext b; apply Fin.ext
      match b with
      | ⟨0, _⟩ => rfl
      | ⟨1, _⟩ => rfl
      | ⟨2, _⟩ => rfl
      | ⟨3, _⟩ => rfl
      | ⟨4, _⟩ => rfl
    rewrite [hsi]
    rfl
  | ⟨2, ha⟩ =>
    have hb : (⟨2, ha⟩ : Fin 4) ∈ gather_S16x32x256x256_S16x1x256x256x1_S16x1x256x256_n_1_023_023_1_4_1111.operandBatchingDims := (by decide : (2 : Fin 4) ∈ gather_S16x32x256x256_S16x1x256x256x1_S16x1x256x256_n_1_023_023_1_4_1111.operandBatchingDims)
    rewrite [GatherDims.start_batching _ _ _ _ hb,
      GatherDims.offCoord_eq_zero _ _ _ (fun hk => ((GatherDims.mem_sKept _ _).1 hk).2 hb), Nat.zero_add, Nat.add_zero]
    rfl
  | ⟨3, ha⟩ =>
    have hb : (⟨3, ha⟩ : Fin 4) ∈ gather_S16x32x256x256_S16x1x256x256x1_S16x1x256x256_n_1_023_023_1_4_1111.operandBatchingDims := (by decide : (3 : Fin 4) ∈ gather_S16x32x256x256_S16x1x256x256x1_S16x1x256x256_n_1_023_023_1_4_1111.operandBatchingDims)
    rewrite [GatherDims.start_batching _ _ _ _ hb,
      GatherDims.offCoord_eq_zero _ _ _ (fun hk => ((GatherDims.mem_sKept _ _).1 hk).2 hb), Nat.zero_add, Nat.add_zero]
    rfl

/-! ## The log-softmax, stage by stage -/

/-- The reduce over the classes at (n, h, w) is the pixel's largest logit. -/
private theorem max_apply (X : Cert.Wce.SX.Idx → EReal) (n : Fin 16) (h w : Fin 256) :
    val_main_call0_v0 (F := Ideal) X (ix3 n h w) = Cert.Wce.mx X n h w := by
  unfold val_main_call0_v0 Cert.Wce.mx
  exact reduce_max_apply X (val_main_call0_cst (F := Ideal)) bits_bot n h w

/-- The largest logit, joined with minus infinity and broadcast back along the class axis. -/
private theorem bmax_apply (X : Cert.Wce.SX.Idx → EReal) (n : Fin 16) (c : Fin 32) (h w : Fin 256) :
    val_main_call0_v4 (F := Ideal) X (ix4 n c h w) = Cert.Wce.mx X n h w := by
  have e : idx_main_call0_v3 (idx_main_call0_v4 (ix4 n c h w)) = ix3 n h w :=
    funext fun a => Fin.ext (by match a with | ⟨0, _⟩ => rfl | ⟨1, _⟩ => rfl | ⟨2, _⟩ => rfl)
  rewrite [val_main_call0_v4_apply, val_main_call0_v3_apply, e, val_main_call0_v2_apply, val_main_call0_v1_apply,
    val_main_call0_cst_0_apply, max_apply]
  show max (Ideal.ofBits .f32 0xFF800000#32) (Cert.Wce.mx X n h w) = Cert.Wce.mx X n h w
  rewrite [bits_bot]
  exact max_bot_left _

/-- The shifted logit. -/
private theorem shift_apply (X : Cert.Wce.SX.Idx → EReal) (n : Fin 16) (c : Fin 32) (h w : Fin 256) :
    val_main_call0_v5 (F := Ideal) X (ix4 n c h w) = X (ix4 n c h w) - Cert.Wce.mx X n h w := by
  rewrite [val_main_call0_v5_apply, bmax_apply]
  rfl

/-- The sum of the shifted exponentials over the classes. -/
private theorem expsum_apply (X : Cert.Wce.SX.Idx → EReal) (n : Fin 16) (h w : Fin 256) :
    val_main_call0_v7 (F := Ideal) X (ix3 n h w)
      = ∑ c : Fin 32, Ideal.exp (X (ix4 n c h w) - Cert.Wce.mx X n h w) := by
  rewrite [val_main_call0_v7_apply, val_main_call0_cst_1_apply]
  show Ideal.ofBits .f32 0x00000000#32 + _ = _
  rewrite [Ideal.ofBits_zero_f32, zero_add]
  refine Finset.sum_congr rfl fun k _ => ?_
  have e : idx_main_call0_v7 (ix3 n h w) k = ix4 n k h w :=
    funext fun a => Fin.ext (by match a with | ⟨0, _⟩ => rfl | ⟨1, _⟩ => rfl | ⟨2, _⟩ => rfl | ⟨3, _⟩ => rfl)
  rewrite [e, val_main_call0_v6_apply, shift_apply]
  rfl

/-- Its logarithm, broadcast back along the class axis. -/
private theorem blse_apply (X : Cert.Wce.SX.Idx → EReal) (n : Fin 16) (c : Fin 32) (h w : Fin 256) :
    val_main_call0_v10 (F := Ideal) X (ix4 n c h w) = Cert.Wce.lse X n h w := by
  have e : idx_main_call0_v8 (idx_main_call0_v10 (ix4 n c h w)) = ix3 n h w :=
    funext fun a => Fin.ext (by match a with | ⟨0, _⟩ => rfl | ⟨1, _⟩ => rfl | ⟨2, _⟩ => rfl)
  rewrite [val_main_call0_v10_apply, val_main_call0_v9_apply, val_main_call0_v8_apply, e, expsum_apply]
  rfl

/-- The log-softmax at one element. -/
theorem logp_apply (X : Cert.Wce.SX.Idx → EReal) (n : Fin 16) (c : Fin 32) (h w : Fin 256) :
    val_main_v0 (F := Ideal) X (ix4 n c h w)
      = (X (ix4 n c h w) - Cert.Wce.mx X n h w) - Cert.Wce.lse X n h w := by
  rewrite [val_main_v0_apply, shift_apply, blse_apply]
  rfl

/-! ## The entry of the label's class -/

/-- A label in range is not wrapped. -/
private theorem wrapped_apply (T : Cert.Wce.ST.Idx → BitVec 32) (hT : Cert.Wce.InRange T) (n : Fin 16) (h w : Fin 256) :
    val_main_call1_v4 (F := Ideal) T (ix4 n (0 : Fin 1) h w) = T (ix3 n h w) := by
  have e : idx_main_v1 (ix4 n (0 : Fin 1) h w) = ix3 n h w :=
    funext fun a => Fin.ext (by match a with | ⟨0, _⟩ => rfl | ⟨1, _⟩ => rfl | ⟨2, _⟩ => rfl)
  rw [val_main_call1_v4_apply, val_main_call1_v1_apply, val_main_v1_apply, e, val_main_call1_v0_apply,
    val_main_call1_c_apply, cmp_slt_zero _ (hT (ix3 n h w)).1, select_zero]

/-- The start index of pixel (n, h, w) is its label. -/
private theorem start_apply (T : Cert.Wce.ST.Idx → BitVec 32) (hT : Cert.Wce.InRange T) (n : Fin 16) (h w : Fin 256) :
    val_main_call1_v5 (F := Ideal) T (ix5 n (0 : Fin 1) h w (0 : Fin 1)) = T (ix3 n h w) := by
  have e : idx_main_call1_v5 (ix5 n (0 : Fin 1) h w (0 : Fin 1)) = ix4 n (0 : Fin 1) h w := by
    funext a; apply Fin.ext
    have hn := n.isLt; have hh := h.isLt; have hw := w.isLt
    match a with
    | ⟨0, _⟩ => show ((((n.val * 1 + 0) * 256 + h.val) * 256 + w.val) * 1 + 0) / 65536 = n.val; omega
    | ⟨1, _⟩ => rfl
    | ⟨2, _⟩ => show ((((n.val * 1 + 0) * 256 + h.val) * 256 + w.val) * 1 + 0) / 256 % 256 = h.val; omega
    | ⟨3, _⟩ => show ((((n.val * 1 + 0) * 256 + h.val) * 256 + w.val) * 1 + 0) % 256 = w.val; omega
  rw [val_main_call1_v5_apply, e, wrapped_apply T hT]

/-- A label in range passes the range test that guards the fill value. -/
private theorem inrange_apply (T : Cert.Wce.ST.Idx → BitVec 32) (hT : Cert.Wce.InRange T) (n : Fin 16) (h w : Fin 256) :
    val_main_call1_v12 (F := Ideal) T (ix4 n (0 : Fin 1) h w) = 1#1 := by
  unfold val_main_call1_v12
  rewrite [reduce_and_apply (val_main_call1_v11 (F := Ideal) T) (val_main_call1_c_3 (F := Ideal)) rfl n h w]
  rewrite [val_main_call1_v11_apply, val_main_call1_v7_apply, val_main_call1_v10_apply, start_apply T hT,
    val_main_call1_v6_apply, val_main_call1_c_2_apply, val_main_call1_v9_apply, val_main_call1_v8_apply,
    val_main_call1_c_1_apply, cmp_sge_zero _ (hT (ix3 n h w)).1, cmp_sle_31 _ (hT (ix3 n h w)).2]
  decide

/-- The gather reads the log-softmax at the label's class. -/
private theorem gathered_apply (X : Cert.Wce.SX.Idx → EReal) (T : Cert.Wce.ST.Idx → BitVec 32) (hT : Cert.Wce.InRange T)
    (n : Fin 16) (h w : Fin 256) :
    val_main_call1_v13 (F := Ideal) X T (ix4 n (0 : Fin 1) h w)
      = val_main_v0 (F := Ideal) X (ix4 n (Cert.Wce.tcl T n h w) h w) := by
  unfold val_main_call1_v13
  rewrite [gather_class (val_main_v0 (F := Ideal) X) (val_main_call1_v5 (F := Ideal) T) n h w]
  refine congrArg (fun k : Fin 32 => val_main_v0 (F := Ideal) X (ix4 n k h w)) (Fin.ext ?_)
  show min (val_main_call1_v5 (F := Ideal) T (ix5 n (0 : Fin 1) h w (0 : Fin 1))).toInt.toNat 31
    = (T (ix3 n h w)).toNat % 32
  rewrite [start_apply T hT]
  exact start_of_inRange _ (hT (ix3 n h w)).1 (hT (ix3 n h w)).2

/-- The negated log-probability of the label's class, for labels in range. -/
theorem ce_apply (X : Cert.Wce.SX.Idx → EReal) (T : Cert.Wce.ST.Idx → BitVec 32) (hT : Cert.Wce.InRange T)
    (n : Fin 16) (h w : Fin 256) :
    val_main_v4 (F := Ideal) X T (ix3 n h w)
      = -((X (ix4 n (Cert.Wce.tcl T n h w) h w) - Cert.Wce.mx X n h w) - Cert.Wce.lse X n h w) := by
  have e : idx_main_v3 (ix3 n h w) = ix4 n (0 : Fin 1) h w := by
    funext a; apply Fin.ext
    have hn := n.isLt; have hh := h.isLt; have hw := w.isLt
    match a with
    | ⟨0, _⟩ => show ((n.val * 256 + h.val) * 256 + w.val) / 65536 = n.val; omega
    | ⟨1, _⟩ => rfl
    | ⟨2, _⟩ => show ((n.val * 256 + h.val) * 256 + w.val) / 256 % 256 = h.val; omega
    | ⟨3, _⟩ => show ((n.val * 256 + h.val) * 256 + w.val) % 256 = w.val; omega
  rewrite [val_main_v4_apply, val_main_v3_apply, e, val_main_v2_apply, inrange_apply T hT, select_one,
    gathered_apply X T hT, logp_apply]
  rfl

end Cert.ReferenceIdeal.RefValue

end
-- ==== Proof.RefScatter.lean ====
/-
  What the reference's counts and weights need that is not about this program: two operations whose element
  depends on an operand's values, read at an index, and the arithmetic of small words and of counting.

  A scatter that adds words: the result is the left fold, over the update rows in row-major order, of "add the
  row's update to the entry the row's index names". Addition of words is commutative and associative, so the
  entry at i is the operand's entry plus the sum of the updates of the rows that land on i (foldl_addAt,
  scatter_addi_apply). For ONE column of indices into a rank-1 operand [N] (each row names one entry, no window
  axes) row e lands on entry c exactly when its index word, read signed, is c; a word outside [0, N) names no
  entry and the row is dropped (colDims_resultIdx?_eq_some_iff).

  A take of a rank-1 table [N] at a rank-4 column [A, B, C, 1] of start indices: element (a, b, c) is the table
  at the start index read signed and clamped into [0, N - 1] (gather_take3_apply).

  Words: an index that reads signed non-negative is left alone by a clip below at zero and by a wrap of the
  negative ones; it is the word of a small number exactly when its signed reading is that number. The 2^20 rows
  of the flattened [16, 256, 256] array are its pixels in row-major order (rowEquiv, sum_rows). The sum of the
  word one over the pixels with a property is their number as a word; the number is at most 2^20, below 2^31, so
  the word read signed is the number and its conversion to a float is the number (sitofp_count).
-/
import Idealize.ShloMosaic.PureOps.Ideal
import Idealize.ShloMosaic.Lib.ValueIdx
import Idealize.ShloMosaic.Lib.WordArith
import Mathlib.Data.BitVec
import Mathlib.Algebra.BigOperators.Fin

noncomputable section

open scoped BigOperators

namespace Cert.RefScatter

open Idealize.ShloMosaic Idealize.ShloMosaic.ValueIdx

/-! ## A fold of "add at the named entry" -/

section Fold
variable {ι κ β : Type} [DecidableEq ι] [AddCommMonoid β]

/-- A left fold whose step adds v n to the entry g n names (and does nothing when g n names none) leaves, at
    entry i', the initial entry plus the sum of the v n over the n that name i'. -/
theorem foldl_addAt (g : κ → Option ι) (v : κ → β) (step : (ι → β) → κ → ι → β)
    (hsome : ∀ r n i, g n = some i → step r n = fun i' => if i' = i then r i + v n else r i')
    (hnone : ∀ r n, g n = none → step r n = r)
    (l : List κ) (x : ι → β) (i' : ι) :
    l.foldl step x i' = x i' + (l.map fun n => if g n = some i' then v n else 0).sum := by
  induction l generalizing x with
  | nil => simp
  | cons n l ih =>
    rw [List.foldl_cons, ih, List.map_cons, List.sum_cons]
    cases hg : g n with
    | none => rw [hnone x n hg]; simp
    | some i =>
      rw [hsome x n i hg]
      by_cases h : i' = i
      · subst h; simp [add_assoc]
      · have hne : ¬ (some i = some i') := fun e => h (Option.some.inj e).symm
        simp [h, hne]

end Fold

/-- The scatter that adds words, read at an entry: the operand's entry plus the sum of the updates of the rows
    whose index lands on it. -/
theorem scatter_addi_apply {s si u : Shape} {w : Nat} (d : ScatterDims s si u) (x : s.Idx → BitVec 32)
    (idx : IVec si w) (upd : u.Idx → BitVec 32) (i' : s.Idx) :
    Host.scatter d IntOp.addi x idx upd i' = x i' + ∑ j : u.Idx, if d.resultIdx? j idx = some i' then upd j else 0 := by
  unfold Host.scatter
  refine (foldl_addAt (fun n => d.resultIdx? (u.rowMajor.symm n) idx) (fun n => upd (u.rowMajor.symm n)) _ ?_ ?_
    _ x i').trans ?_
  · intro r n i h
    simp only [h]
    rfl
  · intro r n h
    simp only [h]
  · congr 1
    rw [← Fin.sum_univ_def]
    exact Equiv.sum_comp u.rowMajor.symm (fun j => if d.resultIdx? j idx = some i' then upd j else 0)

/-! ## One column of indices into a rank-1 operand -/

/-- The dimension numbers of a scatter of n scalar updates into a rank-1 operand [N] at the column [n, 1] of
    indices: the operand's axis inserted and named by the index vector's one component, no window axes. -/
abbrev colDims (N n : Nat) (wf : ScatterDims.WF ⟨1, ![N]⟩ ⟨2, ![n, 1]⟩ ⟨1, ![n]⟩ [] [0] [0] 1) :
    ScatterDims ⟨1, ![N]⟩ ⟨2, ![n, 1]⟩ ⟨1, ![n]⟩ where
  updateWindowDims := []
  insertedWindowDims := [0]
  scatterDimsToOperandDims := [0]
  indexVectorDim := 1
  wf := wf

section Col
variable {N n w : Nat} (wf : ScatterDims.WF ⟨1, ![N]⟩ ⟨2, ![n, 1]⟩ ⟨1, ![n]⟩ [] [0] [0] 1)
  (idx : IVec ⟨2, ![n, 1]⟩ w) (e : Fin n)

/-- Row e reads its start off the column at (e, 0), signed. -/
theorem colDims_start : (colDims N n wf).start (ix1 e) idx 0 = (idx (ix2 e (0 : Fin 1))).toInt := by
  unfold ScatterDims.start
  rw [dif_pos (show (0 : Fin 1) ∈ (colDims N n wf).scatterDimsToOperandDims from List.mem_singleton.mpr rfl)]
  have hsi : (colDims N n wf).siIdx (ix1 e) ⟨List.idxOf (0 : Fin 1) (colDims N n wf).scatterDimsToOperandDims,
      List.idxOf_lt_length_iff.2 (List.mem_singleton.mpr rfl)⟩ = ix2 e (0 : Fin 1) := by
    funext b
    match b with
    | ⟨0, _⟩ => exact Fin.ext rfl
    | ⟨1, _⟩ => exact Fin.ext rfl
  rw [hsi]

/-- There is no window axis: the window coordinate on the operand's axis is zero. -/
theorem colDims_window : (colDims N n wf).window (ix1 e) 0 = 0 := by
  unfold ScatterDims.window
  exact dif_neg (by simp [ScatterDims.sKept, Shape.kept])

/-- Row e lands on entry c exactly when its index word, read signed, is c: a word outside [0, N) names no entry
    and the row is dropped. -/
theorem colDims_resultIdx?_eq_some_iff (c : Fin N) :
    (colDims N n wf).resultIdx? (ix1 e) idx = some (ix1 c) ↔ (idx (ix2 e (0 : Fin 1))).toInt = (c.val : Int) := by
  have hc := c.isLt
  have hs := colDims_start wf idx e
  have hw := colDims_window (N := N) wf e
  unfold ScatterDims.resultIdx?
  split
  next hall =>
    have h0 := hall 0
    rw [hs, hw] at h0
    rw [Option.some.injEq]
    constructor
    · intro e'
      have := congrArg Fin.val (congrFun e' 0)
      change ((colDims N n wf).start (ix1 e) idx 0 + ((colDims N n wf).window (ix1 e) 0 : Int)).toNat = c.val at this
      rw [hs, hw] at this
      omega
    · intro e'
      funext a
      obtain rfl : a = 0 := Subsingleton.elim _ _
      refine Fin.ext ?_
      show ((colDims N n wf).start (ix1 e) idx 0 + ((colDims N n wf).window (ix1 e) 0 : Int)).toNat = c.val
      rw [hs, hw]
      omega
  next hnot =>
    refine ⟨fun e' => (by cases e'), fun e' => absurd ?_ hnot⟩
    intro a
    obtain rfl : a = 0 := Subsingleton.elim _ _
    rw [hs, hw]
    have hsz : ((⟨1, ![N]⟩ : Shape).size 0 : Int) = (N : Int) := rfl
    rw [hsz]
    omega

end Col

/-! ## A take of a rank-1 table at a rank-4 column of start indices -/

/-- A start index read signed, clamped into a table of N entries. -/
def clampIdx (N : Nat) (hN : 0 < N) (z : Int) : Fin N := ⟨min z.toNat (N - 1), by omega⟩

/-- An index already inside the table is left alone. -/
theorem clampIdx_val_of_lt (N : Nat) (hN : 0 < N) (z : Int) (h1 : z < N) : (clampIdx N hN z).val = z.toNat := by
  unfold clampIdx
  show min z.toNat (N - 1) = z.toNat
  omega

/-- The dimension numbers of table[idx] for a table [N] and indices [A, B, C] kept as the column [A, B, C, 1]:
    the table's axis collapsed and named by the index vector's one component, no offset or batching axes. -/
abbrev take3Dims (N A B C : Nat)
    (wf : GatherDims.WF ⟨1, ![N]⟩ ⟨4, ![A, B, C, 1]⟩ ⟨3, ![A, B, C]⟩ [] [0] [] [0] [] 3 ![1]) :
    GatherDims ⟨1, ![N]⟩ ⟨4, ![A, B, C, 1]⟩ ⟨3, ![A, B, C]⟩ where
  offsetDims := []
  collapsedSliceDims := [0]
  operandBatchingDims := []
  startIndicesBatchingDims := []
  startIndexMap := [0]
  indexVectorDim := 3
  sliceSizes := ![1]
  wf := wf

section Take3
variable {α : Type} {N A B C w : Nat}
  (wf : GatherDims.WF ⟨1, ![N]⟩ ⟨4, ![A, B, C, 1]⟩ ⟨3, ![A, B, C]⟩ [] [0] [] [0] [] 3 ![1])
  (idx : IVec ⟨4, ![A, B, C, 1]⟩ w) (a : Fin A) (b : Fin B) (c : Fin C)

/-- Element (a, b, c) reads its start off the column at (a, b, c, 0), signed, clamped into the table. -/
theorem take3Dims_start :
    (take3Dims N A B C wf).start (ix3 a b c) idx 0 = min (idx (ix4 a b c (0 : Fin 1))).toInt.toNat (N - 1) := by
  unfold GatherDims.start
  rw [dif_pos (show (0 : Fin 1) ∈ (take3Dims N A B C wf).startIndexMap from List.mem_singleton.mpr rfl)]
  have hsi : (take3Dims N A B C wf).siIdx (ix3 a b c) ⟨List.idxOf (0 : Fin 1) (take3Dims N A B C wf).startIndexMap,
      List.idxOf_lt_length_iff.2 (List.mem_singleton.mpr rfl)⟩ = ix4 a b c (0 : Fin 1) := by
    funext k
    match k with
    | ⟨0, _⟩ => exact Fin.ext rfl
    | ⟨1, _⟩ => exact Fin.ext rfl
    | ⟨2, _⟩ => exact Fin.ext rfl
    | ⟨3, _⟩ => exact Fin.ext rfl
  rw [hsi]
  rfl

/-- THE TAKE READ AT (a, b, c): the table at the start index idx[a, b, c, 0], read signed and clamped into
    [0, N - 1]. -/
theorem gather_take3_apply (hN : 0 < N) (x : (⟨1, ![N]⟩ : Shape).Idx → α) :
    Host.gather (take3Dims N A B C wf) x idx (ix3 a b c)
      = x (ix1 (clampIdx N hN (idx (ix4 a b c (0 : Fin 1))).toInt)) := by
  unfold Host.gather
  refine congrArg x ?_
  funext k
  obtain rfl : k = 0 := Subsingleton.elim _ _
  refine Fin.ext ?_
  show (take3Dims N A B C wf).start (ix3 a b c) idx 0 + (take3Dims N A B C wf).batchCoord (ix3 a b c) 0
      + (take3Dims N A B C wf).offCoord (ix3 a b c) 0 = min (idx (ix4 a b c (0 : Fin 1))).toInt.toNat (N - 1)
  rw [take3Dims_start, GatherDims.batchCoord_eq_zero (take3Dims N A B C wf) (ix3 a b c) 0 List.not_mem_nil,
    GatherDims.offCoord_eq_zero (take3Dims N A B C wf) (ix3 a b c) 0 (by simp [GatherDims.sKept, Shape.kept])]
  rfl

end Take3

/-! ## Words: an index in range is left alone by the clip and the wrap -/

/-- A word whose signed reading is in [0, K), K at most 2^31, reads unsigned the same. -/
theorem toNat_of_inRange (t : BitVec 32) (h0 : 0 ≤ t.toInt) : t.toInt = (t.toNat : Int) := by
  have hlt : t.toNat < 2 ^ 32 := t.isLt
  have hc := BitVec.toInt_eq_toNat_cond t
  split_ifs at hc with h <;> omega

/-- A word that reads signed non-negative is not below zero. -/
theorem slt_zero_of_nonneg (t : BitVec 32) (h0 : 0 ≤ t.toInt) : t.slt 0#32 = false := by
  unfold BitVec.slt
  rw [BitVec.toInt_zero]
  exact decide_eq_false (by omega)

/-- Wrapping a negative index by K leaves a non-negative one alone. -/
theorem wrap_of_nonneg (t K : BitVec 32) (h0 : 0 ≤ t.toInt) :
    Scalar.select (IntOp.cmpi .slt t 0#32) (IntOp.addi t K) t = t := by
  simp only [IntOp.cmpi, slt_zero_of_nonneg t h0]
  exact select_zero _ _

/-- Clipping below at zero leaves a non-negative index alone. -/
theorem clip_of_nonneg (t : BitVec 32) (h0 : 0 ≤ t.toInt) : IntOp.maxsi 0#32 t = t := by
  unfold IntOp.maxsi
  rw [slt_zero_of_nonneg t h0]
  rfl

/-- A word is the word of the number c, c below 2^31, exactly when its signed reading is c. -/
theorem eq_ofNat_iff_toInt (t : BitVec 32) (c : Nat) (hc : c < 2 ^ 31) :
    t = BitVec.ofNat 32 c ↔ t.toInt = (c : Int) := by
  constructor
  · intro e
    rw [e]
    exact WordArith.toInt_ofNat_small c hc
  · intro e
    have hi := toNat_of_inRange t (by omega)
    apply BitVec.eq_of_toNat_eq
    rw [BitVec.toNat_ofNat]
    omega

/-! ## The rows of [1048576] are the pixels of [16, 256, 256], row-major -/

/-- Row (n, h, w). -/
abbrev rowOf (n : Fin 16) (h w : Fin 256) : Fin 1048576 :=
  ⟨(n.val * 256 + h.val) * 256 + w.val, by have := n.isLt; have := h.isLt; have := w.isLt; omega⟩

/-- The rows and the pixels correspond one to one. -/
def rowEquiv : Fin 16 × Fin 256 × Fin 256 ≃ (⟨1, ![1048576]⟩ : Shape).Idx where
  toFun p := ix1 (rowOf p.1 p.2.1 p.2.2)
  invFun j :=
    (⟨(j 0).val / 65536, by have h0 : (j 0).val < 1048576 := (j 0).isLt; omega⟩,
     ⟨(j 0).val / 256 % 256, by omega⟩,
     ⟨(j 0).val % 256, by omega⟩)
  left_inv p := by
    obtain ⟨n, h, w⟩ := p
    have := n.isLt; have := h.isLt; have := w.isLt
    refine Prod.ext (Fin.ext ?_) (Prod.ext (Fin.ext ?_) (Fin.ext ?_))
    · show ((n.val * 256 + h.val) * 256 + w.val) / 65536 = n.val; omega
    · show ((n.val * 256 + h.val) * 256 + w.val) / 256 % 256 = h.val; omega
    · show ((n.val * 256 + h.val) * 256 + w.val) % 256 = w.val; omega
  right_inv j := by
    funext a
    match a with
    | ⟨0, _⟩ =>
      refine Fin.ext ?_
      show ((j 0).val / 65536 * 256 + (j 0).val / 256 % 256) * 256 + (j 0).val % 256 = (j 0).val
      omega

/-- A sum over the rows is the triple sum over the pixels. -/
theorem sum_rows {M : Type*} [AddCommMonoid M] (F : (⟨1, ![1048576]⟩ : Shape).Idx → M) :
    ∑ j, F j = ∑ n : Fin 16, ∑ h : Fin 256, ∑ w : Fin 256, F (ix1 (rowOf n h w)) := by
  rw [← Equiv.sum_comp rowEquiv F, Fintype.sum_prod_type]
  refine Finset.sum_congr rfl fun n _ => ?_
  rw [Fintype.sum_prod_type]
  rfl

/-! ## Counting pixels: as a word, as a natural number, as an extended real -/

section Count
variable (p : Fin 16 → Fin 256 → Fin 256 → Prop) [∀ n h w, Decidable (p n h w)]

/-- The number of pixels with p. -/
def count : Nat := ∑ n : Fin 16, ∑ h : Fin 256, ∑ w : Fin 256, if p n h w then 1 else 0

/-- There are 2^20 pixels. -/
theorem count_le : count p ≤ 1048576 := by
  unfold count
  calc (∑ n : Fin 16, ∑ h : Fin 256, ∑ w : Fin 256, if p n h w then 1 else 0)
      ≤ ∑ n : Fin 16, ∑ h : Fin 256, ∑ w : Fin 256, 1 :=
        Finset.sum_le_sum fun n _ => Finset.sum_le_sum fun h _ => Finset.sum_le_sum fun w _ => by
          split_ifs <;> omega
    _ = 1048576 := by simp

/-- The sum of the word one over the pixels with p is the count as a word. -/
theorem sum_word_eq : (∑ n : Fin 16, ∑ h : Fin 256, ∑ w : Fin 256, if p n h w then (1 : BitVec 32) else 0)
    = BitVec.ofNat 32 (count p) := by
  rw [← BitVec.natCast_eq_ofNat]
  simp only [count, Nat.cast_sum, Nat.cast_ite, Nat.cast_one, Nat.cast_zero]

/-- The count as an extended real is the sum of ones. -/
theorem count_ereal : ((count p : Nat) : EReal)
    = ∑ n : Fin 16, ∑ h : Fin 256, ∑ w : Fin 256, if p n h w then (1 : EReal) else 0 := by
  simp only [count, Nat.cast_sum, Nat.cast_ite, Nat.cast_one, Nat.cast_zero]

/-- Converting the word that counts the pixels with p to a float gives the count: it is below 2^31, so the word
    read signed is the number. -/
theorem sitofp_count :
    FloatOps.sitofp (F := Ideal) .f32 (∑ n : Fin 16, ∑ h : Fin 256, ∑ w : Fin 256, if p n h w then (1 : BitVec 32) else 0)
      = ∑ n : Fin 16, ∑ h : Fin 256, ∑ w : Fin 256, if p n h w then (1 : EReal) else 0 := by
  rw [sum_word_eq]
  show (((BitVec.ofNat 32 (count p)).toInt : ℝ) : EReal) = _
  have hle := count_le p
  rw [WordArith.toInt_ofNat_small (count p) (by omega), Int.cast_natCast, EReal.coe_natCast, count_ereal]

end Count

/-- The float pattern 0x3F800000 is one. -/
theorem ofBits_one : Ideal.ofBits .f32 0x3F800000#32 = 1 := by
  simp [Ideal.ofBits, Ideal.ieee, -EReal.coe_mul]; norm_num

end Cert.RefScatter

end
-- ==== Proof.RefCount.lean ====
/-
  The reference's counts and weights. The counts are an integer scatter-add of ones into 32 zeros at the labels
  (clipped below at zero, a negative one wrapped by 32: neither changes a label in range): a left fold over the
  pixels in row-major order that adds one to the entry a pixel's label names. Read at class c the fold is the
  number of pixels labelled c, as a 32-bit word; there are at most 2^20 pixels, so the word read signed is that
  number, and converted to a float it is the count. A pixel's weight is one over the count gathered at its label
  (wrapped if negative, then clamped into the table: a label in range reads its own class).
-/
import proofs.«408105_j28698971472547_3_alg».proof.Proof.RefRead
import proofs.«408105_j28698971472547_3_alg».proof.Proof.Spec
import proofs.«408105_j28698971472547_3_alg».proof.Proof.RefScatter
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Predicate

noncomputable section

namespace Cert.ReferenceIdeal.RefCount

open Cert.ReferenceIdeal Cert.ReferenceIdeal.Gen Cert.ReferenceIdeal.ReadP Idealize.ShloMosaic
open Idealize.ShloMosaic.ValueIdx Cert.RefScatter

/-! ## The index column of the scatter: a label in range is its own index -/

/-- Row (n, h, w) of the flattened labels is pixel (n, h, w). -/
private theorem idx_v5_rowOf (n : Fin 16) (h w : Fin 256) : idx_main_v5 (ix1 (rowOf n h w)) = ix3 n h w := by
  have := n.isLt; have := h.isLt; have := w.isLt
  funext a
  match a with
  | ⟨0, _⟩ => exact Fin.ext (by show ((n.val * 256 + h.val) * 256 + w.val) / 65536 = n.val; omega)
  | ⟨1, _⟩ => exact Fin.ext (by show ((n.val * 256 + h.val) * 256 + w.val) / 256 % 256 = h.val; omega)
  | ⟨2, _⟩ => exact Fin.ext (by show ((n.val * 256 + h.val) * 256 + w.val) % 256 = w.val; omega)

/-- The clipped and wrapped label of a row, for labels in range: the label. -/
private theorem v12_apply (T : Cert.Wce.ST.Idx → BitVec 32) (hT : Cert.Wce.InRange T) (i : S1048576.Idx) :
    val_main_v12 (F := Ideal) T i = T (idx_main_v5 i) := by
  simp only [val_main_v12_apply, val_main_v9_apply, val_main_v11_apply, val_main_v7_apply, val_main_v8_apply,
    val_main_v10_apply, val_main_call2_v1_apply, val_main_call2_v0_apply, val_main_c_0_apply, val_main_c_1_apply,
    val_main_c_2_apply, val_main_v5_apply]
  rw [clip_of_nonneg _ (hT _).1]
  exact wrap_of_nonneg _ _ (hT _).1

/-- The index column at row e reads the wrapped label of row e. -/
private theorem v13_apply (T : Cert.Wce.ST.Idx → BitVec 32) (hT : Cert.Wce.InRange T) (n : Fin 16) (h w : Fin 256) :
    val_main_v13 (F := Ideal) T (ix2 (rowOf n h w) (0 : Fin 1)) = T (ix3 n h w) := by
  rw [val_main_v13_apply]
  have hi : idx_main_v13 (ix2 (rowOf n h w) (0 : Fin 1)) = ix1 (rowOf n h w) := by
    funext a
    match a with
    | ⟨0, _⟩ => rfl
  rw [hi, v12_apply T hT, idx_v5_rowOf]

/-- The row of pixel (n, h, w) lands on class c exactly when the pixel is labelled c. -/
private theorem lands_iff (T : Cert.Wce.ST.Idx → BitVec 32) (hT : Cert.Wce.InRange T) (n : Fin 16) (h w : Fin 256)
    (c : Fin 32) :
    scatter_S32_S1048576x1_S1048576_n_0_0_1.resultIdx? (ix1 (rowOf n h w)) (val_main_v13 (F := Ideal) T) = some (ix1 c)
      ↔ T (ix3 n h w) = Cert.Wce.cls c := by
  have hd : scatter_S32_S1048576x1_S1048576_n_0_0_1
      = colDims 32 1048576 Facts₀.scatter_S32_S1048576x1_S1048576_n_0_0_1_wf := rfl
  have hc := c.isLt
  rw [hd, colDims_resultIdx?_eq_some_iff, v13_apply T hT]
  unfold Cert.Wce.cls
  exact (eq_ofNat_iff_toInt _ c.val (by omega)).symm

/-! ## The counts -/

/-- The scatter's fold read at class c: the sum of the word one over the pixels labelled c. -/
private theorem v15_apply (T : Cert.Wce.ST.Idx → BitVec 32) (hT : Cert.Wce.InRange T) (c : Fin 32) :
    val_main_v15 (F := Ideal) T (ix1 c)
      = ∑ n : Fin 16, ∑ h : Fin 256, ∑ w : Fin 256, if T (ix3 n h w) = Cert.Wce.cls c then (1 : BitVec 32) else 0 := by
  unfold val_main_v15
  rw [scatter_addi_apply, sum_rows, val_main_v6_apply, val_main_c_apply, show (0#32 : BitVec 32) = 0 from rfl, zero_add]
  refine Finset.sum_congr rfl fun n _ => Finset.sum_congr rfl fun h _ => Finset.sum_congr rfl fun w _ => ?_
  rw [val_main_v14_apply, val_main_c_3_apply]
  exact if_congr (lands_iff T hT n h w c) rfl rfl

/-- The counts as floats, for labels in range. -/
theorem counts_apply (T : Cert.Wce.ST.Idx → BitVec 32) (hT : Cert.Wce.InRange T) (c : Fin 32) :
    val_main_v16 (F := Ideal) T (ix1 c) = Cert.Wce.cnt T c := by
  rw [val_main_v16_apply, v15_apply T hT c]
  exact sitofp_count fun n h w => T (ix3 n h w) = Cert.Wce.cls c

/-! ## The weights -/

/-- The start-index column of the take at pixel (n, h, w), for labels in range: the label. -/
private theorem v22_apply (T : Cert.Wce.ST.Idx → BitVec 32) (hT : Cert.Wce.InRange T) (n : Fin 16) (h w : Fin 256) :
    val_main_v22 (F := Ideal) T (ix4 n h w (0 : Fin 1)) = T (ix3 n h w) := by
  rw [val_main_v22_apply]
  have hi : idx_main_v22 (ix4 n h w (0 : Fin 1)) = ix3 n h w := by
    funext a
    match a with
    | ⟨0, _⟩ => rfl
    | ⟨1, _⟩ => rfl
    | ⟨2, _⟩ => rfl
  rw [hi]
  simp only [val_main_v21_apply, val_main_v18_apply, val_main_v20_apply, val_main_v17_apply, val_main_v19_apply,
    val_main_c_4_apply, val_main_c_5_apply]
  exact wrap_of_nonneg _ _ (hT _).1

/-- A pixel's weight, for labels in range. -/
theorem weight_apply (T : Cert.Wce.ST.Idx → BitVec 32) (hT : Cert.Wce.InRange T) (n : Fin 16) (h w : Fin 256) :
    val_main_v25 (F := Ideal) T (ix3 n h w) = Ideal.div 1 (Cert.Wce.cnt T (Cert.Wce.tcl T n h w)) := by
  have hd : gather_S32_S16x256x256x1_S16x256x256_n_0_n_n_0_3_1
      = take3Dims 32 16 256 256 Facts₀.gather_S32_S16x256x256x1_S16x256x256_n_0_n_n_0_3_1_wf := rfl
  have h0 := (hT (ix3 n h w)).1
  have h1 := (hT (ix3 n h w)).2
  have hi := toNat_of_inRange (T (ix3 n h w)) h0
  have hc : clampIdx 32 (by decide) (T (ix3 n h w)).toInt = Cert.Wce.tcl T n h w := by
    refine Fin.ext ?_
    rw [clampIdx_val_of_lt 32 (by decide) _ (by omega)]
    show (T (ix3 n h w)).toInt.toNat = (T (ix3 n h w)).toNat % 32
    omega
  rw [val_main_v25_apply, val_main_v24_apply, val_main_cst_apply]
  unfold val_main_v23
  rw [hd, gather_take3_apply (N := 32) _ _ _ _ _ (by decide), v22_apply T hT, hc, counts_apply T hT]
  show Ideal.div (Ideal.ofBits .f32 0x3F800000#32) _ = _
  rw [ofBits_one]

end Cert.ReferenceIdeal.RefCount

end
-- ==== Proof.RefValue.lean ====
/-
  The reference's result is the loss. Its last stage divides two totals taken from zero over all pixels: of the
  per-pixel cross entropy (the negated log-probability of the label's class) times the pixel's weight, and of the
  weights. With real logits and labels in range these are the cross entropy and the weight in their other
  spelling, pixel by pixel.
-/
import proofs.«408105_j28698971472547_3_alg».proof.Proof.RefSoftmax
import proofs.«408105_j28698971472547_3_alg».proof.Proof.RefCount
import proofs.«408105_j28698971472547_3_alg».proof.Proof.Algebra

noncomputable section

namespace Cert.ReferenceIdeal.RefValue

open Cert.ReferenceIdeal Cert.ReferenceIdeal.Gen Cert.ReferenceIdeal.ReadP Idealize.ShloMosaic
open Idealize.ShloMosaic.ValueIdx

/-- The reference's result array, for real logits and labels in range. -/
theorem ref_value (X : Cert.Wce.SX.Idx → EReal) (T : Cert.Wce.ST.Idx → BitVec 32)
    (hX : Cert.Wce.Finite X) (hT : Cert.Wce.InRange T) :
    val_main_v29 (F := Ideal) X T = fun _ => Cert.Wce.loss X T := by
  funext i
  rw [val_main_v29_apply, val_main_v27_apply, val_main_v28_apply]
  have h6 : val_main_cst_6 (F := Ideal) (Shape.Idx.first h_S_) = 0 := Ideal.ofBits_zero_f32
  have h7 : val_main_cst_7 (F := Ideal) (Shape.Idx.first h_S_) = 0 := Ideal.ofBits_zero_f32
  rw [h6, h7]
  exact Cert.Wce.lossRef_eq X T hX hT (val_main_v4 (F := Ideal) X T) (val_main_v25 (F := Ideal) T)
    (fun n h w => ce_apply X T hT n h w) (fun n h w => Cert.ReferenceIdeal.RefCount.weight_apply T hT n h w)

end Cert.ReferenceIdeal.RefValue

end
-- ==== Proof.Claims.lean ====
/-
  The five claims. The two kernel programs' frames are the generated ones; the reference's frame is its generated
  run with the result dropped; the idealization rewrote nothing. For the equivalence: the two-region program ends
  with its result at the loss assembled block by block and point by point, which is the loss by reordering sums
  alone; the reference ends with its result at the fold of its operations, which read in stretches is the loss written over all pixels at once, which is the loss when
  the logits are real and the labels are classes — what the precondition says.
-/
import proofs.«408105_j28698971472547_3_alg».proof.Defs
import proofs.«408105_j28698971472547_3_alg».proof.Proof.Gen.Kernel.Frame
import proofs.«408105_j28698971472547_3_alg».proof.Proof.Gen.KernelIdeal.Frame
import proofs.«408105_j28698971472547_3_alg».proof.Proof.RefRun
import proofs.«408105_j28698971472547_3_alg».proof.Proof.RefRead
import proofs.«408105_j28698971472547_3_alg».proof.Proof.RefStages
import proofs.«408105_j28698971472547_3_alg».proof.Proof.Gen.Pre_finite_inputs
import proofs.«408105_j28698971472547_3_alg».proof.Proof.KernelRun
import proofs.«408105_j28698971472547_3_alg».proof.Proof.Glue
import proofs.«408105_j28698971472547_3_alg».proof.Proof.Algebra
import proofs.«408105_j28698971472547_3_alg».proof.Proof.Pre
import proofs.«408105_j28698971472547_3_alg».proof.Proof.RefValue

noncomputable section

namespace Cert.Proof.Claims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

theorem algebraic : Cert.algebraic_KernelIdeal_ReferenceIdeal := by
  intro m ρ m' ρ' hpre hagree
  refine ⟨fun c _ => Cert.Wce.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨(h c).1.trans ?_, (h c).2⟩)
      (Cert.KernelIdeal.ValRun.run_v10 (F := Ideal) m ρ)
    rw [Cert.KernelIdeal.Glue.result_eq m ρ c]
    funext _
    exact Cert.Wce.lossK_eq _ _
  · refine (θ_run Cert.ReferenceIdeal.defs _ _).mono (fun r h c => ⟨(h c).1.trans ?_, (h c).2⟩)
      (Cert.ReferenceIdeal.ValueP.run (F := Ideal) m' ρ')
    obtain ⟨hX, hT⟩ := Cert.Wce.decode _ _ (hpre c)
    rw [Cert.ReferenceIdeal.Stages.fold_eq]
    show Cert.ReferenceIdeal.ReadP.val_main_v29 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1)) = _
    rw [(hagree c).1, (hagree c).2]
    exact Cert.ReferenceIdeal.RefValue.ref_value _ _ hX hT

end Cert.Proof.Claims

end
-- ==== Proof.lean ====
/-
  The certificate: a class-weighted cross entropy, computed by a two-region program (per-class pixel counts, then
  per batch entry the pair of the weighted sum of cross entropies and the sum of weights, finished on the host) and
  by a reference (log-softmax, the label's entry, a count of the labels, one over the count at the label), are the
  same extended real when the logits are real numbers and every label is one of the 32 classes.
-/
import proofs.«408105_j28698971472547_3_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
